-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x256 : Shape := ⟨3, ![8, 1024, 256]⟩
abbrev S8x1024x2x320 : Shape := ⟨4, ![8, 1024, 2, 320]⟩
abbrev S8x1024x100 : Shape := ⟨3, ![8, 1024, 100]⟩
abbrev S8x1024 : Shape := ⟨2, ![8, 1024]⟩
abbrev S_ : Shape := ⟨0, ![]⟩

class Facts : Prop where
  bcast_S_S8x1024x256 : S_.BroadcastsInDim S8x1024x256 (![] : Fin 0 → Fin S8x1024x256.rank)
  reducesTo_S8x1024x256_S_d0_1_2 : S8x1024x256.ReducesTo [0, 1, 2] S_
  h_S_ : 0 < S_.numel
  bcast_S_S8x1024x2x320 : S_.BroadcastsInDim S8x1024x2x320 (![] : Fin 0 → Fin S8x1024x2x320.rank)
  reducesTo_S8x1024x2x320_S_d0_1_2_3 : S8x1024x2x320.ReducesTo [0, 1, 2, 3] S_
  bcast_S_S8x1024x100 : S_.BroadcastsInDim S8x1024x100 (![] : Fin 0 → Fin S8x1024x100.rank)
  reducesTo_S8x1024x100_S_d0_1_2 : S8x1024x100.ReducesTo [0, 1, 2] S_

variable [Facts]

def fn_part1 {F : FTy → Type} [FloatOps F] (main_arg3 : IVec S8x1024x100 32) (main_v13 : IVec S_ 1) (main_v15 : IVec S8x1024x100 1) (main_c_5 : IVec S_ 32) : IVec S_ 1 :=
  let main_v16 : IVec S8x1024x100 32 := broadcastInDim S8x1024x100 ![] bcast_S_S8x1024x100 main_c_5
  let main_v17 : IVec S8x1024x100 1 := cmpi .slt main_arg3 main_v16
  let main_v18 : IVec S8x1024x100 1 := andi main_v15 main_v17
  let main_c_6 : IVec S_ 1 := constantI S_ 1 1#1
  let main_v19 : IVec S_ 1 := (fun x v => Host.reduce IntOp.andi x v reducesTo_S8x1024x100_S_d0_1_2 h_S_) main_v18 main_c_6
  let main_v20 : IVec S_ 1 := andi main_v13 main_v19
  main_v20

def fn {F : FTy → Type} [FloatOps F] (main_arg0 : FVec F S8x1024x256 .f32) (main_arg1 : FVec F S8x1024x256 .f32) (main_arg2 : FVec F S8x1024x2x320 .f32) (main_arg3 : IVec S8x1024x100 32) (main_arg4 : IVec S8x1024 1) : IVec S_ 1 :=
  let main_v0 : FVec F S8x1024x256 .f32 := Host.absf main_arg0
  let main_cst : FVec F S_ .f32 := constant S_ .f32 0x7F800000#32
  let main_v1 : FVec F S8x1024x256 .f32 := broadcastInDim S8x1024x256 ![] bcast_S_S8x1024x256 main_cst
  let main_v2 : IVec S8x1024x256 1 := cmpf .olt main_v0 main_v1
  let main_c : IVec S_ 1 := constantI S_ 1 1#1
  let main_v3 : IVec S_ 1 := (fun x v => Host.reduce IntOp.andi x v reducesTo_S8x1024x256_S_d0_1_2 h_S_) main_v2 main_c
  let main_v4 : FVec F S8x1024x256 .f32 := Host.absf main_arg1
  let main_cst_0 : FVec F S_ .f32 := constant S_ .f32 0x7F800000#32
  let main_v5 : FVec F S8x1024x256 .f32 := broadcastInDim S8x1024x256 ![] bcast_S_S8x1024x256 main_cst_0
  let main_v6 : IVec S8x1024x256 1 := cmpf .olt main_v4 main_v5
  let main_c_1 : IVec S_ 1 := constantI S_ 1 1#1
  let main_v7 : IVec S_ 1 := (fun x v => Host.reduce IntOp.andi x v reducesTo_S8x1024x256_S_d0_1_2 h_S_) main_v6 main_c_1
  let main_v8 : IVec S_ 1 := andi main_v3 main_v7
  let main_v9 : FVec F S8x1024x2x320 .f32 := Host.absf main_arg2
  let main_cst_2 : FVec F S_ .f32 := constant S_ .f32 0x7F800000#32
  let main_v10 : FVec F S8x1024x2x320 .f32 := broadcastInDim S8x1024x2x320 ![] bcast_S_S8x1024x2x320 main_cst_2
  let main_v11 : IVec S8x1024x2x320 1 := cmpf .olt main_v9 main_v10
  let main_c_3 : IVec S_ 1 := constantI S_ 1 1#1
  let main_v12 : IVec S_ 1 := (fun x v => Host.reduce IntOp.andi x v reducesTo_S8x1024x2x320_S_d0_1_2_3 h_S_) main_v11 main_c_3
  let main_v13 : IVec S_ 1 := andi main_v8 main_v12
  let main_c_4 : IVec S_ 32 := constantI S_ 32 0#32
  let main_v14 : IVec S8x1024x100 32 := broadcastInDim S8x1024x100 ![] bcast_S_S8x1024x100 main_c_4
  let main_v15 : IVec S8x1024x100 1 := cmpi .sge main_arg3 main_v14
  let main_c_5 : IVec S_ 32 := constantI S_ 32 1024#32
  fn_part1 (F := F) main_arg3 main_v13 main_v15 main_c_5
-- ==== Kernel.lean ====
abbrev S8x1024x256 : Shape := ⟨3, ![8, 1024, 256]⟩
abbrev S8x1024x2x320 : Shape := ⟨4, ![8, 1024, 2, 320]⟩
abbrev S8x1024x100 : Shape := ⟨3, ![8, 1024, 100]⟩
abbrev S8x1024 : Shape := ⟨2, ![8, 1024]⟩
abbrev S8x1024x1024 : Shape := ⟨3, ![8, 1024, 1024]⟩
abbrev S8x1024x1 : Shape := ⟨3, ![8, 1024, 1]⟩
abbrev S8x2x320 : Shape := ⟨3, ![8, 2, 320]⟩
abbrev S8x1x1 : Shape := ⟨3, ![8, 1, 1]⟩
abbrev S1x1024x256 : Shape := ⟨3, ![1, 1024, 256]⟩
abbrev S1x1024x2x320 : Shape := ⟨4, ![1, 1024, 2, 320]⟩
abbrev S1x1024x1024 : Shape := ⟨3, ![1, 1024, 1024]⟩
abbrev S1x1024x1 : Shape := ⟨3, ![1, 1024, 1]⟩
abbrev S1x2x320 : Shape := ⟨3, ![1, 2, 320]⟩
abbrev S1x1x1 : Shape := ⟨3, ![1, 1, 1]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1024x2x320 : Shape := ⟨3, ![1024, 2, 320]⟩
abbrev S1024x2 : Shape := ⟨2, ![1024, 2]⟩
abbrev S1024x2x1 : Shape := ⟨3, ![1024, 2, 1]⟩
abbrev S2x320 : Shape := ⟨2, ![2, 320]⟩
abbrev S1 : Shape := ⟨1, ![1]⟩
abbrev S1x1 : Shape := ⟨2, ![1, 1]⟩
abbrev S_ : Shape := ⟨0, ![]⟩
abbrev S8x1024x100x1 : Shape := ⟨4, ![8, 1024, 100, 1]⟩
abbrev S1x1x1x1 : Shape := ⟨4, ![1, 1, 1, 1]⟩
abbrev S1x1024x100 : Shape := ⟨3, ![1, 1024, 100]⟩
abbrev S1024x100 : Shape := ⟨2, ![1024, 100]⟩
abbrev S2 : Shape := ⟨1, ![2]⟩

abbrev nBuf : Space → Nat
  | .hbm => 65
  | .vmem => 24
  | .smem => 0
  | _ => 0

abbrev bufTy : (tb : Table) → Fin (tcTables nBuf tb) → BufTy
  | .hbm, ⟨0, _⟩ => ⟨S8x1024x256, .f32⟩
  | .hbm, ⟨1, _⟩ => ⟨S8x1024x256, .f32⟩
  | .hbm, ⟨2, _⟩ => ⟨S8x1024x2x320, .f32⟩
  | .hbm, ⟨3, _⟩ => ⟨S8x1024x100, .i32⟩
  | .hbm, ⟨4, _⟩ => ⟨S8x1024, .i1⟩
  | .hbm, ⟨5, _⟩ => ⟨S8x1024x1024, .f32⟩
  | .hbm, ⟨6, _⟩ => ⟨S8x1024x1, .f32⟩
  | .hbm, ⟨7, _⟩ => ⟨S8x2x320, .f32⟩
  | .hbm, ⟨8, _⟩ => ⟨S8x1x1, .f32⟩
  | .hbm, ⟨9, _⟩ => ⟨S_, .i32⟩
  | .hbm, ⟨10, _⟩ => ⟨S8x1024x100, .i32⟩
  | .hbm, ⟨11, _⟩ => ⟨S8x1024x100, .i1⟩
  | .hbm, ⟨12, _⟩ => ⟨S_, .i32⟩
  | .hbm, ⟨13, _⟩ => ⟨S8x1024x100, .i32⟩
  | .hbm, ⟨14, _⟩ => ⟨S8x1024x100, .i32⟩
  | .hbm, ⟨15, _⟩ => ⟨S8x1024x100, .i32⟩
  | .hbm, ⟨16, _⟩ => ⟨S8x1024x100x1, .i32⟩
  | .hbm, ⟨17, _⟩ => ⟨S1, .i32⟩
  | .hbm, ⟨18, _⟩ => ⟨S_, .i32⟩
  | .hbm, ⟨19, _⟩ => ⟨S8x1024x100x1, .i32⟩
  | .hbm, ⟨20, _⟩ => ⟨S8x1024x100x1, .i1⟩
  | .hbm, ⟨21, _⟩ => ⟨S1x1x1x1, .i32⟩
  | .hbm, ⟨22, _⟩ => ⟨S8x1024x100x1, .i32⟩
  | .hbm, ⟨23, _⟩ => ⟨S8x1024x100x1, .i1⟩
  | .hbm, ⟨24, _⟩ => ⟨S8x1024x100x1, .i1⟩
  | .hbm, ⟨25, _⟩ => ⟨S_, .i1⟩
  | .hbm, ⟨26, _⟩ => ⟨S8x1024x100, .i1⟩
  | .hbm, ⟨27, _⟩ => ⟨S8x1024x100, .f32⟩
  | .hbm, ⟨28, _⟩ => ⟨S_, .f32⟩
  | .hbm, ⟨29, _⟩ => ⟨S8x1024x100, .f32⟩
  | .hbm, ⟨30, _⟩ => ⟨S8x1024x100, .f32⟩
  | .hbm, ⟨31, _⟩ => ⟨S8x1024, .f32⟩
  | .hbm, ⟨32, _⟩ => ⟨S8x1024x1, .f32⟩
  | .hbm, ⟨33, _⟩ => ⟨S8x1x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2x320, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2x320, .f32⟩
  | .hbm, ⟨42, _⟩ => ⟨S2x320, .f32⟩
  | .hbm, ⟨43, _⟩ => ⟨S_, .f32⟩
  | .hbm, ⟨44, _⟩ => ⟨S2x320, .f32⟩
  | .hbm, ⟨45, _⟩ => ⟨S2x320, .f32⟩
  | .hbm, ⟨46, _⟩ => ⟨S2x320, .f32⟩
  | .hbm, ⟨47, _⟩ => ⟨S2x320, .f32⟩
  | .hbm, ⟨48, _⟩ => ⟨S_, .f32⟩
  | .hbm, ⟨49, _⟩ => ⟨S2, .f32⟩
  | .hbm, ⟨50, _⟩ => ⟨S2, .f32⟩
  | .hbm, ⟨51, _⟩ => ⟨S2, .f32⟩
  | .hbm, ⟨52, _⟩ => ⟨S_, .f32⟩
  | .hbm, ⟨53, _⟩ => ⟨S2, .f32⟩
  | .hbm, ⟨54, _⟩ => ⟨S2, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x2x320, .f32⟩
  | .local _ .vmem, ⟨5, _⟩ => ⟨S1x1024x2x320, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1, .f32⟩
  | .local _ .vmem, ⟨9, _⟩ => ⟨S1x1024x1, .f32⟩
  | .local _ .vmem, ⟨10, _⟩ => ⟨S1x2x320, .f32⟩
  | .local _ .vmem, ⟨11, _⟩ => ⟨S1x2x320, .f32⟩
  | .local _ .vmem, ⟨12, _⟩ => ⟨S1x1x1, .f32⟩
  | .local _ .vmem, ⟨13, _⟩ => ⟨S1x1x1, .f32⟩
  | .local _ .vmem, ⟨14, _⟩ => ⟨S1x1024x100, .f32⟩
  | .local _ .vmem, ⟨15, _⟩ => ⟨S1x1024x100, .f32⟩
  | .local _ .vmem, ⟨16, _⟩ => ⟨S1x1024x1, .f32⟩
  | .local _ .vmem, ⟨17, _⟩ => ⟨S1x1024x1, .f32⟩
  | .local _ .vmem, ⟨18, _⟩ => ⟨S1x1024x100, .i32⟩
  | .local _ .vmem, ⟨19, _⟩ => ⟨S1x1024x100, .i32⟩
  | .local _ .vmem, ⟨20, _⟩ => ⟨S1x1024x1, .f32⟩
  | .local _ .vmem, ⟨21, _⟩ => ⟨S1x1024x1, .f32⟩
  | .local _ .vmem, ⟨22, _⟩ => ⟨S1x1x1, .f32⟩
  | .local _ .vmem, ⟨23, _⟩ => ⟨S1x1x1, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_cst_0 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_cst_2 : Ref sig .tc := ⟨.hbm, 40, rfl⟩
abbrev main_v8 : Ref sig .tc := ⟨.hbm, 41, rfl⟩
abbrev main_v9 : Ref sig .tc := ⟨.hbm, 42, rfl⟩
abbrev main_cst_3 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_4 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_5 : Ref sig .tc := ⟨.hbm, 52, rfl⟩
abbrev main_v17 : Ref sig .tc := ⟨.hbm, 53, rfl⟩
abbrev main_v18 : Ref sig .tc := ⟨.hbm, 54, rfl⟩
abbrev main_cst_6 : Ref sig .tc := ⟨.hbm, 55, rfl⟩
abbrev main_v19 : Ref sig .tc := ⟨.hbm, 56, rfl⟩
abbrev main_cst_7 : Ref sig .tc := ⟨.hbm, 57, rfl⟩
abbrev main_v20 : Ref sig .tc := ⟨.hbm, 58, rfl⟩
abbrev main_cst_8 : Ref sig .tc := ⟨.hbm, 59, rfl⟩
abbrev main_v21 : Ref sig .tc := ⟨.hbm, 60, rfl⟩
abbrev main_v22 : Ref sig .tc := ⟨.hbm, 61, rfl⟩
abbrev main_cst_9 : Ref sig .tc := ⟨.hbm, 62, rfl⟩
abbrev main_v23 : Ref sig .tc := ⟨.hbm, 63, rfl⟩
abbrev main_v24 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x100 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  transposes_S1024x256_p1_0_S256x1024 : S1024x256.Transposes [1, 0] S256x1024
  bitsLt_bf16_f32 : FTy.bits .bf16 < FTy.bits .f32
  reduces_S1024x256_S1024 : S1024x256.Reduces [1] S1024
  shapeCasts_S1024_S1024x1 : S1024.ShapeCasts S1024x1
  reduces_S256x1024_S1024 : S256x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1024x2x320_S1x1024x2x320_0_0_0_0 : ∀ a, (![0, 0, 0, 0] : Fin 4 → Nat) a + S1x1024x2x320.size a ≤ S1x1024x2x320.size a
  h_S1x1024x2x320 : 0 < S1x1024x2x320.numel
  shapeCasts_S1x1024x2x320_S1024x2x320 : S1x1024x2x320.ShapeCasts S1024x2x320
  reduces_S1024x2x320_S1024x2 : S1024x2x320.Reduces [2] S1024x2
  shapeCasts_S1024x2_S1024x2x1 : S1024x2.ShapeCasts S1024x2x1
  broadcasts_S1024x2x1_S1024x2x320 : S1024x2x1.Broadcasts S1024x2x320
  reduces_S1024x2x320_S2x320 : S1024x2x320.Reduces [0] S2x320
  inb_S1x2x320_S1x2x320_0_0_0 : ∀ a, (![0, 0, 0] : Fin 3 → Nat) a + S1x2x320.size a ≤ S1x2x320.size a
  h_S1x2x320 : 0 < S1x2x320.numel
  shapeCasts_S1x2x320_S2x320 : S1x2x320.ShapeCasts S2x320
  shapeCasts_S2x320_S1x2x320 : S2x320.ShapeCasts S1x2x320
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  bcast_S_S8x1024x100 : S_.BroadcastsInDim S8x1024x100 (![] : Fin 0 → Fin S8x1024x100.rank)
  shapeCasts_S8x1024x100_S8x1024x100x1 : S8x1024x100.ShapeCasts S8x1024x100x1
  bcast_S_S8x1024x100x1 : S_.BroadcastsInDim S8x1024x100x1 (![] : Fin 0 → Fin S8x1024x100x1.rank)
  bcast_S1_S1x1x1x1_3 : S1.BroadcastsInDim S1x1x1x1 (![3] : Fin 1 → Fin S1x1x1x1.rank)
  bcast_S1x1x1x1_S8x1024x100x1_0_1_2_3 : S1x1x1x1.BroadcastsInDim S8x1024x100x1 (![0, 1, 2, 3] : Fin 4 → Fin S8x1024x100x1.rank)
  reducesTo_S8x1024x100x1_S8x1024x100_d3 : S8x1024x100x1.ReducesTo [3] S8x1024x100
  h_S_ : 0 < S_.numel
  bcast_S8x1024_S8x1024x1_0_1 : S8x1024.BroadcastsInDim S8x1024x1 (![0, 1] : Fin 2 → Fin S8x1024x1.rank)
  inb_S1x1024x100_S1x1024x100_0_0_0 : ∀ a, (![0, 0, 0] : Fin 3 → Nat) a + S1x1024x100.size a ≤ S1x1024x100.size a
  h_S1x1024x100 : 0 < S1x1024x100.numel
  shapeCasts_S1x1024x100_S1024x100 : S1x1024x100.ShapeCasts S1024x100
  iota_S1024x100_d0_w32 : S1024x100.Iotas .tc 32 [0]
  reduces_S1024x100_S1024 : S1024x100.Reduces [1] S1024
  broadcasts_S1024x1_S1024x100 : S1024x1.Broadcasts S1024x100
  reducesTo_S8x1x1_S_d0_1_2 : S8x1x1.ReducesTo [0, 1, 2] S_
  reducesTo_S8x2x320_S2x320_d0 : S8x2x320.ReducesTo [0] S2x320
  bcast_S_S2x320 : S_.BroadcastsInDim S2x320 (![] : Fin 0 → Fin S2x320.rank)
  reducesTo_S2x320_S2_d1 : S2x320.ReducesTo [1] S2
  bcast_S_S2 : S_.BroadcastsInDim S2 (![] : Fin 0 → Fin S2.rank)
  reducesTo_S2_S_d0 : S2.ReducesTo [0] S_
  dot_S1024x256_S256x1024_S1024x1024_1_0_0_1_n_n_wf : DotDims.WF S1024x256 S256x1024 S1024x1024 [1] [0] [0] [1] [] []
  gather_S8x1024x1024_S8x1024x100x1_S8x1024x100_n_2_01_01_2_3_111_wf : GatherDims.WF S8x1024x1024 S8x1024x100x1 S8x1024x100 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x1024x256.size a
  hwx0_0 : ∀ i : grid0.Coords, EltTy.bits .f32 = 32 ∨ (Rect.block (s := S8x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x1024x256.size a
  hwx0_1 : ∀ i : grid0.Coords, EltTy.bits .f32 = 32 ∨ (Rect.block (s := S8x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2x320.size a ≤ S8x1024x2x320.size a
  hwx0_2 : ∀ i : grid0.Coords, EltTy.bits .f32 = 32 ∨ (Rect.block (s := S8x1024x2x320) S1x1024x2x320.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .f32 = 32 ∨ (Rect.block (s := S8x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S8x1024x1.size a
  hwx0_4 : ∀ i : grid0.Coords, EltTy.bits .f32 = 32 ∨ (Rect.block (s := S8x1024x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x320.size a ≤ S8x2x320.size a
  hwx0_5 : ∀ i : grid0.Coords, EltTy.bits .f32 = 32 ∨ (Rect.block (s := S8x2x320) S1x2x320.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S8x1x1.size a
  hwx0_6 : ∀ i : grid0.Coords, EltTy.bits .f32 = 32 ∨ (Rect.block (s := S8x1x1) S1x1x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x100.size a ≤ S8x1024x100.size a
  hwx1_0 : ∀ i : grid1.Coords, EltTy.bits .f32 = 32 ∨ (Rect.block (s := S8x1024x100) S1x1024x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1.size a ≤ S8x1024x1.size a
  hwx1_1 : ∀ i : grid1.Coords, EltTy.bits .f32 = 32 ∨ (Rect.block (s := S8x1024x1) S1x1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x100.size a ≤ S8x1024x100.size a
  hwx1_2 : ∀ i : grid1.Coords, EltTy.bits .i32 = 32 ∨ (Rect.block (s := S8x1024x100) S1x1024x100.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1.size a ≤ S8x1024x1.size a
  hwx1_3 : ∀ i : grid1.Coords, EltTy.bits .f32 = 32 ∨ (Rect.block (s := S8x1024x1) S1x1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S8x1x1.size a
  hwx1_4 : ∀ i : grid1.Coords, EltTy.bits .f32 = 32 ∨ (Rect.block (s := S8x1x1) S1x1x1.size (cc1_transform_4 i) (hinb1_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def gather_S8x1024x1024_S8x1024x100x1_S8x1024x100_n_2_01_01_2_3_111 : GatherDims S8x1024x1024 S8x1024x100x1 S8x1024x100 where
  offsetDims := []
  collapsedSliceDims := [2]
  operandBatchingDims := [0, 1]
  startIndicesBatchingDims := [0, 1]
  startIndexMap := [2]
  indexVectorDim := 3
  sliceSizes := ![1, 1, 1]
  wf := gather_S8x1024x1024_S8x1024x100x1_S8x1024x100_n_2_01_01_2_3_111_wf

abbrev win0_0 : Pipeline.Window sig grid0 :=
  Pipeline.Window.ofSpec (Memref.whole main_arg1) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x2x320.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x2x320.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S1x1024x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x1024x100.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x1024x256 : Shape := ⟨3, ![8, 1024, 256]⟩
abbrev S8x1024x2x320 : Shape := ⟨4, ![8, 1024, 2, 320]⟩
abbrev S8x1024x100 : Shape := ⟨3, ![8, 1024, 100]⟩
abbrev S8x1024 : Shape := ⟨2, ![8, 1024]⟩
abbrev S8 : Shape := ⟨1, ![8]⟩
abbrev S8x1x1 : Shape := ⟨3, ![8, 1, 1]⟩
abbrev S_ : Shape := ⟨0, ![]⟩
abbrev S8x1024x100x1 : Shape := ⟨4, ![8, 1024, 100, 1]⟩
abbrev S8x1024x100x2 : Shape := ⟨4, ![8, 1024, 100, 2]⟩
abbrev S8x1024x100x256 : Shape := ⟨4, ![8, 1024, 100, 256]⟩
abbrev S8x1024x1x256 : Shape := ⟨4, ![8, 1024, 1, 256]⟩
abbrev S8x1024x101x256 : Shape := ⟨4, ![8, 1024, 101, 256]⟩
abbrev S8x1024x101 : Shape := ⟨3, ![8, 1024, 101]⟩
abbrev S8x1024x1 : Shape := ⟨3, ![8, 1024, 1]⟩
abbrev S1024 : Shape := ⟨1, ![1024]⟩
abbrev S1x1024x1 : Shape := ⟨3, ![1, 1024, 1]⟩
abbrev S8x1024x2 : Shape := ⟨3, ![8, 1024, 2]⟩
abbrev S8x1024x2x1 : Shape := ⟨4, ![8, 1024, 2, 1]⟩
abbrev S8192x2x320 : Shape := ⟨3, ![8192, 2, 320]⟩
abbrev S2x320 : Shape := ⟨2, ![2, 320]⟩
abbrev S2 : Shape := ⟨1, ![2]⟩

abbrev nBuf : Space → Nat
  | .hbm => 130
  | .vmem => 0
  | .smem => 0
  | _ => 0

abbrev hbmTy0_0 (i : Nat) : BufTy := match i % 128 with
  | 0 => ⟨S8x1024x256, .f32⟩
  | 1 => ⟨S8x1024x256, .f32⟩
  | 2 => ⟨S8x1024x2x320, .f32⟩
  | 3 => ⟨S8x1024x100, .i32⟩
  | 4 => ⟨S8x1024, .i1⟩
  | 5 => ⟨S8, .i32⟩
  | 6 => ⟨S8x1x1, .i32⟩
  | 7 => ⟨S_, .i32⟩
  | 8 => ⟨S8x1x1, .i32⟩
  | 9 => ⟨S8x1x1, .i1⟩
  | 10 => ⟨S_, .i32⟩
  | 11 => ⟨S8x1x1, .i32⟩
  | 12 => ⟨S8x1x1, .i32⟩
  | 13 => ⟨S8x1x1, .i32⟩
  | 14 => ⟨S_, .i32⟩
  | 15 => ⟨S8x1024x100, .i32⟩
  | 16 => ⟨S8x1024x100, .i1⟩
  | 17 => ⟨S_, .i32⟩
  | 18 => ⟨S8x1024x100, .i32⟩
  | 19 => ⟨S8x1024x100, .i32⟩
  | 20 => ⟨S8x1024x100, .i32⟩
  | 21 => ⟨S8x1024x100, .i32⟩
  | 22 => ⟨S8x1024x100x1, .i32⟩
  | 23 => ⟨S8x1024x100x1, .i32⟩
  | 24 => ⟨S8x1024x100x2, .i32⟩
  | 25 => ⟨S8x1024x100x256, .f32⟩
  | 26 => ⟨S8x1024x1x256, .f32⟩
  | 27 => ⟨S8x1024x101x256, .f32⟩
  | 28 => ⟨S8x1024x1x256, .f32⟩
  | 29 => ⟨S8x1024x101x256, .f32⟩
  | 30 => ⟨S8x1024x101x256, .f32⟩
  | 31 => ⟨S_, .f32⟩
  | 32 => ⟨S8x1024x101, .f32⟩
  | 33 => ⟨S8x1024x1x256, .f32⟩
  | 34 => ⟨S_, .f32⟩
  | 35 => ⟨S8x1024x1, .f32⟩
  | 36 => ⟨S8x1024x1, .f32⟩
  | 37 => ⟨S8x1024x101x256, .f32⟩
  | 38 => ⟨S_, .f32⟩
  | 39 => ⟨S8x1024x101, .f32⟩
  | 40 => ⟨S8x1024x101, .f32⟩
  | 41 => ⟨S8x1024x101, .f32⟩
  | 42 => ⟨S8x1024x101, .f32⟩
  | 43 => ⟨S_, .f32⟩
  | 44 => ⟨S8x1024x101, .f32⟩
  | 45 => ⟨S8x1024x101, .f32⟩
  | 46 => ⟨S8x1024x101, .f32⟩
  | 47 => ⟨S1024, .i32⟩
  | 48 => ⟨S1x1024x1, .i32⟩
  | 49 => ⟨S8x1024x100, .i32⟩
  | 50 => ⟨S8x1024x100, .i1⟩
  | 51 => ⟨S_, .i1⟩
  | 52 => ⟨S8x1024x1, .i1⟩
  | 53 => ⟨S8x1024x101, .i1⟩
  | 54 => ⟨S_, .f32⟩
  | 55 => ⟨S_, .f32⟩
  | 56 => ⟨S8x1024x101, .f32⟩
  | 57 => ⟨S8x1024x101, .f32⟩
  | 58 => ⟨S_, .f32⟩
  | 59 => ⟨S8x1024x101, .f32⟩
  | 60 => ⟨S8x1024x101, .f32⟩
  | 61 => ⟨S_, .f32⟩
  | 62 => ⟨S8x1024, .f32⟩
  | 63 => ⟨S_, .f32⟩
  | 64 => ⟨S8x1024, .f32⟩
  | 65 => ⟨S8x1024, .f32⟩
  | 66 => ⟨S8x1024x1, .f32⟩
  | 67 => ⟨S8x1024x101, .f32⟩
  | 68 => ⟨S8x1024x101, .f32⟩
  | 69 => ⟨S8x1024x101, .f32⟩
  | 70 => ⟨S_, .f32⟩
  | 71 => ⟨S8x1024, .f32⟩
  | 72 => ⟨S8x1024x1, .f32⟩
  | 73 => ⟨S8x1024x1, .f32⟩
  | 74 => ⟨S8x1024x101, .f32⟩
  | 75 => ⟨S8x1024x101, .f32⟩
  | 76 => ⟨S8x1024x1, .f32⟩
  | 77 => ⟨S8x1024, .f32⟩
  | 78 => ⟨S_, .f32⟩
  | 79 => ⟨S_, .f32⟩
  | 80 => ⟨S8x1024, .f32⟩
  | 81 => ⟨S8x1024, .f32⟩
  | 82 => ⟨S_, .f32⟩
  | 83 => ⟨S_, .f32⟩
  | 84 => ⟨S_, .f32⟩
  | 85 => ⟨S_, .f32⟩
  | 86 => ⟨S8x1024x2, .f32⟩
  | 87 => ⟨S_, .f32⟩
  | 88 => ⟨S8x1024x2, .f32⟩
  | 89 => ⟨S8x1024x2, .f32⟩
  | 90 => ⟨S8x1024x2x1, .f32⟩
  | 91 => ⟨S8x1024x2x320, .f32⟩
  | 92 => ⟨S8x1024x2x320, .f32⟩
  | 93 => ⟨S8x1024x2x320, .f32⟩
  | 94 => ⟨S_, .f32⟩
  | 95 => ⟨S8x1024x2, .f32⟩
  | 96 => ⟨S8x1024x2x1, .f32⟩
  | 97 => ⟨S8x1024x2x320, .f32⟩
  | 98 => ⟨S8x1024x2x320, .f32⟩
  | 99 => ⟨S8192x2x320, .f32⟩
  | 100 => ⟨S_, .f32⟩
  | 101 => ⟨S2x320, .f32⟩
  | 102 => ⟨S_, .f32⟩
  | 103 => ⟨S2x320, .f32⟩
  | 104 => ⟨S2x320, .f32⟩
  | 105 => ⟨S_, .f32⟩
  | 106 => ⟨S2x320, .f32⟩
  | 107 => ⟨S2x320, .f32⟩
  | 108 => ⟨S2x320, .f32⟩
  | 109 => ⟨S2x320, .f32⟩
  | 110 => ⟨S_, .f32⟩
  | 111 => ⟨S2, .f32⟩
  | 112 => ⟨S2, .f32⟩
  | 113 => ⟨S2, .f32⟩
  | 114 => ⟨S_, .f32⟩
  | 115 => ⟨S2, .f32⟩
  | 116 => ⟨S2, .f32⟩
  | 117 => ⟨S_, .f32⟩
  | 118 => ⟨S_, .f32⟩
  | 119 => ⟨S8x1024x256, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x1024x256, .f32⟩

abbrev hbmTy0_1 (i : Nat) : BufTy := match i % 128 with
  | 0 => ⟨S_, .f32⟩
  | 1 => ⟨S_, .f32⟩
  | _ => ⟨S8x1024x256, .f32⟩

abbrev hbmTy (i : Nat) : BufTy := match i / 128 with
  | 0 => hbmTy0_0 i
  | 1 => hbmTy0_1 i
  | _ => ⟨S8x1024x256, .f32⟩

abbrev bufTy : (tb : Table) → Fin (tcTables nBuf tb) → BufTy
  | .hbm, ⟨i, _⟩ => hbmTy i
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_call0_v0 : Ref sig .tc := ⟨.hbm, 55, rfl⟩
abbrev main_call0_v1 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_call1_cst : Ref sig .tc := ⟨.hbm, 61, rfl⟩
abbrev main_call1_v0 : Ref sig .tc := ⟨.hbm, 62, rfl⟩
abbrev main_call1_cst_0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_cst_1 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_9 : Ref sig .tc := ⟨.hbm, 78, rfl⟩
abbrev main_call2_v0 : Ref sig .tc := ⟨.hbm, 79, rfl⟩
abbrev main_call2_v1 : Ref sig .tc := ⟨.hbm, 80, rfl⟩
abbrev main_v46 : Ref sig .tc := ⟨.hbm, 81, rfl⟩
abbrev main_cst_10 : Ref sig .tc := ⟨.hbm, 82, rfl⟩
abbrev main_v47 : Ref sig .tc := ⟨.hbm, 83, rfl⟩
abbrev main_v48 : Ref sig .tc := ⟨.hbm, 84, rfl⟩
abbrev main_cst_11 : Ref sig .tc := ⟨.hbm, 85, rfl⟩
abbrev main_v49 : Ref sig .tc := ⟨.hbm, 86, rfl⟩
abbrev main_cst_12 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_13 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_14 : Ref sig .tc := ⟨.hbm, 100, rfl⟩
abbrev main_v61 : Ref sig .tc := ⟨.hbm, 101, rfl⟩
abbrev main_cst_15 : Ref sig .tc := ⟨.hbm, 102, rfl⟩
abbrev main_v62 : Ref sig .tc := ⟨.hbm, 103, rfl⟩
abbrev main_v63 : Ref sig .tc := ⟨.hbm, 104, rfl⟩
abbrev main_cst_16 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_17 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_18 : Ref sig .tc := ⟨.hbm, 114, rfl⟩
abbrev main_v71 : Ref sig .tc := ⟨.hbm, 115, rfl⟩
abbrev main_v72 : Ref sig .tc := ⟨.hbm, 116, rfl⟩
abbrev main_cst_19 : Ref sig .tc := ⟨.hbm, 117, rfl⟩
abbrev main_v73 : Ref sig .tc := ⟨.hbm, 118, rfl⟩
abbrev main_v74 : Ref sig .tc := ⟨.hbm, 119, rfl⟩
abbrev main_cst_20 : Ref sig .tc := ⟨.hbm, 120, rfl⟩
abbrev main_v75 : Ref sig .tc := ⟨.hbm, 121, rfl⟩
abbrev main_cst_21 : Ref sig .tc := ⟨.hbm, 122, rfl⟩
abbrev main_v76 : Ref sig .tc := ⟨.hbm, 123, rfl⟩
abbrev main_cst_22 : Ref sig .tc := ⟨.hbm, 124, rfl⟩
abbrev main_v77 : Ref sig .tc := ⟨.hbm, 125, rfl⟩
abbrev main_v78 : Ref sig .tc := ⟨.hbm, 126, rfl⟩
abbrev main_cst_23 : Ref sig .tc := ⟨.hbm, 127, rfl⟩
abbrev main_v79 : Ref sig .tc := ⟨.hbm, 128, rfl⟩
abbrev main_v80 : Ref sig .tc := ⟨.hbm, 129, rfl⟩

abbrev nD : Nat := 1
abbrev τ : Topo := Topo.v7x

variable {F : FTy → Type} [FloatOps F]

class Facts₀ : Prop where
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S_S8x1024x100 : S_.BroadcastsInDim S8x1024x100 (![] : Fin 0 → Fin S8x1024x100.rank)
  bcast_S8x1x1_S8x1024x100_0_1_2 : S8x1x1.BroadcastsInDim S8x1024x100 (![0, 1, 2] : Fin 3 → Fin S8x1024x100.rank)
  bcast_S8x1024x100_S8x1024x100x1_0_1_2 : S8x1024x100.BroadcastsInDim S8x1024x100x1 (![0, 1, 2] : Fin 3 → Fin S8x1024x100x1.rank)
  concatenates_S8x1024x100x1_S8x1024x100x1_S8x1024x100x2_d3 : Shape.Concatenates [S8x1024x100x1, S8x1024x100x1] S8x1024x100x2 3
  bcast_S8x1024x256_S8x1024x1x256_0_1_3 : S8x1024x256.BroadcastsInDim S8x1024x1x256 (![0, 1, 3] : Fin 3 → Fin S8x1024x1x256.rank)
  concatenates_S8x1024x1x256_S8x1024x100x256_S8x1024x101x256_d2 : Shape.Concatenates [S8x1024x1x256, S8x1024x100x256] S8x1024x101x256 2
  bcast_S8x1024x1x256_S8x1024x101x256_0_1_2_3 : S8x1024x1x256.BroadcastsInDim S8x1024x101x256 (![0, 1, 2, 3] : Fin 4 → Fin S8x1024x101x256.rank)
  reducesTo_S8x1024x101x256_S8x1024x101_d3 : S8x1024x101x256.ReducesTo [3] S8x1024x101
  h_S_ : 0 < S_.numel
  reducesTo_S8x1024x1x256_S8x1024x1_d3 : S8x1024x1x256.ReducesTo [3] S8x1024x1
  bcast_S8x1024x1_S8x1024x101_0_1_2 : S8x1024x1.BroadcastsInDim S8x1024x101 (![0, 1, 2] : Fin 3 → Fin S8x1024x101.rank)
  bcast_S_S8x1024x101 : S_.BroadcastsInDim S8x1024x101 (![] : Fin 0 → Fin S8x1024x101.rank)
  bcast_S1024_S1x1024x1_1 : S1024.BroadcastsInDim S1x1024x1 (![1] : Fin 1 → Fin S1x1024x1.rank)
  bcast_S1x1024x1_S8x1024x100_0_1_2 : S1x1024x1.BroadcastsInDim S8x1024x100 (![0, 1, 2] : Fin 3 → Fin S8x1024x100.rank)
  bcast_S_S8x1024x1 : S_.BroadcastsInDim S8x1024x1 (![] : Fin 0 → Fin S8x1024x1.rank)
  concatenates_S8x1024x1_S8x1024x100_S8x1024x101_d2 : Shape.Concatenates [S8x1024x1, S8x1024x100] S8x1024x101 2
  reducesTo_S8x1024x101_S8x1024_d2 : S8x1024x101.ReducesTo [2] S8x1024
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  slices_S8x1024x101_S8x1024x1_0_0_0 : S8x1024x101.Slices ![0, 0, 0] S8x1024x1
  shapeCasts_S8x1024x1_S8x1024 : S8x1024x1.ShapeCasts S8x1024
  reducesTo_S8x1024_S_d0_1 : S8x1024.ReducesTo [0, 1] S_
  reducesTo_S8x1024x2x320_S8x1024x2_d3 : S8x1024x2x320.ReducesTo [3] S8x1024x2
  bcast_S_S8x1024x2 : S_.BroadcastsInDim S8x1024x2 (![] : Fin 0 → Fin S8x1024x2.rank)
  bcast_S8x1024x2_S8x1024x2x1_0_1_2 : S8x1024x2.BroadcastsInDim S8x1024x2x1 (![0, 1, 2] : Fin 3 → Fin S8x1024x2x1.rank)
  bcast_S8x1024x2x1_S8x1024x2x320_0_1_2_3 : S8x1024x2x1.BroadcastsInDim S8x1024x2x320 (![0, 1, 2, 3] : Fin 4 → Fin S8x1024x2x320.rank)
  shapeCasts_S8x1024x2x320_S8192x2x320 : S8x1024x2x320.ShapeCasts S8192x2x320
  reducesTo_S8192x2x320_S2x320_d0 : S8192x2x320.ReducesTo [0] S2x320
  bcast_S_S2x320 : S_.BroadcastsInDim S2x320 (![] : Fin 0 → Fin S2x320.rank)
  reducesTo_S2x320_S2_d1 : S2x320.ReducesTo [1] S2
  bcast_S_S2 : S_.BroadcastsInDim S2 (![] : Fin 0 → Fin S2.rank)
  reducesTo_S2_S_d0 : S2.ReducesTo [0] S_
  reducesTo_S8x1024x256_S_d0_1_2 : S8x1024x256.ReducesTo [0, 1, 2] S_
  gather_S8x1024x256_S8x1024x100x2_S8x1024x100x256_3_01_n_n_01_3_11256_wf : GatherDims.WF S8x1024x256 S8x1024x100x2 S8x1024x100x256 [3] [0, 1] [] [0, 1] [] 3 ![1, 1, 256]

variable [Facts₀]

def gather_S8x1024x256_S8x1024x100x2_S8x1024x100x256_3_01_n_n_01_3_11256 : GatherDims S8x1024x256 S8x1024x100x2 S8x1024x100x256 where
  offsetDims := [3]
  collapsedSliceDims := [0, 1]
  operandBatchingDims := []
  startIndicesBatchingDims := []
  startIndexMap := [0, 1]
  indexVectorDim := 3
  sliceSizes := ![1, 1, 256]
  wf := gather_S8x1024x256_S8x1024x100x2_S8x1024x100x256_3_01_n_n_01_3_11256_wf

class Facts : Prop extends Facts₀ where

variable [Facts]
-- ==== Proof.Spec.lean ====
/-
  The mathematics both programs compute, written once over the extended reals.

  Inputs: context rows x[b,t,·] and quantized rows q[b,t,·] (256 numbers each), codebook logits cb[b,t,g,·]
  (320 numbers each), negative indices idx[b,t,k] and a mask mk[b,t].  The loss is

      combine lc ps l2s,

  where lc is the masked contrastive term (minus the sum, over masked positions, of the log-probability that a
  softmax over [positive cosine, 100 negative cosines] / temperature gives the positive), ps[g,v] is the sum over
  all 8192 positions of softmax(cb[b,t,g,·])[v], and l2s is the sum of all squares of q.  `combine` is the
  common last stretch of both programs: the entropy of ps/8192 per group, its perplexity, and the weighted sum.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The float literals both programs carry, as the extended reals their words denote. -/
def eps : EReal := Ideal.ofBits .f32 0x322BCC77#32      -- the cosine's floor on the norms' product
def tenth : EReal := Ideal.ofBits .f32 0x3DCCCCCD#32    -- the temperature, and the diversity weight
def ninf : EReal := Ideal.ofBits .f32 0xFF800000#32     -- the word of minus infinity
def half : EReal := Ideal.ofBits .f32 0x3F000000#32
def c8192 : EReal := Ideal.ofBits .f32 0x46000000#32
def c1em7 : EReal := Ideal.ofBits .f32 0x33D6BF95#32
def c320 : EReal := Ideal.ofBits .f32 0x43A00000#32
def c2p21 : EReal := Ideal.ofBits .f32 0x4A000000#32
def ten : EReal := Ideal.ofBits .f32 0x41200000#32

/-- The dot product of two rows. -/
def rowdot (u v : Fin 256 → EReal) : EReal := ∑ d, u d * v d

/-- The cosine of two rows, the product of the norms floored at `eps`. -/
def cosv (u v : Fin 256 → EReal) : EReal :=
  Ideal.div (rowdot u v) (max (Ideal.sqrt (rowdot u u) * Ideal.sqrt (rowdot v v)) eps)

/-- A row's maximum, folded from minus infinity (and once more against it, as both programs do). -/
def rowmax {n : Nat} (r : Fin n → EReal) : EReal := max ninf ((Finset.univ : Finset (Fin n)).fold max ninf r)

/-- Softmax of a row of 320 logits, at `v`. -/
def smx (r : Fin 320 → EReal) (v : Fin 320) : EReal :=
  Ideal.div (Ideal.exp (r v - rowmax r)) (∑ v', Ideal.exp (r v' - rowmax r))

/-- Row `(b, t)` of a `[8, 1024, 256]` array. -/
def row (a : (⟨3, ![8, 1024, 256]⟩ : Shape).Idx → EReal) (b : Fin 8) (t : Fin 1024) : Fin 256 → EReal :=
  fun d => a (ix3 b t d)

/-- An index word as a position `< 1024` (in range it is the word's value). -/
def tix (w : BitVec 32) : Fin 1024 := ⟨min w.toNat 1023, by omega⟩

/-- The positive's cosine at `(b, t)`. -/
def poscos (x q : (⟨3, ![8, 1024, 256]⟩ : Shape).Idx → EReal) (b : Fin 8) (t : Fin 1024) : EReal :=
  cosv (row x b t) (row q b t)

/-- Negative `k`'s cosine at `(b, t)`: against the quantized row its index names. -/
def negcos (x q : (⟨3, ![8, 1024, 256]⟩ : Shape).Idx → EReal) (idx : (⟨3, ![8, 1024, 100]⟩ : Shape).Idx → BitVec 32)
    (b : Fin 8) (t : Fin 1024) (k : Fin 100) : EReal :=
  cosv (row x b t) (row q b (tix (idx (ix3 b t k))))

/-- Negative `k` at `(b, t)` IS the positive (its index is `t`): it is struck out. -/
def hit (idx : (⟨3, ![8, 1024, 100]⟩ : Shape).Idx → BitVec 32) (b : Fin 8) (t : Fin 1024) (k : Fin 100) : Bool :=
  idx (ix3 b t k) == BitVec.ofNat 32 t.val

/-- The kernel's form of the positive's log-probability: the positive's logit minus (max + log of the shifted
    exponentials' sum), the positive's term added to the negatives' sum. -/
def lpK (pc : EReal) (nc : Fin 100 → EReal) (h : Fin 100 → Bool) : EReal :=
  let nl : Fin 100 → EReal := fun k => Ideal.div (if h k then ⊥ else nc k) tenth
  let pl : EReal := Ideal.div pc tenth
  let m : EReal := max pl ((Finset.univ : Finset (Fin 100)).fold max ninf nl)
  pl - (m + Ideal.log (Ideal.exp (pl - m) + ∑ k, Ideal.exp (nl k - m)))

/-- The reference's 101 logits of a position: the positive first, then the negatives, struck ones at minus infinity. -/
def logitsR (pc : EReal) (nc : Fin 100 → EReal) (h : Fin 100 → Bool) : Fin 101 → EReal :=
  Fin.cons (Ideal.div pc tenth) (fun k => Ideal.div (if h k then ninf else nc k) tenth)

/-- The reference's form: log-softmax of the 101 logits, at the positive. -/
def lpR (z : Fin 101 → EReal) : EReal :=
  (z 0 - rowmax z) - Ideal.log (∑ j, Ideal.exp (z j - rowmax z))

/-- The common last stretch: entropy of `ps / 8192` per group, perplexity, and the weighted sum of the three losses. -/
def combine (lc : EReal) (ps : Fin 2 → Fin 320 → EReal) (l2s : EReal) : EReal :=
  (lc + tenth * ∑ g : Fin 2, (c320 - Ideal.exp (-(∑ v : Fin 320,
      Ideal.div (ps g v) c8192 * Ideal.log (Ideal.div (ps g v) c8192 + c1em7)))))
    + ten * Ideal.div l2s c2p21

section Parts
variable (x q : (⟨3, ![8, 1024, 256]⟩ : Shape).Idx → EReal) (cb : (⟨4, ![8, 1024, 2, 320]⟩ : Shape).Idx → EReal)
  (idx : (⟨3, ![8, 1024, 100]⟩ : Shape).Idx → BitVec 32) (mk : (⟨2, ![8, 1024]⟩ : Shape).Idx → BitVec 1)

/-- The kernel's contrastive term: per batch, zero minus the masked sum over positions; then summed over batches. -/
def lcK : EReal :=
  ∑ b : Fin 8, (0 - ∑ t : Fin 1024,
    if mk (ix2 b t) = 1#1 then lpK (poscos x q b t) (negcos x q idx b t) (hit idx b t) else 0)

/-- The reference's: minus the masked sum over all positions. -/
def lcR : EReal :=
  -(∑ b : Fin 8, ∑ t : Fin 1024,
    if mk (ix2 b t) = 1#1 then lpR (logitsR (poscos x q b t) (negcos x q idx b t) (hit idx b t)) else 0)

/-- The kernel's summed softmax: per batch over positions, then over batches. -/
def psK (g : Fin 2) (v : Fin 320) : EReal :=
  ∑ b : Fin 8, ∑ t : Fin 1024, smx (fun v' => cb (ix4 b t g v')) v

/-- The reference's: over the 8192 flattened positions. -/
def psR (g : Fin 2) (v : Fin 320) : EReal :=
  ∑ n : Fin 8192, smx (fun v' => cb (ix4 ⟨n.val / 1024, by omega⟩ ⟨n.val % 1024, by omega⟩ g v')) v

/-- The kernel's sum of squares: per row, per batch, over batches. -/
def l2K : EReal := ∑ b : Fin 8, ∑ t : Fin 1024, ∑ d : Fin 256, q (ix3 b t d) * q (ix3 b t d)

/-- The reference's: over every index at once. -/
def l2R : EReal := ∑ i : (⟨3, ![8, 1024, 256]⟩ : Shape).Idx, q i * q i

end Parts

end Cert.Spec

end
-- ==== Proof.KPay0.lean ====
/-
  The first kernel's body read at an index, over the extended reals: the two cosine blocks one grid point (one batch)
  stores, as functions of the context block `x0` and the quantized block `x1` ([1, 1024, 256] each).
    · the cosine matrix at (t, s): the cosine of context row t and quantized row s — the matrix product of the rows
      (a change of float format is the identity here, so the bf16 operands are the rows themselves) over the floored
      product of the two norms, the quantized norms taken down the transposed block's columns;
    · the positive's cosine at t: the same with s = t, the dot product taken as a lane sum.
-/
import proofs.«416889_j3770981286079_1_alg».proof.Proof.Gen.KernelIdeal.Skeleton
import proofs.«416889_j3770981286079_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayRead

open Cert.KernelIdeal Cert.KernelIdeal.Gen Cert.Spec Idealize.ShloMosaic Idealize.ShloMosaic.ValueIdx

/-! ## Layout operations at coordinates: the keepdims column forms -/

section Layout
variable {α : Type}

/-- An `[a]` array cast to the column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two sums of a block: along a row's lanes, and down a column -/

/-- A sum over the lanes of a `[1024, 256]` block, at row `t`. -/
private theorem rowSum_apply (v : FVec Ideal S1024x256 .f32) (acc : BitVec 32) (h : S1024x256.Reduces [1] S1024)
    (hφ : FKind.Formats .f32) (hacc : acc = FKind.add.neutral .f32 hφ) (t : Fin 1024) :
    multiReduction .add [1] S1024 v acc h hφ hacc (ix1 t) = ∑ d : Fin 256, v (ix2 t d) := by
  refine (Ideal.multiReduction_add_single v acc h hφ hacc (ix1 t)).trans ?_
  refine Finset.sum_congr rfl fun d _ => congrArg v ?_
  funext a
  match a with
  | ⟨0, _⟩ => rfl
  | ⟨1, _⟩ => rfl

/-- A sum down the columns of a `[256, 1024]` block, at column `s`. -/
private theorem colSum_apply (v : FVec Ideal S256x1024 .f32) (acc : BitVec 32) (h : S256x1024.Reduces [0] S1024)
    (hφ : FKind.Formats .f32) (hacc : acc = FKind.add.neutral .f32 hφ) (s : Fin 1024) :
    multiReduction .add [0] S1024 v acc h hφ hacc (ix1 s) = ∑ d : Fin 256, v (ix2 d s) := by
  refine (Ideal.multiReduction_add_single v acc h hφ hacc (ix1 s)).trans ?_
  refine Finset.sum_congr rfl fun d _ => congrArg v ?_
  funext a
  match a with
  | ⟨0, _⟩ => rfl
  | ⟨1, _⟩ => rfl

/-! ## The matrix product at an index -/

/-- The left operand's row is the result's row … -/
private theorem lhs_dot_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl

/-- … its lane the contracted coordinate … -/
private theorem lhs_dot_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q

/-- … the right operand's row the contracted coordinate … -/
private theorem rhs_dot_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q

/-- … and its column the result's column. -/
private theorem rhs_dot_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The product of a `[1024, 256]` by a `[256, 1024]` block into the zero accumulator, at `(t, s)`: the sum over
    the 256 contracted coordinates of the products of the entries. -/
private theorem matmul_zero_apply {φ₁ φ₂ : FTy} (A : FVec Ideal S1024x256 φ₁) (B : FVec Ideal S256x1024 φ₂) (t s : Fin 1024) :
    matmul dot_S1024x256_S256x1024_S1024x1024_1_0_0_1_n_n none A B (constant (F := Ideal) S1024x1024 .f32 0x00000000#32) (ix2 t s)
      = ∑ k : Fin 256, A (ix2 t k) * B (ix2 k s) := by
  show FloatOps.matmul dot_S1024x256_S256x1024_S1024x1024_1_0_0_1_n_n none A B (constant (F := Ideal) S1024x1024 .f32 0x00000000#32) (ix2 t s) = _
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 t s) ((contrEquiv1 dot_S1024x256_S256x1024_S1024x1024_1_0_0_1_n_n 256 rfl rfl).symm k) = ix2 t k :=
    funext fun a => Fin.ext (by
      match a with
      | ⟨0, _⟩ => exact lhs_dot_0 _ _
      | ⟨1, _⟩ => exact (lhs_dot_1 _ _).trans hk)
  have er : dot_S1024x256_S256x1024_S1024x1024_1_0_0_1_n_n.rhsIdx (ix2 t s) ((contrEquiv1 dot_S1024x256_S256x1024_S1024x1024_1_0_0_1_n_n 256 rfl rfl).symm k) = ix2 k s :=
    funext fun a => Fin.ext (by
      match a with
      | ⟨0, _⟩ => exact (rhs_dot_0 _ _).trans hk
      | ⟨1, _⟩ => exact rhs_dot_1 _ _)
  rw [el, er]

/-! ## The body's intermediate blocks at an index -/

/-- The context block without its unit axis, at `(t, d)`. -/
private theorem pay3_apply (x0 : Vec Ideal S1x1024x256 .f32) (t : Fin 1024) (d : Fin 256) :
    k0_pay3 (F := Ideal) x0 (ix2 t d) = x0 (ix3 0 t d) := by
  unfold k0_pay3
  exact shapeCast_1ab_ab_apply x0 _ t d

/-- The quantized block without its unit axis, at `(t, d)`. -/
private theorem pay4_apply (x1 : Vec Ideal S1x1024x256 .f32) (t : Fin 1024) (d : Fin 256) :
    k0_pay4 (F := Ideal) x1 (ix2 t d) = x1 (ix3 0 t d) := by
  unfold k0_pay4
  exact shapeCast_1ab_ab_apply x1 _ t d

/-- The quantized rows' squared norms (a column), at `t`: the row's dot product with itself. -/
private theorem pay5_apply (x1 : Vec Ideal S1x1024x256 .f32) (t : Fin 1024) (u : Fin 1) :
    k0_pay5 (F := Ideal) x1 (ix2 t u) = rowdot (fun d => x1 (ix3 0 t d)) (fun d => x1 (ix3 0 t d)) := by
  unfold k0_pay5
  refine (shapeCast_a_a1_apply _ _ t u).trans ?_
  refine (rowSum_apply _ _ _ _ _ t).trans ?_
  unfold rowdot
  refine Finset.sum_congr rfl fun d _ => ?_
  rw [mulf_apply, pay4_apply]

/-- The context rows' norms (a column), at `t`. -/
private theorem pay6_apply (x0 : Vec Ideal S1x1024x256 .f32) (t : Fin 1024) (u : Fin 1) :
    k0_pay6 (F := Ideal) x0 (ix2 t u) = Ideal.sqrt (rowdot (fun d => x0 (ix3 0 t d)) (fun d => x0 (ix3 0 t d))) := by
  unfold k0_pay6
  show Ideal.sqrt _ = _
  refine congrArg Ideal.sqrt ?_
  refine (shapeCast_a_a1_apply _ _ t u).trans ?_
  refine (rowSum_apply _ _ _ _ _ t).trans ?_
  unfold rowdot
  refine Finset.sum_congr rfl fun d _ => ?_
  rw [mulf_apply, pay3_apply]

/-! ## The two stored blocks -/

/-- The cosine block at (t, s). -/
theorem pay7_apply (x0 x1 : Vec Ideal S1x1024x256 .f32) (t s : Fin 1024) :
    k0_pay7 (F := Ideal) x0 x1 (ix3 0 t s) = cosv (fun d => x0 (ix3 0 t d)) (fun d => x1 (ix3 0 s d)) := by
  unfold k0_pay7 cosv
  refine (shapeCast_ab_1ab_apply _ _ 0 t s).trans ?_
  refine congrArg₂ Ideal.div ?_ (congrArg₂ max (congrArg₂ (· * ·) ?_ ?_) rfl)
  · -- the product of the context rows by the transposed quantized block
    refine (matmul_zero_apply _ _ t s).trans ?_
    unfold rowdot
    refine Finset.sum_congr rfl fun k _ => ?_
    refine congrArg₂ (· * ·) (pay3_apply x0 t k) ?_
    exact (transpose_ix2_apply _ _ k s).trans (pay4_apply x1 s k)
  · -- the context row's norm, one column spread over the lanes
    exact (broadcastTo_a1_ab_apply _ _ t s).trans (pay6_apply x0 t 0)
  · -- the quantized row's norm, taken down the transposed block's column, one row spread over the sublanes
    refine (broadcastTo_1b_ab_apply _ _ t s).trans ?_
    refine congrArg Ideal.sqrt ?_
    refine (shapeCast_a_1a_apply _ _ 0 s).trans ?_
    refine (colSum_apply _ _ _ _ _ s).trans ?_
    unfold rowdot
    refine Finset.sum_congr rfl fun d _ => ?_
    have e : transpose S256x1024 [1, 0] (k0_pay4 (F := Ideal) x1) transposes_S1024x256_p1_0_S256x1024 (ix2 d s)
        = x1 (ix3 0 s d) := (transpose_ix2_apply _ _ d s).trans (pay4_apply x1 s d)
    exact congrArg₂ (· * ·) e e

/-- The positive's cosine block at t. -/
theorem pay8_apply (x0 x1 : Vec Ideal S1x1024x256 .f32) (t : Fin 1024) :
    k0_pay8 (F := Ideal) x0 x1 (ix3 0 t 0) = cosv (fun d => x0 (ix3 0 t d)) (fun d => x1 (ix3 0 t d)) := by
  unfold k0_pay8 cosv
  refine (shapeCast_ab_1ab_apply _ _ 0 t 0).trans ?_
  refine congrArg₂ Ideal.div ?_ (congrArg₂ max (congrArg₂ (· * ·) ?_ ?_) rfl)
  · -- the two rows' dot product, a lane sum
    refine (shapeCast_a_a1_apply _ _ t 0).trans ?_
    refine (rowSum_apply _ _ _ _ _ t).trans ?_
    unfold rowdot
    refine Finset.sum_congr rfl fun d _ => ?_
    exact congrArg₂ (· * ·) (pay3_apply x0 t d) (pay4_apply x1 t d)
  · exact pay6_apply x0 t 0
  · exact congrArg Ideal.sqrt (pay5_apply x1 t 0)

end Cert.KernelIdeal.PayRead

end
-- ==== Proof.KPay0b.lean ====
/-
  The first kernel's body read at an index, over the extended reals: the two reduction blocks one grid point (one
  batch) stores, as functions of the codebook block `x2` ([1, 1024, 2, 320]) and the quantized block `x1`.
    · the summed softmax at (g, v): the sum over the 1024 rows of softmax(x2[t, g, ·])[v], the row maximum folded from
      minus infinity;
    · the sum of squares: over rows, of the lane sums of x1².
-/
import proofs.«416889_j3770981286079_1_alg».proof.Proof.Gen.KernelIdeal.Skeleton
import proofs.«416889_j3770981286079_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayRead

open Cert.KernelIdeal Cert.KernelIdeal.Gen Cert.Spec Idealize.ShloMosaic Idealize.ShloMosaic.ValueIdx

/-- A matrix cast to a stack of columns, `[a, b]` to `[a, b, 1]`, reads at `(i, j, u)` the operand at `(i, j)`. -/
private theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A stack of columns broadcast along the lanes, `[a, b, 1]` to `[a, b, c]`, reads at `(i, j, k)` the operand at
    `(i, j, 0)`. -/
private theorem broadcastTo_ab1_abc_apply {α : Type} {a b c : ℕ} (w : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ w h (ix3 i j k) = w (ix3 i j (0 : Fin 1)) := by
  refine broadcastTo_apply w h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A per-(row, group) number cast to a column and broadcast along the lanes reads the number at every lane. -/
private theorem colBroadcast_apply (w : FVec Ideal S1024x2 .f32) (t : Fin 1024) (g : Fin 2) (v : Fin 320) :
    broadcastTo S1024x2x320 (shapeCast S1024x2x1 w shapeCasts_S1024x2_S1024x2x1) broadcasts_S1024x2x1_S1024x2x320
      (ix3 t g v) = w (ix2 t g) :=
  (broadcastTo_ab1_abc_apply _ _ t g v).trans (shapeCast_ab_ab1_apply w _ t g 0)

/-- The sum over the lanes of a `[1024, 2, 320]` block, at `(t, g)`. -/
private theorem laneSum320_apply (src : FVec Ideal S1024x2x320 .f32) (t : Fin 1024) (g : Fin 2) :
    multiReduction (F := Ideal) .add [2] S1024x2 src 0x00000000#32 reduces_S1024x2x320_S1024x2 (.inl rfl) rfl (ix2 t g)
      = ∑ v : Fin 320, src (ix3 t g v) := by
  refine (Ideal.multiReduction_add_single src 0x00000000#32 reduces_S1024x2x320_S1024x2 (.inl rfl) rfl (ix2 t g)).trans ?_
  refine Finset.sum_congr rfl fun v _ => congrArg src ?_
  funext c
  match c with
  | ⟨0, _⟩ => rfl
  | ⟨1, _⟩ => rfl
  | ⟨2, _⟩ => rfl

/-- The maximum over the lanes of a `[1024, 2, 320]` block, at `(t, g)`: the fold of `max` from minus infinity. -/
private theorem laneMax320_apply (src : FVec Ideal S1024x2x320 .f32) (t : Fin 1024) (g : Fin 2) :
    multiReduction (F := Ideal) .maximumf [2] S1024x2 src 0xFF800000#32 reduces_S1024x2x320_S1024x2 (.inl rfl) rfl (ix2 t g)
      = (Finset.univ : Finset (Fin 320)).fold max ninf (fun v => src (ix3 t g v)) := by
  refine (Ideal.multiReduction_maximumf_single src 0xFF800000#32 reduces_S1024x2x320_S1024x2 (.inl rfl) rfl (ix2 t g)).trans ?_
  have hf : (src ∘ reduces_S1024x2x320_S1024x2.lift (ix2 t g)) = fun v : Fin 320 => src (ix3 t g v) := by
    funext v
    refine congrArg src ?_
    funext c
    match c with
    | ⟨0, _⟩ => rfl
    | ⟨1, _⟩ => rfl
    | ⟨2, _⟩ => rfl
  rw [hf]
  rfl

/-- The sum over the rows of a `[1024, 2, 320]` block, at `(g, v)`. -/
private theorem rowSum_apply (src : FVec Ideal S1024x2x320 .f32) (g : Fin 2) (v : Fin 320) :
    multiReduction (F := Ideal) .add [0] S2x320 src 0x00000000#32 reduces_S1024x2x320_S2x320 (.inl rfl) rfl (ix2 g v)
      = ∑ t : Fin 1024, src (ix3 t g v) := by
  refine (Ideal.multiReduction_add_single src 0x00000000#32 reduces_S1024x2x320_S2x320 (.inl rfl) rfl (ix2 g v)).trans ?_
  refine Finset.sum_congr rfl fun t _ => congrArg src ?_
  funext c
  match c with
  | ⟨0, _⟩ => rfl
  | ⟨1, _⟩ => rfl
  | ⟨2, _⟩ => rfl

/-- The summed-softmax block at (g, v). -/
theorem pay1_apply (x2 : Vec Ideal S1x1024x2x320 .f32) (g : Fin 2) (v : Fin 320) :
    k0_pay1 (F := Ideal) x2 (ix3 0 g v) = ∑ t : Fin 1024, smx (fun v' => x2 (ix4 0 t g v')) v := by
  unfold k0_pay1
  refine (shapeCast_ab_1ab_apply _ _ 0 g v).trans ?_
  refine (rowSum_apply _ g v).trans ?_
  refine Finset.sum_congr rfl fun t _ => ?_
  -- the row's maximum, as both sides take it
  have hmax : ∀ v' : Fin 320,
      broadcastTo S1024x2x320 (shapeCast S1024x2x1
        (maximumf (broadcast S1024x2 (Scalar.ofBits (F := Ideal) .f32 0xFF800000#32))
          (multiReduction (F := Ideal) .maximumf [2] S1024x2
            (shapeCast S1024x2x320 x2 shapeCasts_S1x1024x2x320_S1024x2x320) 0xFF800000#32
            reduces_S1024x2x320_S1024x2 (.inl rfl) rfl))
        shapeCasts_S1024x2_S1024x2x1) broadcasts_S1024x2x1_S1024x2x320 (ix3 t g v')
      = rowmax (fun u => x2 (ix4 0 t g u)) := by
    intro v'
    refine (colBroadcast_apply _ t g v').trans ?_
    refine (maximumf_apply _ _ _).trans ?_
    unfold rowmax
    refine congrArg (max ninf) ?_
    refine (laneMax320_apply _ t g).trans ?_
    refine congrArg (Finset.fold max ninf · Finset.univ) ?_
    funext u
    exact shapeCast_1abc_abc_apply x2 _ t g u
  -- the shifted exponential at a lane
  have hexp : ∀ v' : Fin 320,
      exp (subf (shapeCast S1024x2x320 x2 shapeCasts_S1x1024x2x320_S1024x2x320)
        (broadcastTo S1024x2x320 (shapeCast S1024x2x1
          (maximumf (broadcast S1024x2 (Scalar.ofBits (F := Ideal) .f32 0xFF800000#32))
            (multiReduction (F := Ideal) .maximumf [2] S1024x2
              (shapeCast S1024x2x320 x2 shapeCasts_S1x1024x2x320_S1024x2x320) 0xFF800000#32
              reduces_S1024x2x320_S1024x2 (.inl rfl) rfl))
          shapeCasts_S1024x2_S1024x2x1) broadcasts_S1024x2x1_S1024x2x320)) (ix3 t g v')
      = Ideal.exp (x2 (ix4 0 t g v') - rowmax (fun u => x2 (ix4 0 t g u))) := by
    intro v'
    show Ideal.exp (_ - _) = _
    rw [hmax v', shapeCast_1abc_abc_apply]
  unfold smx
  refine (divf_apply _ _ _).trans ?_
  refine congrArg₂ Ideal.div (hexp v) ?_
  refine (colBroadcast_apply _ t g v).trans ?_
  refine (laneSum320_apply _ t g).trans ?_
  exact Finset.sum_congr rfl fun v' _ => hexp v'

/-- A vector cast to a column, `[a]` to `[a, 1]`, reads at `(i, u)` the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the lanes of a `[1024, 256]` block, at row `t`. -/
private theorem laneSum256_apply (src : FVec Ideal S1024x256 .f32) (t : Fin 1024) :
    multiReduction (F := Ideal) .add [1] S1024 src 0x00000000#32 reduces_S1024x256_S1024 (.inl rfl) rfl (ix1 t)
      = ∑ d : Fin 256, src (ix2 t d) := by
  refine (Ideal.multiReduction_add_single src 0x00000000#32 reduces_S1024x256_S1024 (.inl rfl) rfl (ix1 t)).trans ?_
  refine Finset.sum_congr rfl fun d _ => congrArg src ?_
  funext c
  match c with
  | ⟨0, _⟩ => rfl
  | ⟨1, _⟩ => rfl

/-- The sum over the rows of a `[1024, 1]` column. -/
private theorem rowSum1_apply (src : FVec Ideal S1024x1 .f32) :
    multiReduction (F := Ideal) .add [0] S1 src 0x00000000#32 reduces_S1024x1_S1 (.inl rfl) rfl (ix1 0)
      = ∑ t : Fin 1024, src (ix2 t 0) := by
  refine (Ideal.multiReduction_add_single src 0x00000000#32 reduces_S1024x1_S1 (.inl rfl) rfl (ix1 0)).trans ?_
  refine Finset.sum_congr rfl fun t _ => congrArg src ?_
  funext c
  match c with
  | ⟨0, _⟩ => rfl
  | ⟨1, _⟩ => rfl

/-- The squared-row-sum column at row `t`. -/
private theorem pay5_apply (x1 : Vec Ideal S1x1024x256 .f32) (t : Fin 1024) :
    k0_pay5 (F := Ideal) x1 (ix2 t 0) = ∑ d : Fin 256, x1 (ix3 0 t d) * x1 (ix3 0 t d) := by
  unfold k0_pay5 k0_pay4
  refine (shapeCast_a_a1_apply _ _ t 0).trans ?_
  refine (laneSum256_apply _ t).trans ?_
  refine Finset.sum_congr rfl fun d _ => ?_
  refine (mulf_apply _ _ _).trans ?_
  rw [shapeCast_1ab_ab_apply]

/-- The sum-of-squares block (one number). -/
theorem pay25_apply (x1 : Vec Ideal S1x1024x256 .f32) :
    k0_pay2 (F := Ideal) (k0_pay5 x1) (ix3 0 0 0) = ∑ t : Fin 1024, ∑ d : Fin 256, x1 (ix3 0 t d) * x1 (ix3 0 t d) := by
  unfold k0_pay2
  refine (shapeCast_ab_1ab_apply _ _ 0 0 0).trans ?_
  refine (shapeCast_a_1a_apply _ _ 0 0).trans ?_
  refine (rowSum1_apply _).trans ?_
  exact Finset.sum_congr rfl fun t _ => pay5_apply x1 t

end Cert.KernelIdeal.PayRead

end
-- ==== Proof.KRegion0Aux.lean ====
/-
  The first kernel's windows at a grid point, and its stored payloads at an index.

  The call runs once per batch b.  Here: the block index of each of its seven windows at grid point b is
  (b, 0, …, 0) (decided over the eight points); hence an input window's block, read at y, is the argument array at
  (b, y 1, …) — the batch's slab; and each stored payload, read at an index of its block (whose leading coordinate
  can only be 0), is the closed form the payload lemmas give at (0, ·, ·).
-/
import proofs.«416889_j3770981286079_1_alg».proof.Proof.Gen.KernelIdeal.Frame
import proofs.«416889_j3770981286079_1_alg».proof.Proof.KPay0
import proofs.«416889_j3770981286079_1_alg».proof.Proof.KPay0b
import Idealize.ShloMosaic.Lib.Pipeline.Value

set_option maxRecDepth 16384

noncomputable section

open scoped BigOperators

namespace Cert.KernelIdeal.Arrays

open Cert.KernelIdeal Cert.KernelIdeal.Gen Cert.KernelIdeal.PayRead Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Zero offsets, and where each window's block sits at a grid point -/

theorem zero_off3 : (![0, 0, 0] : Fin 3 → Nat) = fun _ => 0 := funext fun a => by fin_cases a <;> rfl
theorem zero_off4 : (![0, 0, 0, 0] : Fin 4 → Nat) = fun _ => 0 := funext fun a => by fin_cases a <;> rfl

/-- At grid point t the context window's block index is (t, 0, 0). -/
theorem idx_ctx : ∀ t : Fin cfg0.N, win0_0.index t (0 : Fin 3) = t.val ∧ win0_0.index t (1 : Fin 3) = 0 ∧ win0_0.index t (2 : Fin 3) = 0 :=
  (by decide +kernel : ∀ t : Fin grid0.N, _)
/-- At grid point t the quantized window's block index is (t, 0, 0). -/
theorem idx_quant : ∀ t : Fin cfg0.N, win0_1.index t (0 : Fin 3) = t.val ∧ win0_1.index t (1 : Fin 3) = 0 ∧ win0_1.index t (2 : Fin 3) = 0 :=
  (by decide +kernel : ∀ t : Fin grid0.N, _)
/-- At grid point t the codebook window's block index is (t, 0, 0, 0). -/
theorem idx_code : ∀ t : Fin cfg0.N, win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)
/-- At grid point t the cosine matrix's block index is (t, 0, 0). -/
theorem idx_cos : ∀ t : Fin cfg0.N, win0_3.index t (0 : Fin 3) = t.val ∧ win0_3.index t (1 : Fin 3) = 0 ∧ win0_3.index t (2 : Fin 3) = 0 :=
  (by decide +kernel : ∀ t : Fin grid0.N, _)
/-- At grid point t the positives' block index is (t, 0, 0). -/
theorem idx_pos : ∀ t : Fin cfg0.N, win0_4.index t (0 : Fin 3) = t.val ∧ win0_4.index t (1 : Fin 3) = 0 ∧ win0_4.index t (2 : Fin 3) = 0 :=
  (by decide +kernel : ∀ t : Fin grid0.N, _)
/-- At grid point t the summed softmax's block index is (t, 0, 0). -/
theorem idx_soft : ∀ t : Fin cfg0.N, win0_5.index t (0 : Fin 3) = t.val ∧ win0_5.index t (1 : Fin 3) = 0 ∧ win0_5.index t (2 : Fin 3) = 0 :=
  (by decide +kernel : ∀ t : Fin grid0.N, _)
/-- At grid point t the squares' block index is (t, 0, 0). -/
theorem idx_sq : ∀ t : Fin cfg0.N, win0_6.index t (0 : Fin 3) = t.val ∧ win0_6.index t (1 : Fin 3) = 0 ∧ win0_6.index t (2 : Fin 3) = 0 :=
  (by decide +kernel : ∀ t : Fin grid0.N, _)

/-! ## The input blocks as slabs of the argument arrays -/

/-- The context block at point t is batch slab t of the context array. -/
theorem ctx_blk_apply (c : Dev nD) (t : Fin cfg0.N) (y : S1x1024x256.Idx) (k : S8x1024x256.Idx)
    (h0 : (k 0).val = t.val) (h1 : (k 1).val = (y 1).val) (h2 : (k 2).val = (y 2).val) :
    (iblk0 (F := Ideal) (V0 m ρ) c 0 t : Vec Ideal S1x1024x256 .f32) y = (m ((c.tc : Thread nD τ).loc main_arg1) : S8x1024x256.Idx → EReal) k := by
  obtain ⟨e0, e1, e2⟩ := idx_ctx t
  unfold iblk0
  rw [View.read_apply]
  show m ((c.tc : Thread nD τ).loc main_arg1) _ = m ((c.tc : Thread nD τ).loc main_arg1) _
  congr 1
  funext a
  apply Fin.ext
  have hy : (y 0).val < 1 := (y 0).isLt
  match a with
  | ⟨0, _⟩ => show win0_0.index t (0 : Fin 3) * 1 + 1 * (y 0).val = (k 0).val; omega
  | ⟨1, _⟩ => show win0_0.index t (1 : Fin 3) * 1024 + 1 * (y 1).val = (k 1).val; omega
  | ⟨2, _⟩ => show win0_0.index t (2 : Fin 3) * 256 + 1 * (y 2).val = (k 2).val; omega

/-- The quantized block at point t is batch slab t of the quantized array. -/
theorem quant_blk_apply (c : Dev nD) (t : Fin cfg0.N) (y : S1x1024x256.Idx) (k : S8x1024x256.Idx)
    (h0 : (k 0).val = t.val) (h1 : (k 1).val = (y 1).val) (h2 : (k 2).val = (y 2).val) :
    (iblk0 (F := Ideal) (V0 m ρ) c 1 t : Vec Ideal S1x1024x256 .f32) y = (m ((c.tc : Thread nD τ).loc main_arg0) : S8x1024x256.Idx → EReal) k := by
  obtain ⟨e0, e1, e2⟩ := idx_quant t
  unfold iblk0
  rw [View.read_apply]
  show m ((c.tc : Thread nD τ).loc main_arg0) _ = m ((c.tc : Thread nD τ).loc main_arg0) _
  congr 1
  funext a
  apply Fin.ext
  have hy : (y 0).val < 1 := (y 0).isLt
  match a with
  | ⟨0, _⟩ => show win0_1.index t (0 : Fin 3) * 1 + 1 * (y 0).val = (k 0).val; omega
  | ⟨1, _⟩ => show win0_1.index t (1 : Fin 3) * 1024 + 1 * (y 1).val = (k 1).val; omega
  | ⟨2, _⟩ => show win0_1.index t (2 : Fin 3) * 256 + 1 * (y 2).val = (k 2).val; omega

/-- The codebook block at point t is batch slab t of the codebook array. -/
theorem code_blk_apply (c : Dev nD) (t : Fin cfg0.N) (y : S1x1024x2x320.Idx) (k : S8x1024x2x320.Idx)
    (h0 : (k 0).val = t.val) (h1 : (k 1).val = (y 1).val) (h2 : (k 2).val = (y 2).val) (h3 : (k 3).val = (y 3).val) :
    (iblk0 (F := Ideal) (V0 m ρ) c 2 t : Vec Ideal S1x1024x2x320 .f32) y = (m ((c.tc : Thread nD τ).loc main_arg2) : S8x1024x2x320.Idx → EReal) k := by
  obtain ⟨e0, e1, e2, e3⟩ := idx_code t
  unfold iblk0
  rw [View.read_apply]
  show m ((c.tc : Thread nD τ).loc main_arg2) _ = m ((c.tc : Thread nD τ).loc main_arg2) _
  congr 1
  funext a
  apply Fin.ext
  have hy : (y 0).val < 1 := (y 0).isLt
  match a with
  | ⟨0, _⟩ => show win0_2.index t (0 : Fin 4) * 1 + 1 * (y 0).val = (k 0).val; omega
  | ⟨1, _⟩ => show win0_2.index t (1 : Fin 4) * 1024 + 1 * (y 1).val = (k 1).val; omega
  | ⟨2, _⟩ => show win0_2.index t (2 : Fin 4) * 2 + 1 * (y 2).val = (k 2).val; omega
  | ⟨3, _⟩ => show win0_2.index t (3 : Fin 4) * 320 + 1 * (y 3).val = (k 3).val; omega

/-! ## The stored payloads at an index of their block -/

/-- The cosine payload at (0, t, s). -/
theorem cos_at (x0 x1 : Vec Ideal S1x1024x256 .f32) (j : S1x1024x1024.Idx) :
    k0_pay7 (F := Ideal) x0 x1 j = cosv (fun d => x0 (ix3 0 (j 1) d)) (fun d => x1 (ix3 0 (j 2) d)) := by
  have hj : j = ix3 (0 : Fin 1) (j 1) (j 2) := by
    funext a
    match a with
    | ⟨0, _⟩ => exact Fin.ext (by have h : (j 0).val < 1 := (j 0).isLt; show (j 0).val = 0; omega)
    | ⟨1, _⟩ => rfl
    | ⟨2, _⟩ => rfl
  rw [hj]
  exact pay7_apply x0 x1 (j 1) (j 2)

/-- The positives' payload at (0, t, 0). -/
theorem pos_at (x0 x1 : Vec Ideal S1x1024x256 .f32) (j : S1x1024x1.Idx) :
    k0_pay8 (F := Ideal) x0 x1 j = cosv (fun d => x0 (ix3 0 (j 1) d)) (fun d => x1 (ix3 0 (j 1) d)) := by
  have hj : j = ix3 (0 : Fin 1) (j 1) (0 : Fin 1) := by
    funext a
    match a with
    | ⟨0, _⟩ => exact Fin.ext (by have h : (j 0).val < 1 := (j 0).isLt; show (j 0).val = 0; omega)
    | ⟨1, _⟩ => rfl
    | ⟨2, _⟩ => exact Fin.ext (by have h : (j 2).val < 1 := (j 2).isLt; show (j 2).val = 0; omega)
  rw [hj]
  exact pay8_apply x0 x1 (j 1)

/-- The summed-softmax payload at (0, g, v). -/
theorem soft_at (x2 : Vec Ideal S1x1024x2x320 .f32) (j : S1x2x320.Idx) :
    k0_pay1 (F := Ideal) x2 j = ∑ t : Fin 1024, smx (fun v' => x2 (ix4 0 t (j 1) v')) (j 2) := by
  have hj : j = ix3 (0 : Fin 1) (j 1) (j 2) := by
    funext a
    match a with
    | ⟨0, _⟩ => exact Fin.ext (by have h : (j 0).val < 1 := (j 0).isLt; show (j 0).val = 0; omega)
    | ⟨1, _⟩ => rfl
    | ⟨2, _⟩ => rfl
  rw [hj]
  exact pay1_apply x2 (j 1) (j 2)

/-- The squares' payload at the block's one index. -/
theorem sq_at (x1 : Vec Ideal S1x1024x256 .f32) (j : S1x1x1.Idx) :
    k0_pay2 (F := Ideal) (k0_pay5 x1) j = ∑ t : Fin 1024, ∑ d : Fin 256, x1 (ix3 0 t d) * x1 (ix3 0 t d) := by
  have hj : j = ix3 (0 : Fin 1) (0 : Fin 1) (0 : Fin 1) := by
    funext a
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => exact Fin.ext (by have h : (j 2).val < 1 := (j 2).isLt; show (j 2).val = 0; omega)
  rw [hj]
  exact pay25_apply x1

end Cert.KernelIdeal.Arrays

end
-- ==== Proof.KRegion0.lean ====
/-
  What the first kernel leaves in its four output arrays, as whole-array functions of the argument arrays.

  The call runs once per batch b; its three input windows stage the batch's slabs of the context, quantized and
  codebook arrays, and each output window's block is the batch's slab of the output array, stored whole.  So the slab
  b of each output array is the body's stored value computed from the slabs b of the inputs, the eight slabs cover the
  array, and the array after the run is, index by index:
    · cosine matrix [8,1024,1024] at (b,t,s): the cosine of context row (b,t) and quantized row (b,s);
    · positive cosines [8,1024,1] at (b,t,0): the cosine of context row (b,t) and quantized row (b,t);
    · summed softmax [8,2,320] at (b,g,v): the sum over t of softmax(codebook[b,t,g,·])[v];
    · squares [8,1,1] at (b,0,0): the sum over t and d of quantized[b,t,d]².

  Per output: the stored payload read at a block index is the closed form at the block's place in the array (the
  windows' block indices, the input blocks as slabs and the payloads at an index are the companion module's); an
  array index i lies in the block of point (i 0); and write-backs of blocks that are all restrictions of one function,
  covering the array, leave that function.
-/
import proofs.«416889_j3770981286079_1_alg».proof.Proof.Gen.KernelIdeal.Frame
import proofs.«416889_j3770981286079_1_alg».proof.Proof.KPay0
import proofs.«416889_j3770981286079_1_alg».proof.Proof.KPay0b
import proofs.«416889_j3770981286079_1_alg».proof.Proof.KRegion0Aux
import Idealize.ShloMosaic.Lib.Pipeline.Value

set_option maxRecDepth 16384

noncomputable section

open scoped BigOperators

namespace Cert.KernelIdeal.Arrays

open Cert.KernelIdeal Cert.KernelIdeal.Gen Cert.KernelIdeal.PayRead Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument arrays as launched, by their roles. -/
abbrev qA (c : Dev nD) : S8x1024x256.Idx → EReal := m ((c.tc : Thread nD τ).loc main_arg0)
abbrev xA (c : Dev nD) : S8x1024x256.Idx → EReal := m ((c.tc : Thread nD τ).loc main_arg1)
abbrev cbA (c : Dev nD) : S8x1024x2x320.Idx → EReal := m ((c.tc : Thread nD τ).loc main_arg2)

/-! ## The cosine matrix [8,1024,1024] -/

/-- The cosine matrix, as one function of the context and quantized arrays. -/
abbrev cosG (c : Dev nD) : S8x1024x1024.Idx → EReal :=
  fun i => cosv (row (xA m c) (i 0) (i 1)) (row (qA m c) (i 0) (i 2))

/-- What point t writes back to the cosine matrix is block t of that function. -/
theorem flushed_cos (c : Dev nD) (t : Fin cfg0.N) :
    (dat0 (F := Ideal) (V0 m ρ) c).flushed 3 t = ((cfg0.win 3).blk t).view.read (Elt Ideal) (cosG m c) := by
  show (cfg0.win 3).cut (grid0.coords t) ((dat0 (V0 m ρ) c).after 3 t) = _
  rw [after0_3]
  unfold out0_3
  rw [View.canon_unit_zero zero_off3]
  simp only [View.ld_unit_zero (S := S1x1024x256) zero_off3]
  obtain ⟨e0, e1, e2⟩ := idx_cos t
  funext j
  refine (cos_at _ _ j).trans ?_
  have hb0 : ((((cfg0.win 3).blk t).view.emb j) 0).val = t.val := by
    show win0_3.index t (0 : Fin 3) * 1 + 1 * (j 0).val = t.val
    have hj : (j 0).val < 1 := (j 0).isLt
    omega
  have hb1 : ((((cfg0.win 3).blk t).view.emb j) 1).val = (j 1).val := by
    show win0_3.index t (1 : Fin 3) * 1024 + 1 * (j 1).val = (j 1).val
    omega
  have hb2 : ((((cfg0.win 3).blk t).view.emb j) 2).val = (j 2).val := by
    show win0_3.index t (2 : Fin 3) * 1024 + 1 * (j 2).val = (j 2).val
    omega
  show _ = cosv (row (xA m c) ((((cfg0.win 3).blk t).view.emb j) 0) ((((cfg0.win 3).blk t).view.emb j) 1))
      (row (qA m c) ((((cfg0.win 3).blk t).view.emb j) 0) ((((cfg0.win 3).blk t).view.emb j) 2))
  refine congrArg₂ cosv (funext fun d => ?_) (funext fun d => ?_)
  · exact ctx_blk_apply m ρ c t (ix3 0 (j 1) d) (ix3 ((((cfg0.win 3).blk t).view.emb j) 0) ((((cfg0.win 3).blk t).view.emb j) 1) d) hb0 hb1 rfl
  · exact quant_blk_apply m ρ c t (ix3 0 (j 2) d) (ix3 ((((cfg0.win 3).blk t).view.emb j) 0) ((((cfg0.win 3).blk t).view.emb j) 2) d) hb0 hb2 rfl

/-- An index of the cosine matrix is in point t's block iff each coordinate is in the block's range. -/
theorem mem_blk_cos (t : Fin cfg0.N) (i : S8x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v0_0).slice (win0_3.rect t)).set ↔ _
  rw [View.set_slice_whole, Rect.mem_set_unit]
  exact Iff.rfl

/-- Every index of the cosine matrix lies in the block of the point its batch coordinate names. -/
theorem cover_cos (i : S8x1024x1024.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 1024 := (i 2).isLt
  refine ⟨⟨(i 0).val, h0⟩, flush0_3 _, ?_⟩
  rw [mem_blk_cos]
  obtain ⟨e0, e1, e2⟩ := idx_cos ⟨(i 0).val, h0⟩
  have e0' : win0_3.index ⟨(i 0).val, h0⟩ (0 : Fin 3) = (i 0).val := e0
  intro a
  match a with
  | ⟨0, _⟩ => show win0_3.index ⟨(i 0).val, h0⟩ (0 : Fin 3) * 1 ≤ (i 0).val ∧ (i 0).val < win0_3.index ⟨(i 0).val, h0⟩ (0 : Fin 3) * 1 + 1; omega
  | ⟨1, _⟩ => show win0_3.index ⟨(i 0).val, h0⟩ (1 : Fin 3) * 1024 ≤ (i 1).val ∧ (i 1).val < win0_3.index ⟨(i 0).val, h0⟩ (1 : Fin 3) * 1024 + 1024; omega
  | ⟨2, _⟩ => show win0_3.index ⟨(i 0).val, h0⟩ (2 : Fin 3) * 1024 ≤ (i 2).val ∧ (i 2).val < win0_3.index ⟨(i 0).val, h0⟩ (2 : Fin 3) * 1024 + 1024; omega

/-- The cosine matrix after the first call. -/
theorem arr0_3 (c : Dev nD) :
    (dat0 (F := Ideal) (V0 m ρ) c).arrAt 3 cfg0.N
      = fun i : S8x1024x1024.Idx => cosv (row (xA m c) (i 0) (i 1)) (row (qA m c) (i 0) (i 2)) :=
  (dat0 (F := Ideal) (V0 m ρ) c).arrAt_eq_of_cover 3 (cosG m c) (fun t _ => flushed_cos m ρ c t) cover_cos

/-! ## The positives' cosines [8,1024,1] -/

/-- The positives' cosines, as one function of the context and quantized arrays. -/
abbrev posG (c : Dev nD) : S8x1024x1.Idx → EReal := fun i => poscos (xA m c) (qA m c) (i 0) (i 1)

/-- What point t writes back to the positives' array is block t of that function. -/
theorem flushed_pos (c : Dev nD) (t : Fin cfg0.N) :
    (dat0 (F := Ideal) (V0 m ρ) c).flushed 4 t = ((cfg0.win 4).blk t).view.read (Elt Ideal) (posG m c) := by
  show (cfg0.win 4).cut (grid0.coords t) ((dat0 (V0 m ρ) c).after 4 t) = _
  rw [after0_4]
  unfold out0_4
  rw [View.canon_unit_zero zero_off3]
  simp only [View.ld_unit_zero (S := S1x1024x256) zero_off3]
  obtain ⟨e0, e1, e2⟩ := idx_pos t
  funext j
  refine (pos_at _ _ j).trans ?_
  have hb0 : ((((cfg0.win 4).blk t).view.emb j) 0).val = t.val := by
    show win0_4.index t (0 : Fin 3) * 1 + 1 * (j 0).val = t.val
    have hj : (j 0).val < 1 := (j 0).isLt
    omega
  have hb1 : ((((cfg0.win 4).blk t).view.emb j) 1).val = (j 1).val := by
    show win0_4.index t (1 : Fin 3) * 1024 + 1 * (j 1).val = (j 1).val
    omega
  show _ = cosv (row (xA m c) ((((cfg0.win 4).blk t).view.emb j) 0) ((((cfg0.win 4).blk t).view.emb j) 1))
      (row (qA m c) ((((cfg0.win 4).blk t).view.emb j) 0) ((((cfg0.win 4).blk t).view.emb j) 1))
  refine congrArg₂ cosv (funext fun d => ?_) (funext fun d => ?_)
  · exact ctx_blk_apply m ρ c t (ix3 0 (j 1) d) (ix3 ((((cfg0.win 4).blk t).view.emb j) 0) ((((cfg0.win 4).blk t).view.emb j) 1) d) hb0 hb1 rfl
  · exact quant_blk_apply m ρ c t (ix3 0 (j 1) d) (ix3 ((((cfg0.win 4).blk t).view.emb j) 0) ((((cfg0.win 4).blk t).view.emb j) 1) d) hb0 hb1 rfl

/-- An index of the positives' array is in point t's block iff each coordinate is in the block's range. -/
theorem mem_blk_pos (t : Fin cfg0.N) (i : S8x1024x1.Idx) :
    i ∈ ((cfg0.win 4).blk t).view.set ↔ ∀ a : Fin 3, win0_4.index t a * S1x1024x1.size a ≤ (i a).val ∧ (i a).val < win0_4.index t a * S1x1024x1.size a + S1x1024x1.size a := by
  show i ∈ ((View.whole main_v0_1).slice (win0_4.rect t)).set ↔ _
  rw [View.set_slice_whole, Rect.mem_set_unit]
  exact Iff.rfl

/-- Every index of the positives' array lies in the block of the point its batch coordinate names. -/
theorem cover_pos (i : S8x1024x1.Idx) :
    ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 1 := (i 2).isLt
  refine ⟨⟨(i 0).val, h0⟩, flush0_4 _, ?_⟩
  rw [mem_blk_pos]
  obtain ⟨e0, e1, e2⟩ := idx_pos ⟨(i 0).val, h0⟩
  have e0' : win0_4.index ⟨(i 0).val, h0⟩ (0 : Fin 3) = (i 0).val := e0
  intro a
  match a with
  | ⟨0, _⟩ => show win0_4.index ⟨(i 0).val, h0⟩ (0 : Fin 3) * 1 ≤ (i 0).val ∧ (i 0).val < win0_4.index ⟨(i 0).val, h0⟩ (0 : Fin 3) * 1 + 1; omega
  | ⟨1, _⟩ => show win0_4.index ⟨(i 0).val, h0⟩ (1 : Fin 3) * 1024 ≤ (i 1).val ∧ (i 1).val < win0_4.index ⟨(i 0).val, h0⟩ (1 : Fin 3) * 1024 + 1024; omega
  | ⟨2, _⟩ => show win0_4.index ⟨(i 0).val, h0⟩ (2 : Fin 3) * 1 ≤ (i 2).val ∧ (i 2).val < win0_4.index ⟨(i 0).val, h0⟩ (2 : Fin 3) * 1 + 1; omega

/-- The positives' cosines after the first call. -/
theorem arr0_4 (c : Dev nD) :
    (dat0 (F := Ideal) (V0 m ρ) c).arrAt 4 cfg0.N
      = fun i : S8x1024x1.Idx => poscos (xA m c) (qA m c) (i 0) (i 1) :=
  (dat0 (F := Ideal) (V0 m ρ) c).arrAt_eq_of_cover 4 (posG m c) (fun t _ => flushed_pos m ρ c t) cover_pos

/-! ## The summed softmax [8,2,320] -/

/-- The per-batch summed softmax, as one function of the codebook array. -/
abbrev softG (c : Dev nD) : S8x2x320.Idx → EReal :=
  fun i => ∑ t : Fin 1024, smx (fun v' => cbA m c (ix4 (i 0) t (i 1) v')) (i 2)

/-- What point t writes back to the summed-softmax array is block t of that function. -/
theorem flushed_soft (c : Dev nD) (t : Fin cfg0.N) :
    (dat0 (F := Ideal) (V0 m ρ) c).flushed 5 t = ((cfg0.win 5).blk t).view.read (Elt Ideal) (softG m c) := by
  show (cfg0.win 5).cut (grid0.coords t) ((dat0 (V0 m ρ) c).after 5 t) = _
  rw [after0_5]
  unfold out0_5
  rw [View.canon_unit_zero zero_off3]
  simp only [View.ld_unit_zero (S := S1x1024x2x320) zero_off4]
  obtain ⟨e0, e1, e2⟩ := idx_soft t
  funext j
  refine (soft_at _ j).trans ?_
  have hb0 : ((((cfg0.win 5).blk t).view.emb j) 0).val = t.val := by
    show win0_5.index t (0 : Fin 3) * 1 + 1 * (j 0).val = t.val
    have hj : (j 0).val < 1 := (j 0).isLt
    omega
  have hb1 : ((((cfg0.win 5).blk t).view.emb j) 1).val = (j 1).val := by
    show win0_5.index t (1 : Fin 3) * 2 + 1 * (j 1).val = (j 1).val
    omega
  have hb2 : ((((cfg0.win 5).blk t).view.emb j) 2).val = (j 2).val := by
    show win0_5.index t (2 : Fin 3) * 320 + 1 * (j 2).val = (j 2).val
    omega
  show _ = ∑ s : Fin 1024, smx (fun v' => cbA m c (ix4 ((((cfg0.win 5).blk t).view.emb j) 0) s ((((cfg0.win 5).blk t).view.emb j) 1) v'))
      ((((cfg0.win 5).blk t).view.emb j) 2)
  refine Finset.sum_congr rfl fun s _ => ?_
  refine congrArg₂ smx (funext fun v' => ?_) (Fin.ext hb2.symm)
  exact code_blk_apply m ρ c t (ix4 0 s (j 1) v') (ix4 ((((cfg0.win 5).blk t).view.emb j) 0) s ((((cfg0.win 5).blk t).view.emb j) 1) v') hb0 rfl hb1 rfl

/-- An index of the summed-softmax array is in point t's block iff each coordinate is in the block's range. -/
theorem mem_blk_soft (t : Fin cfg0.N) (i : S8x2x320.Idx) :
    i ∈ ((cfg0.win 5).blk t).view.set ↔ ∀ a : Fin 3, win0_5.index t a * S1x2x320.size a ≤ (i a).val ∧ (i a).val < win0_5.index t a * S1x2x320.size a + S1x2x320.size a := by
  show i ∈ ((View.whole main_v0_2).slice (win0_5.rect t)).set ↔ _
  rw [View.set_slice_whole, Rect.mem_set_unit]
  exact Iff.rfl

/-- Every index of the summed-softmax array lies in the block of the point its batch coordinate names. -/
theorem cover_soft (i : S8x2x320.Idx) :
    ∃ t : Fin cfg0.N, (cfg0.win 5).flush t = true ∧ i ∈ ((cfg0.win 5).blk t).view.set := by
  have h0 : (i 0).val < 8 := (i 0).isLt
  have h1 : (i 1).val < 2 := (i 1).isLt
  have h2 : (i 2).val < 320 := (i 2).isLt
  refine ⟨⟨(i 0).val, h0⟩, flush0_5 _, ?_⟩
  rw [mem_blk_soft]
  obtain ⟨e0, e1, e2⟩ := idx_soft ⟨(i 0).val, h0⟩
  have e0' : win0_5.index ⟨(i 0).val, h0⟩ (0 : Fin 3) = (i 0).val := e0
  intro a
  match a with
  | ⟨0, _⟩ => show win0_5.index ⟨(i 0).val, h0⟩ (0 : Fin 3) * 1 ≤ (i 0).val ∧ (i 0).val < win0_5.index ⟨(i 0).val, h0⟩ (0 : Fin 3) * 1 + 1; omega
  | ⟨1, _⟩ => show win0_5.index ⟨(i 0).val, h0⟩ (1 : Fin 3) * 2 ≤ (i 1).val ∧ (i 1).val < win0_5.index ⟨(i 0).val, h0⟩ (1 : Fin 3) * 2 + 2; omega
  | ⟨2, _⟩ => show win0_5.index ⟨(i 0).val, h0⟩ (2 : Fin 3) * 320 ≤ (i 2).val ∧ (i 2).val < win0_5.index ⟨(i 0).val, h0⟩ (2 : Fin 3) * 320 + 320; omega

/-- The per-batch summed softmax after the first call. -/
theorem arr0_5 (c : Dev nD) :
    (dat0 (F := Ideal) (V0 m ρ) c).arrAt 5 cfg0.N
      = fun i : S8x2x320.Idx => ∑ t : Fin 1024, smx (fun v' => cbA m c (ix4 (i 0) t (i 1) v')) (i 2) :=
  (dat0 (F := Ideal) (V0 m ρ) c).arrAt_eq_of_cover 5 (softG m c) (fun t _ => flushed_soft m ρ c t) cover_soft

/-! ## The squares [8,1,1] -/

/-- The sums of squares, as one function of the quantized array. -/
abbrev sqG (c : Dev nD) : S8x1x1.Idx → EReal :=
  fun i => ∑ t : Fin 1024, ∑ d : Fin 256, qA m c (ix3 (i 0) t d) * qA m c (ix3 (i 0) t d)

/-- What point t writes back to the squares array is block t of that function. -/
theorem flushed_sq (c : Dev nD) (t : Fin cfg0.N) :
    (dat0 (F := Ideal) (V0 m ρ) c).flushed 6 t = ((cfg0.win 6).blk t).view.read (Elt Ideal) (sqG m c) := by
  show (cfg0.win 6).cut (grid0.coords t) ((dat0 (V0 m ρ) c).after 6 t) = _
  rw [after0_6]
  unfold out0_6
  rw [View.canon_unit_zero zero_off3]
  simp only [View.ld_unit_zero (S := S1x1024x256) zero_off3]
  obtain ⟨e0, e1, e2⟩ := idx_sq t
  funext j
  refine (sq_at _ j).trans ?_
  show _ = sqG m c (((cfg0.win 6).blk t).view.emb j)
  have hb : ((((cfg0.win 6).blk t).view.emb j) 0).val = t.val := by
    show win0_6.index t (0 : Fin 3) * 1 + 1 * (j 0).val = t.val
    have hj : (j 0).val < 1 := (j 0).isLt
    omega
  refine Finset.sum_congr rfl fun s _ => Finset.sum_congr rfl fun d _ => ?_
  rw [quant_blk_apply m ρ c t (ix3 0 s d) (ix3 ((((cfg0.win 6).blk t).view.emb j) 0) s d) hb rfl rfl]

/-- An index of the squares array is in point t's block iff each coordinate is in the block's range. -/
theorem mem_blk_sq (t : Fin cfg0.N) (i : S8x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v0_3).slice (win0_6.rect t)).set ↔ _
  rw [View.set_slice_whole, Rect.mem_set_unit]
  exact Iff.rfl

/-- Every index of the squares array lies in the block of the point its batch coordinate names. -/
theorem cover_sq (i : S8x1x1.Idx) :
    ∃ t : Fin cfg0.N, (cfg0.win 6).flush t = true ∧ i ∈ ((cfg0.win 6).blk t).view.set := by
  have h0 : (i 0).val < 8 := (i 0).isLt
  have h1 : (i 1).val < 1 := (i 1).isLt
  have h2 : (i 2).val < 1 := (i 2).isLt
  refine ⟨⟨(i 0).val, h0⟩, flush0_6 _, ?_⟩
  rw [mem_blk_sq]
  obtain ⟨e0, e1, e2⟩ := idx_sq ⟨(i 0).val, h0⟩
  have e0' : win0_6.index ⟨(i 0).val, h0⟩ (0 : Fin 3) = (i 0).val := e0
  intro a
  match a with
  | ⟨0, _⟩ => show win0_6.index ⟨(i 0).val, h0⟩ (0 : Fin 3) * 1 ≤ (i 0).val ∧ (i 0).val < win0_6.index ⟨(i 0).val, h0⟩ (0 : Fin 3) * 1 + 1; omega
  | ⟨1, _⟩ => show win0_6.index ⟨(i 0).val, h0⟩ (1 : Fin 3) * 1 ≤ (i 1).val ∧ (i 1).val < win0_6.index ⟨(i 0).val, h0⟩ (1 : Fin 3) * 1 + 1; omega
  | ⟨2, _⟩ => show win0_6.index ⟨(i 0).val, h0⟩ (2 : Fin 3) * 1 ≤ (i 2).val ∧ (i 2).val < win0_6.index ⟨(i 0).val, h0⟩ (2 : Fin 3) * 1 + 1; omega

/-- The per-batch sums of squares after the first call. -/
theorem arr0_6 (c : Dev nD) :
    (dat0 (F := Ideal) (V0 m ρ) c).arrAt 6 cfg0.N
      = fun i : S8x1x1.Idx => ∑ t : Fin 1024, ∑ d : Fin 256, qA m c (ix3 (i 0) t d) * qA m c (ix3 (i 0) t d) :=
  (dat0 (F := Ideal) (V0 m ρ) c).arrAt_eq_of_cover 6 (sqG m c) (fun t _ => flushed_sq m ρ c t) cover_sq

end Cert.KernelIdeal.Arrays

end
-- ==== Proof.KPay1.lean ====
/-
  The second kernel's body read over the extended reals: what one grid point (one batch) stores in its one output
  number, from the block of gathered negative cosines `x0` ([1, 1024, 100]), the block of positive cosines `x1`
  ([1, 1024, 1]), the block of negative indices `x2` and the block of the mask as floats `x3` ([1, 1024, 1]):
  zero minus the sum, over the rows t whose mask exceeds one half, of the positive's log-probability at row t, a
  negative whose index is the row's own number struck out (the named constant standing for minus infinity).
-/
import proofs.«416889_j3770981286079_1_alg».proof.Proof.Gen.KernelIdeal.Skeleton
import proofs.«416889_j3770981286079_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.PayRead

open Cert.KernelIdeal Cert.KernelIdeal.Gen Cert.Spec Idealize.ShloMosaic Idealize.ShloMosaic.ValueIdx

/-- The named constant standing for minus infinity. -/
theorem neg_big : Named.named (F := Ideal) Cert.KernelIdeal.κ "neg_big" (φ := .f32) 0xFF333332#32 = (⊥ : EReal) :=
  IdealRules.named_const.ideal_named_scalar _ _ _ _ rfl

/-- A vector of 1024 numbers seen as a column: at (t, 0) its entry t. -/
theorem col_apply {α : Type} (v : S1024.Idx → α) (t : Fin 1024) (u : Fin 1) :
    shapeCast S1024x1 v shapeCasts_S1024_S1024x1 (ix2 t u) = v (ix1 t) := by
  refine shapeCast_apply v shapeCasts_S1024_S1024x1 (ix2 t u) (ix1 t) ?_
  have hu : u.val = 0 := by omega
  rw [Shape.rowMajor_val_two, Shape.rowMajor_val_one]
  show t.val = t.val * 1 + u.val
  omega

/-- The row sums as a column: at (t, 0) the sum of row t. -/
theorem rowsum_col (src : FVec Ideal S1024x100 .f32) (t : Fin 1024) (u : Fin 1) :
    shapeCast S1024x1 (multiReduction (F := Ideal) .add [1] S1024 src 0x00000000#32 reduces_S1024x100_S1024 (.inl rfl) rfl)
        shapeCasts_S1024_S1024x1 (ix2 t u)
      = ∑ k : Fin 100, src (ix2 t k) := by
  refine (col_apply _ t u).trans ?_
  refine (Ideal.multiReduction_add_single src 0x00000000#32 reduces_S1024x100_S1024 (.inl rfl) rfl (ix1 t)).trans ?_
  refine Finset.sum_congr rfl fun k _ => congrArg src ?_
  funext a
  match a with
  | ⟨0, _⟩ => rfl
  | ⟨1, _⟩ => rfl

/-- The row maxima, folded from minus infinity, as a column: at (t, 0) the maximum of row t. -/
theorem rowmax_col (src : FVec Ideal S1024x100 .f32) (t : Fin 1024) (u : Fin 1) :
    shapeCast S1024x1 (multiReduction (F := Ideal) .maximumf [1] S1024 src 0xFF800000#32 reduces_S1024x100_S1024 (.inl rfl) rfl)
        shapeCasts_S1024_S1024x1 (ix2 t u)
      = (Finset.univ : Finset (Fin 100)).fold max ninf (fun k => src (ix2 t k)) := by
  refine (col_apply _ t u).trans ?_
  refine (Ideal.multiReduction_maximumf_single src 0xFF800000#32 reduces_S1024x100_S1024 (.inl rfl) rfl (ix1 t)).trans ?_
  show (Finset.univ : Finset (Fin 100)).fold max ninf _ = _
  refine congrArg (fun f : Fin 100 → EReal => (Finset.univ : Finset (Fin 100)).fold max ninf f) (funext fun k => ?_)
  refine congrArg src ?_
  funext a
  match a with
  | ⟨0, _⟩ => rfl
  | ⟨1, _⟩ => rfl

/-- A column spread over the 100 lanes: at (t, k) the column's entry t. -/
theorem col_bcast {α : Type} (v : S1024x1.Idx → α) (t : Fin 1024) (k : Fin 100) :
    broadcastTo S1024x100 v broadcasts_S1024x1_S1024x100 (ix2 t k) = v (ix2 t 0) := by
  refine broadcastTo_apply v broadcasts_S1024x1_S1024x100 (ix2 t k) (ix2 t (0 : Fin 1)) fun ax => ?_
  match ax with
  | ⟨0, _⟩ => rfl
  | ⟨1, _⟩ => rfl

/-- The row counter at (t, k) is the word of t. -/
theorem iota_row (t : Fin 1024) (k : Fin 100) :
    iota .tc S1024x100 32 [0] iota_S1024x100_d0_w32 (ix2 t k) = BitVec.ofNat 32 t.val :=
  iota_single_apply .tc S1024x100 32 0 iota_S1024x100_d0_w32 (ix2 t k)

/-- The sum of a column of 1024 numbers, as a one-by-one array. -/
theorem colsum_one (src : FVec Ideal S1024x1 .f32) :
    shapeCast S1x1 (multiReduction (F := Ideal) .add [0] S1 src 0x00000000#32 reduces_S1024x1_S1 (.inl rfl) rfl)
        shapeCasts_S1_S1x1 (ix2 0 0)
      = ∑ t : Fin 1024, src (ix2 t 0) := by
  refine (shapeCast_a_1a_apply _ shapeCasts_S1_S1x1 0 0).trans ?_
  refine (Ideal.multiReduction_add_single src 0x00000000#32 reduces_S1024x1_S1 (.inl rfl) rfl (ix1 0)).trans ?_
  refine Finset.sum_congr rfl fun t _ => congrArg src ?_
  funext a
  match a with
  | ⟨0, _⟩ => rfl
  | ⟨1, _⟩ => rfl

/-- The one-by-one array stored as a block of three unit axes. -/
theorem storedNumber_apply (v : FVec Ideal S1x1 .f32) : k1_pay1 (F := Ideal) v (ix3 0 0 0) = v (ix2 0 0) := by
  unfold k1_pay1
  exact shapeCast_ab_1ab_apply v shapeCasts_S1x1_S1x1x1 0 0 0

/-- A select on the equality of two words is the `if` on their Boolean equality. -/
theorem select_cmpi_eq {α : Type} (a b : BitVec 32) (X Y : α) :
    Scalar.select (IntOp.cmpi .eq a b) X Y = if (a == b) = true then X else Y := by
  cases h : (a == b) <;> simp [Scalar.select, IntOp.cmpi, h]

/-- A select on "greater than" of two extended reals is the `if` on the strict order. -/
theorem select_ogt {α : Type} (a b : EReal) (X Y : α) :
    Scalar.select (Ideal.cmp .ogt a b) X Y = if b < a then X else Y := by
  by_cases h : b < a <;> simp [Scalar.select, Ideal.cmp, h]

/-- The negatives' logits: row t, lane k holds the negative cosine over the temperature, the named constant in
    its place where the negative's index is t. -/
def nlV (x0 : Vec Ideal S1x1024x100 .f32) (x2 : Vec Ideal S1x1024x100 .i32) : FVec Ideal S1024x100 .f32 :=
  divf
    (select
      (cmpi .eq (shapeCast S1024x100 x2 shapeCasts_S1x1024x100_S1024x100) (iota .tc S1024x100 32 [0] iota_S1024x100_d0_w32))
      (broadcast S1024x100 (Named.named (F := Ideal) Cert.KernelIdeal.κ "neg_big" (φ := .f32) 0xFF333332#32))
      (shapeCast S1024x100 x0 shapeCasts_S1x1024x100_S1024x100))
    (broadcast S1024x100 (Scalar.ofBits (F := Ideal) .f32 0x3DCCCCCD#32))

theorem nlV_apply (x0 : Vec Ideal S1x1024x100 .f32) (x2 : Vec Ideal S1x1024x100 .i32) (t : Fin 1024) (k : Fin 100) :
    nlV x0 x2 (ix2 t k)
      = Ideal.div (if (x2 (ix3 0 t k) == BitVec.ofNat 32 t.val) = true then ⊥ else x0 (ix3 0 t k)) tenth := by
  show Ideal.div (Scalar.select (IntOp.cmpi .eq (shapeCast S1024x100 x2 shapeCasts_S1x1024x100_S1024x100 (ix2 t k))
      (iota .tc S1024x100 32 [0] iota_S1024x100_d0_w32 (ix2 t k)))
      (Named.named (F := Ideal) Cert.KernelIdeal.κ "neg_big" (φ := .f32) 0xFF333332#32)
      (shapeCast S1024x100 x0 shapeCasts_S1x1024x100_S1024x100 (ix2 t k))) tenth = _
  rw [shapeCast_1ab_ab_apply, shapeCast_1ab_ab_apply, iota_row, neg_big, select_cmpi_eq]

/-- The positives' logits: row t holds the positive cosine over the temperature. -/
def plV (x1 : Vec Ideal S1x1024x1 .f32) : FVec Ideal S1024x1 .f32 :=
  divf (shapeCast S1024x1 x1 shapeCasts_S1x1024x1_S1024x1) (broadcast S1024x1 (Scalar.ofBits (F := Ideal) .f32 0x3DCCCCCD#32))

theorem plV_apply (x1 : Vec Ideal S1x1024x1 .f32) (t : Fin 1024) (u : Fin 1) :
    plV x1 (ix2 t u) = Ideal.div (x1 (ix3 0 t u)) tenth := by
  show Ideal.div (shapeCast S1024x1 x1 shapeCasts_S1x1024x1_S1024x1 (ix2 t u)) tenth = _
  rw [shapeCast_1ab_ab_apply]

/-- The rows' maxima: the positive's logit against the negatives' maximum folded from minus infinity. -/
def mV (x0 : Vec Ideal S1x1024x100 .f32) (x1 : Vec Ideal S1x1024x1 .f32) (x2 : Vec Ideal S1x1024x100 .i32) :
    FVec Ideal S1024x1 .f32 :=
  maximumf (plV x1)
    (shapeCast S1024x1
      (multiReduction (F := Ideal) .maximumf [1] S1024 (nlV x0 x2) 0xFF800000#32 reduces_S1024x100_S1024 (.inl rfl) rfl)
      shapeCasts_S1024_S1024x1)

theorem mV_apply (x0 : Vec Ideal S1x1024x100 .f32) (x1 : Vec Ideal S1x1024x1 .f32) (x2 : Vec Ideal S1x1024x100 .i32)
    (t : Fin 1024) (u : Fin 1) :
    mV x0 x1 x2 (ix2 t u)
      = max (plV x1 (ix2 t u)) ((Finset.univ : Finset (Fin 100)).fold max ninf (fun k => nlV x0 x2 (ix2 t k))) :=
  congrArg (max (plV x1 (ix2 t u))) (rowmax_col (nlV x0 x2) t u)

/-- The rows' log-probabilities of the positive. -/
def lpV (x0 : Vec Ideal S1x1024x100 .f32) (x1 : Vec Ideal S1x1024x1 .f32) (x2 : Vec Ideal S1x1024x100 .i32) :
    FVec Ideal S1024x1 .f32 :=
  subf (plV x1)
    (addf (mV x0 x1 x2)
      (Idealize.ShloMosaic.log
        (addf (Idealize.ShloMosaic.exp (subf (plV x1) (mV x0 x1 x2)))
          (shapeCast S1024x1
            (multiReduction (F := Ideal) .add [1] S1024
              (Idealize.ShloMosaic.exp (subf (nlV x0 x2) (broadcastTo S1024x100 (mV x0 x1 x2) broadcasts_S1024x1_S1024x100)))
              0x00000000#32 reduces_S1024x100_S1024 (.inl rfl) rfl)
            shapeCasts_S1024_S1024x1))))

theorem lpV_apply (x0 : Vec Ideal S1x1024x100 .f32) (x1 : Vec Ideal S1x1024x1 .f32) (x2 : Vec Ideal S1x1024x100 .i32)
    (t : Fin 1024) :
    lpV x0 x1 x2 (ix2 t 0)
      = lpK (x1 (ix3 0 t 0)) (fun k => x0 (ix3 0 t k)) (fun k => x2 (ix3 0 t k) == BitVec.ofNat 32 t.val) := by
  have hs : shapeCast S1024x1
      (multiReduction (F := Ideal) .add [1] S1024
        (Idealize.ShloMosaic.exp (subf (nlV x0 x2) (broadcastTo S1024x100 (mV x0 x1 x2) broadcasts_S1024x1_S1024x100)))
        0x00000000#32 reduces_S1024x100_S1024 (.inl rfl) rfl)
      shapeCasts_S1024_S1024x1 (ix2 t 0)
      = ∑ k : Fin 100, Ideal.exp (nlV x0 x2 (ix2 t k) - mV x0 x1 x2 (ix2 t 0)) :=
    (rowsum_col _ t 0).trans (Finset.sum_congr rfl fun k _ =>
      congrArg (fun z => Ideal.exp (nlV x0 x2 (ix2 t k) - z)) (col_bcast (mV x0 x1 x2) t k))
  show plV x1 (ix2 t 0) - (mV x0 x1 x2 (ix2 t 0) + Ideal.log (Ideal.exp (plV x1 (ix2 t 0) - mV x0 x1 x2 (ix2 t 0))
      + shapeCast S1024x1 _ shapeCasts_S1024_S1024x1 (ix2 t 0))) = _
  rw [hs, mV_apply, plV_apply]
  simp only [nlV_apply]
  rfl

/-- The payload as its last four operations over the rows' log-probabilities. -/
theorem pay2_eq (x0 : Vec Ideal S1x1024x100 .f32) (x1 : Vec Ideal S1x1024x1 .f32)
    (x2 : Vec Ideal S1x1024x100 .i32) (x3 : Vec Ideal S1x1024x1 .f32) :
    k1_pay2 (F := Ideal) x0 x1 x2 x3
      = subf (broadcast S1x1 (Scalar.ofBits (F := Ideal) .f32 0x00000000#32))
          (shapeCast S1x1
            (multiReduction (F := Ideal) .add [0] S1
              (select
                (cmpf .ogt (shapeCast S1024x1 x3 shapeCasts_S1x1024x1_S1024x1)
                  (broadcast S1024x1 (Scalar.ofBits (F := Ideal) .f32 0x3F000000#32)))
                (lpV x0 x1 x2) (broadcast S1024x1 (Scalar.ofBits (F := Ideal) .f32 0x00000000#32)))
              0x00000000#32 reduces_S1024x1_S1 (.inl rfl) rfl)
            shapeCasts_S1_S1x1) := rfl

/-- The per-batch contrastive number. -/
theorem payloss_apply (x0 : Vec Ideal S1x1024x100 .f32) (x1 : Vec Ideal S1x1024x1 .f32)
    (x2 : Vec Ideal S1x1024x100 .i32) (x3 : Vec Ideal S1x1024x1 .f32) :
    k1_pay1 (F := Ideal) (k1_pay2 x0 x1 x2 x3) (ix3 0 0 0)
      = 0 - ∑ t : Fin 1024,
          (if half < x3 (ix3 0 t 0) then
            lpK (x1 (ix3 0 t 0)) (fun k => x0 (ix3 0 t k)) (fun k => x2 (ix3 0 t k) == BitVec.ofNat 32 t.val)
           else 0) := by
  refine (storedNumber_apply _).trans ?_
  rw [pay2_eq]
  show Ideal.ofBits .f32 0x00000000#32 - shapeCast S1x1 _ shapeCasts_S1_S1x1 (ix2 0 0) = _
  rw [colsum_one, Ideal.ofBits_zero_f32]
  refine congrArg (fun z => (0 : EReal) - z) (Finset.sum_congr rfl fun t _ => ?_)
  show Scalar.select (Ideal.cmp .ogt (shapeCast S1024x1 x3 shapeCasts_S1x1024x1_S1024x1 (ix2 t 0)) half)
      (lpV x0 x1 x2 (ix2 t 0)) (Ideal.ofBits .f32 0x00000000#32) = _
  rw [select_ogt, shapeCast_1ab_ab_apply, lpV_apply, Ideal.ofBits_zero_f32]

end Cert.KernelIdeal.PayRead

end
-- ==== Proof.KRegion1.lean ====
/-
  What the second kernel leaves in its output array, as a whole-array function of its four input arrays as it
  finds them.  The call runs once per batch b; each window stages the batch's slab of its array and the output block
  is the batch's one number.  So entry (b, 0, 0) of the output is the body's stored number computed from the slabs b:
  zero minus the sum, over the positions t of batch b whose mask (as a float) exceeds one half, of the positive's
  log-probability at (b, t), a negative whose index is t struck out.

  In order: the block index of each of the five windows at grid point b is (b, 0, 0) (decided over the eight points);
  hence an input window's block, read at y, is its array at (b, y 1, y 2) — the batch's slab; the stored payload at the
  output block's one index is the closed form of the payload module at (0, 0, 0); so what point b writes back is block b
  of one function of the four arrays; an index i of the output lies in the block of point (i 0); and write-backs of
  blocks that are all restrictions of one function, covering the array, leave that function.
-/
import proofs.«416889_j3770981286079_1_alg».proof.Proof.Gen.KernelIdeal.Frame
import proofs.«416889_j3770981286079_1_alg».proof.Proof.KPay1
import Idealize.ShloMosaic.Lib.Pipeline.Value

set_option maxRecDepth 16384

noncomputable section

open scoped BigOperators

namespace Cert.KernelIdeal.Arrays

open Cert.KernelIdeal Cert.KernelIdeal.Gen Cert.KernelIdeal.PayRead Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The second call's input arrays as it finds them: gathered negatives' cosines, positives' cosines, negative
    indices, the mask as floats. -/
abbrev negE (c : Dev nD) : S8x1024x100.Idx → EReal := V3 (F := Ideal) m ρ c (Pipeline.arrRef spec1 0)
abbrev posE (c : Dev nD) : S8x1024x1.Idx → EReal := V3 (F := Ideal) m ρ c (Pipeline.arrRef spec1 1)
abbrev idxE (c : Dev nD) : S8x1024x100.Idx → BitVec 32 := V3 (F := Ideal) m ρ c (Pipeline.arrRef spec1 2)
abbrev mskE (c : Dev nD) : S8x1024x1.Idx → EReal := V3 (F := Ideal) m ρ c (Pipeline.arrRef spec1 3)

/-! ## Where each window's block sits at a grid point -/

private theorem origin3 : (![0, 0, 0] : Fin 3 → Nat) = fun _ => 0 := funext fun a => by fin_cases a <;> rfl

/-- At grid point t the negatives' window's block index is (t, 0, 0). -/
private theorem idx_negs : ∀ t : Fin cfg1.N, win1_0.index t (0 : Fin 3) = t.val ∧ win1_0.index t (1 : Fin 3) = 0 ∧ win1_0.index t (2 : Fin 3) = 0 :=
  (by decide +kernel : ∀ t : Fin grid1.N, _)
/-- At grid point t the positives' window's block index is (t, 0, 0). -/
private theorem idx_poss : ∀ t : Fin cfg1.N, win1_1.index t (0 : Fin 3) = t.val ∧ win1_1.index t (1 : Fin 3) = 0 ∧ win1_1.index t (2 : Fin 3) = 0 :=
  (by decide +kernel : ∀ t : Fin grid1.N, _)
/-- At grid point t the negative indices' window's block index is (t, 0, 0). -/
private theorem idx_nidx : ∀ t : Fin cfg1.N, win1_2.index t (0 : Fin 3) = t.val ∧ win1_2.index t (1 : Fin 3) = 0 ∧ win1_2.index t (2 : Fin 3) = 0 :=
  (by decide +kernel : ∀ t : Fin grid1.N, _)
/-- At grid point t the mask's window's block index is (t, 0, 0). -/
private theorem idx_mask : ∀ t : Fin cfg1.N, win1_3.index t (0 : Fin 3) = t.val ∧ win1_3.index t (1 : Fin 3) = 0 ∧ win1_3.index t (2 : Fin 3) = 0 :=
  (by decide +kernel : ∀ t : Fin grid1.N, _)
/-- At grid point t the output window's block index is (t, 0, 0). -/
private theorem idx_loss : ∀ t : Fin cfg1.N, win1_4.index t (0 : Fin 3) = t.val ∧ win1_4.index t (1 : Fin 3) = 0 ∧ win1_4.index t (2 : Fin 3) = 0 :=
  (by decide +kernel : ∀ t : Fin grid1.N, _)

/-! ## The input blocks as slabs, whatever the arrays hold when the call is entered

Everything from here to the last theorem is stated for ANY contents `V` of the buffers at the call's entry: nothing
in it depends on what the arrays hold, only on where the windows' blocks sit. -/

section AnyEntry

variable (V : (c : Dev nD) → (b : Ref sig .tc) → Buf (Elt Ideal) ((c : Thread nD τ).loc b))

/-- The negatives' block at point t is batch slab t of the negatives' array. -/
private theorem negs_blk_apply (c : Dev nD) (t : Fin cfg1.N) (y : S1x1024x100.Idx) (k : S8x1024x100.Idx)
    (h0 : (k 0).val = t.val) (h1 : (k 1).val = (y 1).val) (h2 : (k 2).val = (y 2).val) :
    (iblk1 (F := Ideal) V c 0 t : Vec Ideal S1x1024x100 .f32) y = (V c (Pipeline.arrRef spec1 0) : S8x1024x100.Idx → EReal) k := by
  obtain ⟨e0, e1, e2⟩ := idx_negs t
  unfold iblk1
  rw [View.read_apply]
  show V c (Pipeline.arrRef spec1 0) _ = V c (Pipeline.arrRef spec1 0) _
  congr 1
  funext a
  apply Fin.ext
  have hy : (y 0).val < 1 := (y 0).isLt
  match a with
  | ⟨0, _⟩ => show win1_0.index t (0 : Fin 3) * 1 + 1 * (y 0).val = (k 0).val; omega
  | ⟨1, _⟩ => show win1_0.index t (1 : Fin 3) * 1024 + 1 * (y 1).val = (k 1).val; omega
  | ⟨2, _⟩ => show win1_0.index t (2 : Fin 3) * 100 + 1 * (y 2).val = (k 2).val; omega

/-- The positives' block at point t is batch slab t of the positives' array. -/
private theorem poss_blk_apply (c : Dev nD) (t : Fin cfg1.N) (y : S1x1024x1.Idx) (k : S8x1024x1.Idx)
    (h0 : (k 0).val = t.val) (h1 : (k 1).val = (y 1).val) (h2 : (k 2).val = (y 2).val) :
    (iblk1 (F := Ideal) V c 1 t : Vec Ideal S1x1024x1 .f32) y = (V c (Pipeline.arrRef spec1 1) : S8x1024x1.Idx → EReal) k := by
  obtain ⟨e0, e1, e2⟩ := idx_poss t
  unfold iblk1
  rw [View.read_apply]
  show V c (Pipeline.arrRef spec1 1) _ = V c (Pipeline.arrRef spec1 1) _
  congr 1
  funext a
  apply Fin.ext
  have hy : (y 0).val < 1 := (y 0).isLt
  match a with
  | ⟨0, _⟩ => show win1_1.index t (0 : Fin 3) * 1 + 1 * (y 0).val = (k 0).val; omega
  | ⟨1, _⟩ => show win1_1.index t (1 : Fin 3) * 1024 + 1 * (y 1).val = (k 1).val; omega
  | ⟨2, _⟩ => show win1_1.index t (2 : Fin 3) * 1 + 1 * (y 2).val = (k 2).val; omega

/-- The negative indices' block at point t is batch slab t of the index array. -/
private theorem nidx_blk_apply (c : Dev nD) (t : Fin cfg1.N) (y : S1x1024x100.Idx) (k : S8x1024x100.Idx)
    (h0 : (k 0).val = t.val) (h1 : (k 1).val = (y 1).val) (h2 : (k 2).val = (y 2).val) :
    (iblk1 (F := Ideal) V c 2 t : Vec Ideal S1x1024x100 .i32) y = (V c (Pipeline.arrRef spec1 2) : S8x1024x100.Idx → BitVec 32) k := by
  obtain ⟨e0, e1, e2⟩ := idx_nidx t
  unfold iblk1
  rw [View.read_apply]
  show V c (Pipeline.arrRef spec1 2) _ = V c (Pipeline.arrRef spec1 2) _
  congr 1
  funext a
  apply Fin.ext
  have hy : (y 0).val < 1 := (y 0).isLt
  match a with
  | ⟨0, _⟩ => show win1_2.index t (0 : Fin 3) * 1 + 1 * (y 0).val = (k 0).val; omega
  | ⟨1, _⟩ => show win1_2.index t (1 : Fin 3) * 1024 + 1 * (y 1).val = (k 1).val; omega
  | ⟨2, _⟩ => show win1_2.index t (2 : Fin 3) * 100 + 1 * (y 2).val = (k 2).val; omega

/-- The mask's block at point t is batch slab t of the mask array. -/
private theorem mask_blk_apply (c : Dev nD) (t : Fin cfg1.N) (y : S1x1024x1.Idx) (k : S8x1024x1.Idx)
    (h0 : (k 0).val = t.val) (h1 : (k 1).val = (y 1).val) (h2 : (k 2).val = (y 2).val) :
    (iblk1 (F := Ideal) V c 3 t : Vec Ideal S1x1024x1 .f32) y = (V c (Pipeline.arrRef spec1 3) : S8x1024x1.Idx → EReal) k := by
  obtain ⟨e0, e1, e2⟩ := idx_mask t
  unfold iblk1
  rw [View.read_apply]
  show V c (Pipeline.arrRef spec1 3) _ = V c (Pipeline.arrRef spec1 3) _
  congr 1
  funext a
  apply Fin.ext
  have hy : (y 0).val < 1 := (y 0).isLt
  match a with
  | ⟨0, _⟩ => show win1_3.index t (0 : Fin 3) * 1 + 1 * (y 0).val = (k 0).val; omega
  | ⟨1, _⟩ => show win1_3.index t (1 : Fin 3) * 1024 + 1 * (y 1).val = (k 1).val; omega
  | ⟨2, _⟩ => show win1_3.index t (2 : Fin 3) * 1 + 1 * (y 2).val = (k 2).val; omega

/-! ## The stored payload at the output block's one index -/

/-- The stored number at the block's one index: the payload module's closed form. -/
private theorem loss_at (x0 : Vec Ideal S1x1024x100 .f32) (x1 : Vec Ideal S1x1024x1 .f32) (x2 : Vec Ideal S1x1024x100 .i32)
    (x3 : Vec Ideal S1x1024x1 .f32) (j : S1x1x1.Idx) :
    k1_pay1 (F := Ideal) (k1_pay2 x0 x1 x2 x3) j
      = 0 - ∑ t : Fin 1024, (if half < x3 (ix3 0 t 0) then
          lpK (x1 (ix3 0 t 0)) (fun k => x0 (ix3 0 t k)) (fun k => x2 (ix3 0 t k) == BitVec.ofNat 32 t.val) else 0) := by
  have hj : j = ix3 (0 : Fin 1) (0 : Fin 1) (0 : Fin 1) := by
    funext a
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => exact Fin.ext (by have h : (j 2).val < 1 := (j 2).isLt; show (j 2).val = 0; omega)
  rw [hj]
  exact payloss_apply x0 x1 x2 x3

/-! ## What each point writes back, the cover, the array -/

/-- The per-batch number as one function of four arrays of the input windows' shapes. -/
private abbrev lossOf (a0 : S8x1024x100.Idx → EReal) (a1 : S8x1024x1.Idx → EReal) (a2 : S8x1024x100.Idx → BitVec 32)
    (a3 : S8x1024x1.Idx → EReal) : S8x1x1.Idx → EReal :=
  fun i => 0 - ∑ t : Fin 1024,
    (if half < a3 (ix3 (i 0) t 0) then
      lpK (a1 (ix3 (i 0) t 0)) (fun k => a0 (ix3 (i 0) t k))
        (fun k => a2 (ix3 (i 0) t k) == BitVec.ofNat 32 t.val)
     else 0)

/-- What point t writes back to the output array is block t of that function of the arrays at entry. -/
private theorem flushed_loss (c : Dev nD) (t : Fin cfg1.N) :
    (dat1 (F := Ideal) V c).flushed 4 t = ((cfg1.win 4).blk t).view.read (Elt Ideal)
      (lossOf (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero origin3]
  simp only [View.ld_unit_zero (S := S1x1024x100) origin3, View.ld_unit_zero (S := S1x1024x1) origin3]
  obtain ⟨e0, e1, e2⟩ := idx_loss t
  funext j
  refine (loss_at _ _ _ _ j).trans ?_
  show _ = lossOf (V c (Pipeline.arrRef spec1 0)) (V c (Pipeline.arrRef spec1 1)) (V c (Pipeline.arrRef spec1 2)) (V c (Pipeline.arrRef spec1 3)) (((cfg1.win 4).blk t).view.emb j)
  have hb : ((((cfg1.win 4).blk t).view.emb j) 0).val = t.val := by
    show win1_4.index t (0 : Fin 3) * 1 + 1 * (j 0).val = t.val
    have hj : (j 0).val < 1 := (j 0).isLt
    omega
  refine congrArg (fun s : EReal => 0 - s) (Finset.sum_congr rfl fun s _ => ?_)
  rw [mask_blk_apply V c t (ix3 0 s 0) (ix3 ((((cfg1.win 4).blk t).view.emb j) 0) s 0) hb rfl rfl,
    poss_blk_apply V c t (ix3 0 s 0) (ix3 ((((cfg1.win 4).blk t).view.emb j) 0) s 0) hb rfl rfl]
  refine if_congr Iff.rfl (congrArg₂ (lpK _) (funext fun k => ?_) (funext fun k => ?_)) rfl
  · exact negs_blk_apply V c t (ix3 0 s k) (ix3 ((((cfg1.win 4).blk t).view.emb j) 0) s k) hb rfl rfl
  · rw [nidx_blk_apply V c t (ix3 0 s k) (ix3 ((((cfg1.win 4).blk t).view.emb j) 0) s k) hb rfl rfl]

/-- An index of the output array is in point t's block iff each coordinate is in the block's range. -/
private theorem mem_blk_loss (t : Fin cfg1.N) (i : S8x1x1.Idx) :
    i ∈ ((cfg1.win 4).blk t).view.set ↔ ∀ a : Fin 3, win1_4.index t a * S1x1x1.size a ≤ (i a).val ∧ (i a).val < win1_4.index t a * S1x1x1.size a + S1x1x1.size a := by
  show i ∈ ((View.whole main_v4).slice (win1_4.rect t)).set ↔ _
  rw [View.set_slice_whole, Rect.mem_set_unit]
  exact Iff.rfl

/-- Every index of the output array lies in the block of the point its batch coordinate names. -/
private theorem cover_loss (i : S8x1x1.Idx) :
    ∃ t : Fin cfg1.N, (cfg1.win 4).flush t = true ∧ i ∈ ((cfg1.win 4).blk t).view.set := by
  have h0 : (i 0).val < 8 := (i 0).isLt
  have h1 : (i 1).val < 1 := (i 1).isLt
  have h2 : (i 2).val < 1 := (i 2).isLt
  refine ⟨⟨(i 0).val, h0⟩, flush1_4 _, ?_⟩
  rw [mem_blk_loss]
  obtain ⟨e0, e1, e2⟩ := idx_loss ⟨(i 0).val, h0⟩
  have e0' : win1_4.index ⟨(i 0).val, h0⟩ (0 : Fin 3) = (i 0).val := e0
  intro a
  match a with
  | ⟨0, _⟩ => show win1_4.index ⟨(i 0).val, h0⟩ (0 : Fin 3) * 1 ≤ (i 0).val ∧ (i 0).val < win1_4.index ⟨(i 0).val, h0⟩ (0 : Fin 3) * 1 + 1; omega
  | ⟨1, _⟩ => show win1_4.index ⟨(i 0).val, h0⟩ (1 : Fin 3) * 1 ≤ (i 1).val ∧ (i 1).val < win1_4.index ⟨(i 0).val, h0⟩ (1 : Fin 3) * 1 + 1; omega
  | ⟨2, _⟩ => show win1_4.index ⟨(i 0).val, h0⟩ (2 : Fin 3) * 1 ≤ (i 2).val ∧ (i 2).val < win1_4.index ⟨(i 0).val, h0⟩ (2 : Fin 3) * 1 + 1; omega

/-- The output array after the call, whatever the arrays held at entry. -/
private theorem arr_loss_of (c : Dev nD) :
    (dat1 (F := Ideal) V c).arrAt 4 cfg1.N
      = lossOf (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed_loss V c t) cover_loss

end AnyEntry

/-- The per-batch contrastive numbers after the second call. -/
theorem arr1_4 (c : Dev nD) :
    (dat1 (F := Ideal) (V3 m ρ) c).arrAt 4 cfg1.N
      = fun i : S8x1x1.Idx => 0 - ∑ t : Fin 1024,
          (if half < mskE m ρ c (ix3 (i 0) t 0) then
            lpK (posE m ρ c (ix3 (i 0) t 0)) (fun k => negE m ρ c (ix3 (i 0) t k))
              (fun k => idxE m ρ c (ix3 (i 0) t k) == BitVec.ofNat 32 t.val)
           else 0) :=
  arr_loss_of (V3 m ρ) c

end Cert.KernelIdeal.Arrays

end
-- ==== Proof.KGlue.lean ====
/-
  Between the two kernels: what the second call's four input arrays hold when it is entered.

  After the first call the host gathers SCALARS from its cosine matrix — for position (b, t) and negative k the entry
  (b, t, idx[b,t,k]) — with jnp.take_along_axis's conventions: a negative index has 1024 added, an index then outside
  0 … 1023 yields a fill value instead of an entry.  With every index in 0 … 1023 (the precondition) nothing is added
  and nothing is filled: the gathered array at (b, t, k) IS the matrix at (b, t, idx[b,t,k]).  The positives' cosines
  and the index array reach the second call untouched (no host operation in between writes them), and the mask
  reaches it converted to a float and given a unit axis.
-/
import proofs.«416889_j3770981286079_1_alg».proof.Proof.Gen.KernelIdeal.Frame
import proofs.«416889_j3770981286079_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

set_option maxRecDepth 16384

noncomputable section

open scoped BigOperators

namespace Cert.KernelIdeal.Glue

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The index and mask arguments as launched. -/
abbrev idxA (c : Dev nD) : S8x1024x100.Idx → BitVec 32 := m ((c.tc : Thread nD τ).loc main_arg3)
abbrev mkA (c : Dev nD) : S8x1024.Idx → BitVec 1 := m ((c.tc : Thread nD τ).loc main_arg4)

/-- The first call's cosine matrix and positives' cosines, as it leaves them. -/
abbrev cosArr (c : Dev nD) : S8x1024x1024.Idx → EReal := (dat0 (F := Ideal) (V0 m ρ) c).arrAt 3 cfg0.N
abbrev posArr (c : Dev nD) : S8x1024x1.Idx → EReal := (dat0 (F := Ideal) (V0 m ρ) c).arrAt 4 cfg0.N

/-! ## Words below 1024, and the four operations read at an index -/

open Idealize.ShloMosaic.StableHlo.Predicate in
/-- A word below 1024 is non-negative as a signed word and at most 1023, and reads the same signed and unsigned. -/
private theorem word_facts (w : BitVec 32) (h : w.toNat < 1024) :
    IntOp.cmpi .slt w 0#32 = 0#1 ∧ IntOp.cmpi .sge w 0#32 = 1#1 ∧ IntOp.cmpi .sle w 1023#32 = 1#1
      ∧ w.toInt.toNat = w.toNat := by
  have hw : w.toNat < 2 ^ 31 := by omega
  have h0 : (0#32 : BitVec 32).toNat < 2 ^ 31 := by decide
  have h1 : (1023#32 : BitVec 32).toNat < 2 ^ 31 := by decide
  refine ⟨eq_zero_of_ne_one fun e => ?_, (sge_iff_toNat hw h0).mpr (Nat.zero_le _), (sle_iff_toNat hw h1).mpr ?_, ?_⟩
  · exact absurd ((slt_iff_toNat hw h0).mp e) (Nat.not_lt_zero _)
  · show w.toNat ≤ 1023
    omega
  · rw [toInt_eq_toNat_of_lt hw]; rfl

/-- A reduction by AND of an array of ones, from one, is one. -/
private theorem reduce_andi_one {s t u : Shape} {axes : List (Fin s.rank)} (x : s.Idx → BitVec 1) (init : u.Idx → BitVec 1)
    (h : s.ReducesTo axes t) (hu : 0 < u.numel) (hx : ∀ i, x i = 1#1) (hi : ∀ q, init q = 1#1) (j : t.Idx) :
    Host.reduce IntOp.andi x init h hu j = 1#1 := by
  unfold Host.reduce
  rw [hi]
  generalize (List.finRange s.numel).filter (fun n => h.drop (s.rowMajor.symm n) = j) = l
  induction l with
  | nil => rfl
  | cons a l ih =>
    rw [List.foldl_cons, hx]
    exact ih

/-- (a) Normalising an index below 1024 changes nothing. -/
private theorem norm_apply {s : Shape} (hb : S_.BroadcastsInDim s (![] : Fin 0 → Fin s.rank)) (idx : IVec s 32) (i : s.Idx)
    (h : (idx i).toNat < 1024) :
    select (cmpi .slt idx (broadcastInDim s ![] hb (constantI S_ 32 0#32)))
      (addi idx (broadcastInDim s ![] hb (constantI S_ 32 1024#32))) idx i = idx i := by
  show Scalar.select (IntOp.cmpi .slt (idx i) 0#32) _ _ = _
  rw [(word_facts _ h).1, select_zero]

/-- (b) The in-range test of an index below 1024 is one. -/
private theorem inb_apply (h1 : S_.BroadcastsInDim S8x1024x100x1 (![] : Fin 0 → Fin S8x1024x100x1.rank))
    (h2 : S1x1x1x1.BroadcastsInDim S8x1024x100x1 (![0, 1, 2, 3] : Fin 4 → Fin S8x1024x100x1.rank))
    (h3 : S1.BroadcastsInDim S1x1x1x1 (![3] : Fin 1 → Fin S1x1x1x1.rank))
    (x : IVec S8x1024x100x1 32) (j : S8x1024x100x1.Idx) (hx : (x j).toNat < 1024) :
    andi (cmpi .sge x (broadcastInDim S8x1024x100x1 ![] h1 (constantI S_ 32 0#32)))
      (cmpi .sle x (broadcastInDim S8x1024x100x1 ![0, 1, 2, 3] h2 (broadcastInDim S1x1x1x1 ![3] h3 (constantI S1 32 1023#32)))) j
      = 1#1 := by
  show IntOp.andi (IntOp.cmpi .sge (x j) 0#32) (IntOp.cmpi .sle (x j) 1023#32) = 1#1
  rw [(word_facts _ hx).2.1, (word_facts _ hx).2.2.1]
  rfl

private abbrev gdims := gather_S8x1024x1024_S8x1024x100x1_S8x1024x100_n_2_01_01_2_3_111

/-- (c) The gather at (b, t, k): batch coordinates (b, t), and on the third axis the start index read signed and clamped
    into 0 … 1023. -/
private theorem gather_apply {α : Type} {w : Nat} (cos : S8x1024x1024.Idx → α) (x : IVec S8x1024x100x1 w)
    (b : Fin 8) (t : Fin 1024) (k : Fin 100) :
    Host.gather gdims cos x (ix3 b t k)
      = cos (ix3 b t ⟨min (x (ix4 b t k 0)).toInt.toNat 1023, by omega⟩) := by
  have b0 : (0 : Fin 3) ∈ gdims.operandBatchingDims := by decide
  have b1 : (1 : Fin 3) ∈ gdims.operandBatchingDims := by decide
  have b2 : (2 : Fin 3) ∉ gdims.operandBatchingDims := by decide
  have c2 : (2 : Fin 3) ∈ gdims.collapsedSliceDims := by decide
  have s2 : (2 : Fin 3) ∈ gdims.startIndexMap := by decide
  unfold Host.gather
  congr 1
  funext a
  refine Fin.ext ?_
  match a with
  | ⟨0, _⟩ =>
    show gdims.start (ix3 b t k) x (0 : Fin 3) + gdims.batchCoord (ix3 b t k) (0 : Fin 3) + gdims.offCoord (ix3 b t k) (0 : Fin 3) = b.val
    rw [GatherDims.start_batching _ _ _ _ b0,
      GatherDims.offCoord_eq_zero _ _ _ (fun h => ((GatherDims.mem_sKept _ _).mp h).2 b0), Nat.zero_add, Nat.add_zero]
    unfold GatherDims.batchCoord
    rw [dif_pos b0]
    rfl
  | ⟨1, _⟩ =>
    show gdims.start (ix3 b t k) x (1 : Fin 3) + gdims.batchCoord (ix3 b t k) (1 : Fin 3) + gdims.offCoord (ix3 b t k) (1 : Fin 3) = t.val
    rw [GatherDims.start_batching _ _ _ _ b1,
      GatherDims.offCoord_eq_zero _ _ _ (fun h => ((GatherDims.mem_sKept _ _).mp h).2 b1), Nat.zero_add, Nat.add_zero]
    unfold GatherDims.batchCoord
    rw [dif_pos b1]
    rfl
  | ⟨2, _⟩ =>
    show gdims.start (ix3 b t k) x (2 : Fin 3) + gdims.batchCoord (ix3 b t k) (2 : Fin 3) + gdims.offCoord (ix3 b t k) (2 : Fin 3)
      = min (x (ix4 b t k 0)).toInt.toNat 1023
    rw [GatherDims.batchCoord_eq_zero _ _ _ b2,
      GatherDims.offCoord_eq_zero _ _ _ (fun h => ((GatherDims.mem_sKept _ _).mp h).1 c2), Nat.add_zero]
    unfold GatherDims.start
    rw [dif_pos s2]
    have hsi : gdims.siIdx (ix3 b t k) ⟨List.idxOf (2 : Fin 3) gdims.startIndexMap, List.idxOf_lt_length_iff.2 s2⟩
        = ix4 b t k 0 := by
      funext e; refine Fin.ext ?_
      match e with
      | ⟨0, _⟩ => rfl
      | ⟨1, _⟩ => rfl
      | ⟨2, _⟩ => rfl
      | ⟨3, _⟩ => rfl
    rw [hsi]
    rfl

/-! ## The host's stretch as one function of the index array and the cosine matrix -/

/-- The index array normalised as the host does it: 1024 added to a negative index. -/
private def norm3 (idx : IVec S8x1024x100 32) : IVec S8x1024x100 32 :=
  select (cmpi .slt idx (broadcastInDim S8x1024x100 ![] Facts₀.bcast_S_S8x1024x100 (constantI S_ 32 0#32)))
    (addi idx (broadcastInDim S8x1024x100 ![] Facts₀.bcast_S_S8x1024x100 (constantI S_ 32 1024#32))) idx
/-- … given a trailing unit axis. -/
private def norm4 (idx : IVec S8x1024x100 32) : IVec S8x1024x100x1 32 :=
  fun i => shapeCast S8x1024x100x1 (norm3 idx) Facts₀.shapeCasts_S8x1024x100_S8x1024x100x1 i
/-- The in-range test of the normalised indices. -/
private def inb4 (idx : IVec S8x1024x100 32) : IVec S8x1024x100x1 1 :=
  andi (cmpi .sge (norm4 idx) (broadcastInDim S8x1024x100x1 ![] Facts₀.bcast_S_S8x1024x100x1 (constantI S_ 32 0#32)))
    (cmpi .sle (norm4 idx) (broadcastInDim S8x1024x100x1 ![0, 1, 2, 3] Facts₀.bcast_S1x1x1x1_S8x1024x100x1_0_1_2_3
      (broadcastInDim S1x1x1x1 ![3] Facts₀.bcast_S1_S1x1x1x1_3 (constantI S1 32 1023#32))))
/-- … reduced over the unit axis. -/
private def inb3 (idx : IVec S8x1024x100 32) : IVec S8x1024x100 1 :=
  Host.reduce IntOp.andi (inb4 idx) (constantI S_ 1 1#1) Facts₀.reducesTo_S8x1024x100x1_S8x1024x100_d3 Facts₀.h_S_
/-- What the host writes for the second call: the gathered entry where the index is in range, else the fill value. -/
private def taken (idx : IVec S8x1024x100 32) (cos : FVec Ideal S8x1024x1024 .f32) : FVec Ideal S8x1024x100 .f32 :=
  select (inb3 idx) (Host.gather gather_S8x1024x1024_S8x1024x100x1_S8x1024x100_n_2_01_01_2_3_111 cos (norm4 idx))
    (broadcastInDim S8x1024x100 ![] Facts₀.bcast_S_S8x1024x100 (constant S_ .f32 0x7FC00000#32))

/-- The normalised indices with the unit axis, read at (b, t, k, 0): the index itself, when it is below 1024. -/
private theorem norm4_apply (idx : IVec S8x1024x100 32) (h : ∀ i, (idx i).toNat < 1024) (b : Fin 8) (t : Fin 1024) (k : Fin 100) :
    norm4 idx (ix4 b t k 0) = idx (ix3 b t k) := by
  unfold norm4
  refine (shapeCast_apply _ _ _ (ix3 b t k) ?_).trans (norm_apply _ idx _ (h _))
  rw [Shape.rowMajor_val_three, Shape.rowMajor_val_four]
  show (b.val * 1024 + t.val) * 100 + k.val = ((b.val * 1024 + t.val) * 100 + k.val) * 1 + 0
  omega

/-- Every normalised index is below 1024 when every index is. -/
private theorem norm4_lt (idx : IVec S8x1024x100 32) (h : ∀ i, (idx i).toNat < 1024) (j : S8x1024x100x1.Idx) :
    (norm4 idx j).toNat < 1024 := by
  show (norm3 idx (Shape.reshapeEquiv Facts₀.shapeCasts_S8x1024x100_S8x1024x100x1 j)).toNat < 1024
  unfold norm3
  rw [norm_apply _ idx _ (h _)]
  exact h _

/-- The host's array at an index: a choice between the gathered entry and the fill value. -/
private theorem taken_eq (idx : IVec S8x1024x100 32) (cos : FVec Ideal S8x1024x1024 .f32) (i : S8x1024x100.Idx) :
    taken idx cos i = Scalar.select (inb3 idx i) (Host.gather gdims cos (norm4 idx) i)
      (broadcastInDim S8x1024x100 ![] Facts₀.bcast_S_S8x1024x100 (constant (F := Ideal) S_ .f32 0x7FC00000#32) i) := rfl

/-- With every index below 1024 the host's array at (b, t, k) is the matrix at (b, t, idx[b,t,k]). -/
private theorem taken_apply (idx : IVec S8x1024x100 32) (cos : FVec Ideal S8x1024x1024 .f32) (h : ∀ i, (idx i).toNat < 1024)
    (b : Fin 8) (t : Fin 1024) (k : Fin 100) :
    taken idx cos (ix3 b t k) = cos (ix3 b t (tix (idx (ix3 b t k)))) := by
  have hm : inb3 idx (ix3 b t k) = 1#1 :=
    reduce_andi_one _ _ _ _ (fun j => inb_apply _ _ _ _ j (norm4_lt idx h j)) (fun _ => rfl) _
  rw [taken_eq, hm, select_one, gather_apply]
  refine congrArg cos (congrArg (ix3 b t) (Fin.ext ?_))
  show min (norm4 idx (ix4 b t k 0)).toInt.toNat 1023 = min (idx (ix3 b t k)).toNat 1023
  rw [norm4_apply idx h, (word_facts _ (h _)).2.2.2]

/-! ## The stretch is that function of the first call's arrays -/

/-- The host's 22 operations between the calls, written at their buffers' literal types. -/
private abbrev ops1 : List (HloOp τ sig (Elt Ideal)) :=
  [ StableHlo.nullary main_call0_c (constantI S_ 32 0#32 : (⟨S_, .i32⟩ : BufTy).Contents (Elt Ideal)),
    StableHlo.unary main_call0_c main_call0_v0 (broadcastInDim S8x1024x100 ![] Facts₀.bcast_S_S8x1024x100 :
      (⟨S_, .i32⟩ : BufTy).Contents (Elt Ideal) → (⟨S8x1024x100, .i32⟩ : BufTy).Contents (Elt Ideal)),
    StableHlo.binary main_arg3 main_call0_v0 main_call0_v1 (cmpi .slt :
      (⟨S8x1024x100, .i32⟩ : BufTy).Contents (Elt Ideal) → (⟨S8x1024x100, .i32⟩ : BufTy).Contents (Elt Ideal) → (⟨S8x1024x100, .i1⟩ : BufTy).Contents (Elt Ideal)),
    StableHlo.nullary main_call0_c_0 (constantI S_ 32 1024#32 : (⟨S_, .i32⟩ : BufTy).Contents (Elt Ideal)),
    StableHlo.unary main_call0_c_0 main_call0_v2 (broadcastInDim S8x1024x100 ![] Facts₀.bcast_S_S8x1024x100 :
      (⟨S_, .i32⟩ : BufTy).Contents (Elt Ideal) → (⟨S8x1024x100, .i32⟩ : BufTy).Contents (Elt Ideal)),
    StableHlo.binary main_arg3 main_call0_v2 main_call0_v3 (addi :
      (⟨S8x1024x100, .i32⟩ : BufTy).Contents (Elt Ideal) → (⟨S8x1024x100, .i32⟩ : BufTy).Contents (Elt Ideal) → (⟨S8x1024x100, .i32⟩ : BufTy).Contents (Elt Ideal)),
    StableHlo.ternary main_call0_v1 main_call0_v3 main_arg3 main_call0_v4 (select :
      (⟨S8x1024x100, .i1⟩ : BufTy).Contents (Elt Ideal) → (⟨S8x1024x100, .i32⟩ : BufTy).Contents (Elt Ideal) → (⟨S8x1024x100, .i32⟩ : BufTy).Contents (Elt Ideal) → (⟨S8x1024x100, .i32⟩ : BufTy).Contents (Elt Ideal)),
    StableHlo.reshape main_call0_v4 main_call0_v5 rfl Facts₀.shapeCasts_S8x1024x100_S8x1024x100x1,
    StableHlo.nullary main_call0_c_1 (constantI S1 32 1023#32 : (⟨S1, .i32⟩ : BufTy).Contents (Elt Ideal)),
    StableHlo.nullary main_call0_c_2 (constantI S_ 32 0#32 : (⟨S_, .i32⟩ : BufTy).Contents (Elt Ideal)),
    StableHlo.unary main_call0_c_2 main_call0_v6 (broadcastInDim S8x1024x100x1 ![] Facts₀.bcast_S_S8x1024x100x1 :
      (⟨S_, .i32⟩ : BufTy).Contents (Elt Ideal) → (⟨S8x1024x100x1, .i32⟩ : BufTy).Contents (Elt Ideal)),
    StableHlo.binary main_call0_v5 main_call0_v6 main_call0_v7 (cmpi .sge :
      (⟨S8x1024x100x1, .i32⟩ : BufTy).Contents (Elt Ideal) → (⟨S8x1024x100x1, .i32⟩ : BufTy).Contents (Elt Ideal) → (⟨S8x1024x100x1, .i1⟩ : BufTy).Contents (Elt Ideal)),
    StableHlo.unary main_call0_c_1 main_call0_v8 (broadcastInDim S1x1x1x1 ![3] Facts₀.bcast_S1_S1x1x1x1_3 :
      (⟨S1, .i32⟩ : BufTy).Contents (Elt Ideal) → (⟨S1x1x1x1, .i32⟩ : BufTy).Contents (Elt Ideal)),
    StableHlo.unary main_call0_v8 main_call0_v9 (broadcastInDim S8x1024x100x1 ![0, 1, 2, 3] Facts₀.bcast_S1x1x1x1_S8x1024x100x1_0_1_2_3 :
      (⟨S1x1x1x1, .i32⟩ : BufTy).Contents (Elt Ideal) → (⟨S8x1024x100x1, .i32⟩ : BufTy).Contents (Elt Ideal)),
    StableHlo.binary main_call0_v5 main_call0_v9 main_call0_v10 (cmpi .sle :
      (⟨S8x1024x100x1, .i32⟩ : BufTy).Contents (Elt Ideal) → (⟨S8x1024x100x1, .i32⟩ : BufTy).Contents (Elt Ideal) → (⟨S8x1024x100x1, .i1⟩ : BufTy).Contents (Elt Ideal)),
    StableHlo.binary main_call0_v7 main_call0_v10 main_call0_v11 (andi :
      (⟨S8x1024x100x1, .i1⟩ : BufTy).Contents (Elt Ideal) → (⟨S8x1024x100x1, .i1⟩ : BufTy).Contents (Elt Ideal) → (⟨S8x1024x100x1, .i1⟩ : BufTy).Contents (Elt Ideal)),
    StableHlo.nullary main_call0_c_3 (constantI S_ 1 1#1 : (⟨S_, .i1⟩ : BufTy).Contents (Elt Ideal)),
    StableHlo.binary main_call0_v11 main_call0_c_3 main_call0_v12 ((fun x v => Host.reduce IntOp.andi x v Facts₀.reducesTo_S8x1024x100x1_S8x1024x100_d3 Facts₀.h_S_) :
      (⟨S8x1024x100x1, .i1⟩ : BufTy).Contents (Elt Ideal) → (⟨S_, .i1⟩ : BufTy).Contents (Elt Ideal) → (⟨S8x1024x100, .i1⟩ : BufTy).Contents (Elt Ideal)),
    StableHlo.binary main_v0_0 main_call0_v5 main_call0_v13 ((fun x i => Host.gather gather_S8x1024x1024_S8x1024x100x1_S8x1024x100_n_2_01_01_2_3_111 x i) :
      (⟨S8x1024x1024, .f32⟩ : BufTy).Contents (Elt Ideal) → (⟨S8x1024x100x1, .i32⟩ : BufTy).Contents (Elt Ideal) → (⟨S8x1024x100, .f32⟩ : BufTy).Contents (Elt Ideal)),
    StableHlo.nullary main_call0_cst (constant (F := Ideal) S_ .f32 0x7FC00000#32 : (⟨S_, .f32⟩ : BufTy).Contents (Elt Ideal)),
    StableHlo.unary main_call0_cst main_call0_v14 (broadcastInDim S8x1024x100 ![] Facts₀.bcast_S_S8x1024x100 :
      (⟨S_, .f32⟩ : BufTy).Contents (Elt Ideal) → (⟨S8x1024x100, .f32⟩ : BufTy).Contents (Elt Ideal)),
    StableHlo.ternary main_call0_v12 main_call0_v13 main_call0_v14 main_v1 (select :
      (⟨S8x1024x100, .i1⟩ : BufTy).Contents (Elt Ideal) → (⟨S8x1024x100, .f32⟩ : BufTy).Contents (Elt Ideal) → (⟨S8x1024x100, .f32⟩ : BufTy).Contents (Elt Ideal) → (⟨S8x1024x100, .f32⟩ : BufTy).Contents (Elt Ideal)) ]

attribute [local irreducible] Host.reduce in
/-- They are the program's operations. -/
private theorem hostOps1_eq : (hostOps1 : List (HloOp τ sig (Elt Ideal))) = ops1 := rfl

attribute [local irreducible] Host.reduce in
set_option maxHeartbeats 1000000 in
/-- What the second call's first input holds, as that function of the index argument and the first call's matrix. -/
private theorem entry1_0_ops (c : Dev nD) :
    V3 (F := Ideal) m ρ c (Pipeline.arrRef spec1 0) = taken (idxA m c) (cosArr m ρ c) := by
  show StableHlo.after hostOps1_1 (StableHlo.after hostOps1 (W1 m ρ c)) (Proc.devRef .tc main_v1) = _
  rw [hostOps1_eq]
  after_results_simp
  rw [W1_of_ne m ρ c main_arg3 (by decide), W1_arr m ρ c 3]
  rfl

/-! ## The four inputs of the second call -/

/-- The gathered negatives' cosines: with every index below 1024, entry (b, t, k) is the matrix at (b, t, idx[b,t,k]). -/
theorem entry1_0 (c : Dev nD) (hidx : ∀ i, (idxA m c i).toNat < 1024) :
    V3 (F := Ideal) m ρ c (Pipeline.arrRef spec1 0)
      = fun i : S8x1024x100.Idx => cosArr m ρ c (ix3 (i 0) (i 1) (tix (idxA m c i))) := by
  rw [entry1_0_ops]
  funext i
  obtain ⟨b, t, k, rfl⟩ : ∃ b t k, i = ix3 b t k := ⟨i 0, i 1, i 2, eq_ix3 i⟩
  exact taken_apply (idxA m c) (cosArr m ρ c) hidx b t k

/-- The positives' cosines reach the second call as the first left them. -/
theorem entry1_1 (c : Dev nD) :
    V3 (F := Ideal) m ρ c (Pipeline.arrRef spec1 1) = posArr m ρ c := by
  show StableHlo.after hostOps1_1 _ (Proc.devRef .tc main_v0_1) = _
  after_results
  exact W1_arr m ρ c 4

/-- The index array reaches it as launched. -/
theorem entry1_2 (c : Dev nD) :
    V3 (F := Ideal) m ρ c (Pipeline.arrRef spec1 2) = idxA m c := by
  show StableHlo.after hostOps1_1 _ (Proc.devRef .tc main_arg3) = _
  after_results
  exact W1_of_ne m ρ c main_arg3 (by decide)

/-- The mask reaches it as a float with a unit axis. -/
theorem entry1_3 (c : Dev nD) :
    V3 (F := Ideal) m ρ c (Pipeline.arrRef spec1 3)
      = fun i : S8x1024x1.Idx => FloatOps.uitofp (F := Ideal) .f32 (mkA m c (ix2 (i 0) (i 1))) := by
  show StableHlo.after hostOps1_1 _ (Proc.devRef .tc main_v3) = _
  after_results
  rw [W1_of_ne m ρ c main_arg4 (by decide)]
  funext i
  refine (broadcastInDim_apply _ Facts₀.bcast_S8x1024_S8x1024x1_0_1 _ i (ix2 (i 0) (i 1)) (fun a => ?_)).trans ?_
  · match a with
    | ⟨0, _⟩ => show (i 0).val = if (8 : Nat) = 1 then 0 else (i 0).val; rw [if_neg (by decide)]
    | ⟨1, _⟩ => show (i 1).val = if (1024 : Nat) = 1 then 0 else (i 1).val; rw [if_neg (by decide)]
  · rfl

end Cert.KernelIdeal.Glue

end
-- ==== Proof.KTail.lean ====
/-
  After the second kernel: the result as a function of the three arrays the last stretch of host operations reads —
  the per-batch contrastive numbers L [8,1,1], the per-batch summed softmax P [8,2,320] and the per-batch sums of
  squares Q [8,1,1].  The stretch sums L over everything, P over the batch axis, Q over everything, and applies the
  common last formula (entropy of P-sum / 8192 per group, perplexity, the weighted sum).  The two first-call arrays
  reach the stretch untouched: nothing between the calls, and not the second call, writes them.
-/
import proofs.«416889_j3770981286079_1_alg».proof.Proof.Gen.KernelIdeal.Frame
import proofs.«416889_j3770981286079_1_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.Tail

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The three arrays the last stretch reads, as the calls leave them. -/
abbrev lossArr (c : Dev nD) : S8x1x1.Idx → EReal := (dat1 (F := Ideal) (V3 m ρ) c).arrAt 4 cfg1.N
abbrev psArr (c : Dev nD) : S8x2x320.Idx → EReal := (dat0 (F := Ideal) (V0 m ρ) c).arrAt 5 cfg0.N
abbrev sqArr (c : Dev nD) : S8x1x1.Idx → EReal := (dat0 (F := Ideal) (V0 m ρ) c).arrAt 6 cfg0.N

/-! ## The host sums of the stretch, read at an index -/

/-- A host sum of an [8,1,1] array over all its axes, from the zero word: the sum of its entries. -/
theorem sumAll8 (x : FVec Ideal S8x1x1 .f32) (i : S_.Idx) :
    Host.reduceAdd x (constant (F := Ideal) S_ .f32 0x00000000#32) reducesTo_S8x1x1_S_d0_1_2 h_S_ i = ∑ j : S8x1x1.Idx, x j := by
  simp only [Host.reduceAdd, Ideal.hostReduceAdd_def]
  rw [Ideal.hostReduceAdd_total reducesTo_S8x1x1_S_d0_1_2 (fun b => b.elim0)]
  show Ideal.ofBits .f32 0x00000000#32 + _ = _
  rw [Ideal.ofBits_zero_f32, zero_add]

/-- A host sum of a [2] array over its axis, from the zero word: the sum over the two groups. -/
theorem sumAll2 (z : FVec Ideal S2 .f32) (i : S_.Idx) :
    Host.reduceAdd z (constant (F := Ideal) S_ .f32 0x00000000#32) reducesTo_S2_S_d0 h_S_ i = ∑ g : Fin 2, z (ix1 g) := by
  simp only [Host.reduceAdd, Ideal.hostReduceAdd_def]
  rw [Ideal.hostReduceAdd_total reducesTo_S2_S_d0 (fun b => b.elim0)]
  show Ideal.ofBits .f32 0x00000000#32 + _ = _
  rw [Ideal.ofBits_zero_f32, zero_add]
  exact Fintype.sum_equiv ⟨fun j => j 0, fun g => ix1 g, fun j => (eq_ix1 j).symm, fun g => rfl⟩ _ _
    (fun j => congrArg z (eq_ix1 j))

/-- A host sum of an [8,2,320] array over its batch axis, from the zero word. -/
theorem sumBatch (P : FVec Ideal S8x2x320 .f32) (j : S2x320.Idx) :
    Host.reduceAdd P (constant (F := Ideal) S_ .f32 0x00000000#32) reducesTo_S8x2x320_S2x320_d0 h_S_ j
      = ∑ b : Fin 8, P (ix3 b (j 0) (j 1)) := by
  simp only [Host.reduceAdd, Ideal.hostReduceAdd_def]
  rw [Ideal.hostReduceAdd_single reducesTo_S8x2x320_S2x320_d0 (by decide)]
  show Ideal.ofBits .f32 0x00000000#32 + _ = _
  rw [Ideal.ofBits_zero_f32, zero_add]
  refine Finset.sum_congr rfl fun k _ => ?_
  exact congrArg P (funext fun a => Fin.ext (by match a with | ⟨0, _⟩ => rfl | ⟨1, _⟩ => rfl | ⟨2, _⟩ => rfl))

/-- A host sum of a [2,320] array over its second axis, from the zero word. -/
theorem sumRow (y : FVec Ideal S2x320 .f32) (j : S2.Idx) :
    Host.reduceAdd y (constant (F := Ideal) S_ .f32 0x00000000#32) reducesTo_S2x320_S2_d1 h_S_ j
      = ∑ v : Fin 320, y (ix2 (j 0) v) := by
  simp only [Host.reduceAdd, Ideal.hostReduceAdd_def]
  rw [Ideal.hostReduceAdd_single reducesTo_S2x320_S2_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-! ## The stretch as a function of the three arrays it reads -/

/-- The batch-summed softmax over 8192, per group and code. -/
def pbar (P : FVec Ideal S8x2x320 .f32) : FVec Ideal S2x320 .f32 :=
  Host.divf (Host.reduceAdd P (constant S_ .f32 0x00000000#32) reducesTo_S8x2x320_S2x320_d0 h_S_)
    (broadcastInDim S2x320 ![] bcast_S_S2x320 (constant S_ .f32 0x46000000#32))

theorem pbar_apply (P : FVec Ideal S8x2x320 .f32) (j : S2x320.Idx) :
    pbar P j = Ideal.div (∑ b : Fin 8, P (ix3 b (j 0) (j 1))) c8192 := by
  show Ideal.div (Host.reduceAdd P (constant (F := Ideal) S_ .f32 0x00000000#32) reducesTo_S8x2x320_S2x320_d0 h_S_ j) _ = _
  rw [sumBatch]; rfl

/-- The whole stretch. -/
def tailFn (L : FVec Ideal S8x1x1 .f32) (P : FVec Ideal S8x2x320 .f32) (Q : FVec Ideal S8x1x1 .f32) : FVec Ideal S_ .f32 :=
  addf
    (addf
      (Host.reduceAdd L (constant S_ .f32 0x00000000#32) reducesTo_S8x1x1_S_d0_1_2 h_S_)
      (mulf (constant S_ .f32 0x3DCCCCCD#32)
        (Host.reduceAdd
          (subf (broadcastInDim S2 ![] bcast_S_S2 (constant S_ .f32 0x43A00000#32))
            (Host.exp
              (Host.negf
                (Host.reduceAdd
                  (mulf (pbar P)
                    (Host.log (addf (pbar P) (broadcastInDim S2x320 ![] bcast_S_S2x320 (constant S_ .f32 0x33D6BF95#32)))))
                  (constant S_ .f32 0x00000000#32) reducesTo_S2x320_S2_d1 h_S_))))
          (constant S_ .f32 0x00000000#32) reducesTo_S2_S_d0 h_S_)))
    (mulf (constant S_ .f32 0x41200000#32)
      (Host.divf
        (Host.reduceAdd Q (constant S_ .f32 0x00000000#32) reducesTo_S8x1x1_S_d0_1_2 h_S_)
        (constant S_ .f32 0x4A000000#32)))

/-- The entropy sum of one group. -/
theorem ent_apply (y : FVec Ideal S2x320 .f32) (j : S2.Idx) :
    Host.reduceAdd
        (mulf y (Host.log (addf y (broadcastInDim S2x320 ![] bcast_S_S2x320 (constant (F := Ideal) S_ .f32 0x33D6BF95#32)))))
        (constant (F := Ideal) S_ .f32 0x00000000#32) reducesTo_S2x320_S2_d1 h_S_ j
      = ∑ v : Fin 320, y (ix2 (j 0) v) * Ideal.log (y (ix2 (j 0) v) + c1em7) := by
  rw [sumRow]; rfl

theorem tailFn_apply (L : FVec Ideal S8x1x1 .f32) (P : FVec Ideal S8x2x320 .f32) (Q : FVec Ideal S8x1x1 .f32) (i : S_.Idx) :
    tailFn L P Q i = combine (∑ j : S8x1x1.Idx, L j) (fun g v => ∑ b : Fin 8, P (ix3 b g v)) (∑ j : S8x1x1.Idx, Q j) := by
  unfold tailFn combine
  show (Host.reduceAdd L (constant (F := Ideal) S_ .f32 0x00000000#32) reducesTo_S8x1x1_S_d0_1_2 h_S_ i
        + tenth * Host.reduceAdd (F := Ideal) _ (constant (F := Ideal) S_ .f32 0x00000000#32) reducesTo_S2_S_d0 h_S_ i)
      + ten * Ideal.div (Host.reduceAdd Q (constant (F := Ideal) S_ .f32 0x00000000#32) reducesTo_S8x1x1_S_d0_1_2 h_S_ i) c2p21 = _
  rw [sumAll8 L i, sumAll8 Q i, sumAll2]
  refine congrArg (fun t => (_ + tenth * t) + _) (Finset.sum_congr rfl fun g _ => ?_)
  show c320 - Ideal.exp (-(Host.reduceAdd _ (constant (F := Ideal) S_ .f32 0x00000000#32) reducesTo_S2x320_S2_d1 h_S_ (ix1 g))) = _
  rw [ent_apply]
  refine congrArg (fun t => c320 - Ideal.exp (-t)) (Finset.sum_congr rfl fun v _ => ?_)
  rw [pbar_apply]

/-! ## The three arrays as the stretch finds them -/

/-- No operation of a literal stretch writes the reference: every operation writes one buffer, another one. -/
local macro "not_written" ops:ident : tactic => `(tactic| (
  refine List.forall_iff_forall_mem.mp ?_
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-- The contrastive numbers are the second call's output array. -/
theorem W4_loss (c : Dev nD) : W4 (F := Ideal) m ρ c (Proc.devRef .tc main_v4) = lossArr m ρ c :=
  W4_arr m ρ c 4

/-- A buffer that is no array of the second call and that no operation between the calls writes holds after the
    second call what the first call left. -/
theorem W4_eq_W1 (c : Dev nD) (r : Ref sig .tc) (h4 : ∀ w, Pipeline.arrRef spec1 w ≠ r)
    (h3 : ∀ op ∈ (hostOps1_1 : List (HloOp τ sig (Elt Ideal))), Proc.devRef .tc r ∉ op.writes)
    (h2 : ∀ op ∈ (hostOps1 : List (HloOp τ sig (Elt Ideal))), Proc.devRef .tc r ∉ op.writes) :
    W4 (F := Ideal) m ρ c (Proc.devRef .tc r) = W1 m ρ c (Proc.devRef .tc r) :=
  calc W4 m ρ c (Proc.devRef .tc r)
    _ = W3 m ρ c (Proc.devRef .tc r) := W4_of_ne m ρ c r h4
    _ = W2 m ρ c (Proc.devRef .tc r) := StableHlo.after_of_forall_not_mem (b := Proc.devRef .tc r) _ _ h3
    _ = W1 m ρ c (Proc.devRef .tc r) := StableHlo.after_of_forall_not_mem (b := Proc.devRef .tc r) _ _ h2

/-- The summed softmax is the first call's sixth array, untouched since. -/
theorem W4_ps (c : Dev nD) : W4 (F := Ideal) m ρ c (Proc.devRef .tc main_v0_2) = psArr m ρ c :=
  (W4_eq_W1 m ρ c main_v0_2 (by decide) (by not_written hostOps1_1) (by not_written hostOps1)).trans (W1_arr m ρ c 5)

/-- The sums of squares are the first call's seventh array, untouched since. -/
theorem W4_sq (c : Dev nD) : W4 (F := Ideal) m ρ c (Proc.devRef .tc main_v0_3) = sqArr m ρ c :=
  (W4_eq_W1 m ρ c main_v0_3 (by decide) (by not_written hostOps1_1) (by not_written hostOps1)).trans (W1_arr m ρ c 6)

/-! ## The result -/

/-- The result buffer after the stretch is the stretch's function of the three buffers it reads. -/
theorem W5_eq_tailFn (c : Dev nD) :
    W5 (F := Ideal) m ρ c (Proc.devRef .tc main_v24)
      = tailFn (W4 m ρ c (Proc.devRef .tc main_v4)) (W4 m ρ c (Proc.devRef .tc main_v0_2))
          (W4 m ρ c (Proc.devRef .tc main_v0_3)) := by
  show StableHlo.after hostOps2 (W4 m ρ c) (Proc.devRef .tc main_v24) = _
  after_results_simp
  rfl

/-- THE RESULT after the last stretch. -/
theorem tail_value (c : Dev nD) :
    W5 (F := Ideal) m ρ c (Proc.devRef .tc main_v24)
      = fun _ => combine (∑ i : S8x1x1.Idx, lossArr m ρ c i)
          (fun g v => ∑ b : Fin 8, psArr m ρ c (ix3 b g v))
          (∑ i : S8x1x1.Idx, sqArr m ρ c i) := by
  rw [W5_eq_tailFn, W4_loss, W4_ps, W4_sq]
  exact funext fun i => tailFn_apply _ _ _ i

end Cert.KernelIdeal.Tail

end
-- ==== Proof.MathSums.lean ====
/-
  The two plain sums: a sum over batches of sums over positions is the sum over the 8192 flattened positions
  (position n is batch n / 1024, step n % 1024), and a sum over every index of a rank-3 array is the triple sum
  over its coordinates.  Both hold in any commutative additive monoid, so no finiteness is asked.
-/
import proofs.«416889_j3770981286079_1_alg».proof.Proof.Spec

noncomputable section

open scoped BigOperators

namespace Cert.Spec

open Idealize.ShloMosaic Idealize.ShloMosaic.ValueIdx

/-- A rank-3 index set is the product of its three coordinate ranges: an index goes to its coordinates, and a
    triple of coordinates comes back as the index they build. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  -- re-index through the coordinates, then split the sum over the product twice
  rw [← Equiv.sum_comp (idxEquiv3 (n0 := n0) (n1 := n1) (n2 := n2)).symm f, Fintype.sum_prod_type]
  refine Finset.sum_congr rfl fun a _ => ?_
  rw [Fintype.sum_prod_type]
  rfl

/-- Position `n` of the 8192 is the pair (batch `n / 1024`, step `n % 1024`); the pair `(b, t)` is position
    `1024 * b + t`.  Division with remainder says the two maps undo each other. -/
private def flatEquiv : Fin 8 × Fin 1024 ≃ Fin 8192 where
  toFun p := ⟨1024 * p.1.val + p.2.val, by have := p.1.isLt; have := p.2.isLt; omega⟩
  invFun n := (⟨n.val / 1024, by have := n.isLt; omega⟩, ⟨n.val % 1024, by omega⟩)
  left_inv p := by
    obtain ⟨b, t⟩ := p
    have hb := b.isLt
    have ht := t.isLt
    refine Prod.ext (Fin.ext ?_) (Fin.ext ?_)
    · show (1024 * b.val + t.val) / 1024 = b.val
      omega
    · show (1024 * b.val + t.val) % 1024 = t.val
      omega
  right_inv n := by
    refine Fin.ext ?_
    show 1024 * (n.val / 1024) + n.val % 1024 = n.val
    omega

/-- Batches of 1024 positions, flattened. -/
theorem sum_flat {M : Type*} [AddCommMonoid M] (f : Fin 8 → Fin 1024 → M) :
    ∑ b : Fin 8, ∑ t : Fin 1024, f b t
      = ∑ n : Fin 8192, f ⟨n.val / 1024, by omega⟩ ⟨n.val % 1024, by omega⟩ := by
  -- the double sum is the sum over pairs; re-index the pairs by their flat position
  rw [← Fintype.sum_prod_type' (f := f), ← Equiv.sum_comp flatEquiv.symm (fun p : Fin 8 × Fin 1024 => f p.1 p.2)]
  rfl

/-- THE SUMMED SOFTMAXES AGREE. -/
theorem psK_eq_psR (cb : (⟨4, ![8, 1024, 2, 320]⟩ : Shape).Idx → EReal) : psK cb = psR cb := by
  funext g v
  unfold psK psR
  exact sum_flat (fun b t => smx (fun v' => cb (ix4 b t g v')) v)

/-- THE SUMS OF SQUARES AGREE. -/
theorem l2K_eq_l2R (q : (⟨3, ![8, 1024, 256]⟩ : Shape).Idx → EReal) : l2K q = l2R q := by
  unfold l2K l2R
  exact (sum_idx3 (fun i => q i * q i)).symm

end Cert.Spec

end
-- ==== Proof.KValue.lean ====
/-
  The kernel program's result as a function of the argument arrays: the pieces put together.

  The last stretch gives the common last formula of three sums (over the per-batch contrastive numbers, over the batch
  axis of the per-batch summed softmax, over the per-batch sums of squares).  The second call's per-batch number is the
  masked sum of log-probabilities over ITS input arrays; those are, by what the host does between the calls, the
  gathered cosines (the first call's cosine matrix at the index each negative names, indices in range), the first
  call's positives' cosines, the index array and the mask as a float — and a one-bit mask as a float exceeds one half
  exactly when the bit is set.  The first call's arrays are the cosines, the summed softmax and the sums of squares of
  the argument arrays.  A sum over an [8,1,1] index set is the sum over its batch coordinate.
-/
import proofs.«416889_j3770981286079_1_alg».proof.Proof.KRegion0
import proofs.«416889_j3770981286079_1_alg».proof.Proof.KRegion1
import proofs.«416889_j3770981286079_1_alg».proof.Proof.KGlue
import proofs.«416889_j3770981286079_1_alg».proof.Proof.KTail
import proofs.«416889_j3770981286079_1_alg».proof.Proof.MathSums

set_option maxRecDepth 16384

noncomputable section

open scoped BigOperators

namespace Cert.KernelIdeal.Value

open Cert.KernelIdeal Cert.KernelIdeal.Gen Cert.Spec
open Cert.KernelIdeal.Arrays Cert.KernelIdeal.Glue Cert.KernelIdeal.Tail
open Idealize.ShloMosaic Idealize.ShloMosaic.TcCoe Idealize.ShloMosaic.ValueIdx Idealize.SL.Sem

variable (m : (ℓ : Loc nD τ sig) → Buf (Elt Ideal) ℓ) (ρ : Dev nD → PrngReg)

/-- One half, as the dyadic its word spells … -/
theorem half_word : half = ((8388608 * (2 ^ 24)⁻¹ : ℝ) : EReal) := by
  simp [half, Ideal.ofBits, Ideal.ieee]

/-- … which is one half. -/
theorem half_eq : half = ((1 / 2 : ℝ) : EReal) := by
  rw [half_word]
  congr 1
  norm_num

/-- A one-bit mask read as a float exceeds one half exactly when the bit is set. -/
theorem mask_gt_half (b : BitVec 1) : half < FloatOps.uitofp (F := Ideal) .f32 b ↔ b = 1#1 := by
  show half < ((b.toNat : ℝ) : EReal) ↔ _
  rw [half_eq, EReal.coe_lt_coe_iff]
  by_cases hb : b = 1#1
  · subst hb
    simp only [iff_true]
    norm_num
  · have h0 : b = 0#1 := eq_zero_of_ne_one hb
    subst h0
    simp only [hb, iff_false, not_lt]
    norm_num

/-- A sum over an [8,1,1] index set is the sum over its batch coordinate. -/
theorem sum_b11 (f : S8x1x1.Idx → EReal) : ∑ i, f i = ∑ b : Fin 8, f (ix3 b 0 0) := by
  rw [sum_idx3]
  refine Finset.sum_congr rfl fun b _ => ?_
  rw [Fin.sum_univ_one, Fin.sum_univ_one]

/-- The contrastive sum. -/
theorem loss_sum (c : Dev nD) (hidx : ∀ i, (idxA m c i).toNat < 1024) :
    ∑ i : S8x1x1.Idx, lossArr m ρ c i = lcK (xA m c) (qA m c) (idxA m c) (mkA m c) := by
  have e0 := entry1_0 m ρ c hidx
  have e1 := entry1_1 m ρ c
  have e2 := entry1_2 m ρ c
  have e3 := entry1_3 m ρ c
  have a3 := arr0_3 m ρ c
  have a4 := arr0_4 m ρ c
  have hl : lossArr m ρ c = _ := arr1_4 m ρ c
  rw [hl, sum_b11]
  unfold lcK
  refine Finset.sum_congr rfl fun b _ => ?_
  refine congrArg (fun z => (0 : EReal) - z) (Finset.sum_congr rfl fun t _ => ?_)
  have hm : (half < mskE m ρ c (ix3 b t 0)) ↔ mkA m c (ix2 b t) = 1#1 := by
    rw [show mskE m ρ c = _ from e3]
    exact mask_gt_half _
  have hp : posE m ρ c (ix3 b t 0) = poscos (xA m c) (qA m c) b t := by
    rw [show posE m ρ c = _ from e1, show posArr m ρ c = _ from a4]
  have hn : (fun k => negE m ρ c (ix3 b t k)) = negcos (xA m c) (qA m c) (idxA m c) b t := by
    funext k
    rw [show negE m ρ c = _ from e0, show cosArr m ρ c = _ from a3]
    rfl
  have hh : (fun k => idxE m ρ c (ix3 b t k) == BitVec.ofNat 32 t.val) = hit (idxA m c) b t := by
    funext k
    rw [show idxE m ρ c = _ from e2]
    rfl
  show (if half < mskE m ρ c (ix3 b t 0) then _ else _) = _
  rw [hp, hn, hh]
  exact if_congr hm rfl rfl

/-- The summed softmax. -/
theorem soft_sum (c : Dev nD) :
    (fun g v => ∑ b : Fin 8, psArr m ρ c (ix3 b g v)) = psK (cbA m c) := by
  have h : psArr m ρ c = fun i : S8x2x320.Idx => ∑ t : Fin 1024, smx (fun v' => cbA m c (ix4 (i 0) t (i 1) v')) (i 2) :=
    arr0_5 m ρ c
  funext g v
  rw [h]
  rfl

/-- The sum of squares. -/
theorem sq_sum (c : Dev nD) : ∑ i : S8x1x1.Idx, sqArr m ρ c i = l2K (qA m c) := by
  have h : sqArr m ρ c = fun i : S8x1x1.Idx => ∑ t : Fin 1024, ∑ d : Fin 256, qA m c (ix3 (i 0) t d) * qA m c (ix3 (i 0) t d) :=
    arr0_6 m ρ c
  rw [h, sum_b11]
  rfl

/-- THE KERNEL PROGRAM'S RESULT, indices in range. -/
theorem kernel_value (c : Dev nD) (hidx : ∀ i, (idxA m c i).toNat < 1024) :
    W5 (F := Ideal) m ρ c (Proc.devRef .tc main_v24)
      = fun _ => combine (lcK (xA m c) (qA m c) (idxA m c) (mkA m c)) (psK (cbA m c)) (l2K (qA m c)) := by
  rw [tail_value, loss_sum m ρ c hidx, soft_sum, sq_sum]

end Cert.KernelIdeal.Value

end
-- ==== Proof.RefFoldA.lean ====
/-
  The reference program's operation list, first half: stretches 1 to 7 (operations 1 to 56). For each stretch: the list
  of its operations; that a buffer it does not write keeps its contents; and what it leaves in the buffers that later
  operations read, as the NAMED staged values, given that the buffers it reads hold theirs. Each fact is about ANY
  contents the stretch starts from, so no fact ever holds the composed term of the operations before it.
-/
import proofs.«416889_j3770981286079_1_alg».proof.Proof.RefRun
import proofs.«416889_j3770981286079_1_alg».proof.Proof.RefRead
import Idealize.ShloMosaic.Lib.StableHlo.Run

noncomputable section

namespace Cert.ReferenceIdeal.Fold

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## Stretches 1 to 7 of the operation list (operations 1 to 56), each with what it leaves -/

/-- Stretch 1: the batch coordinate, wrapped into range (a comparison with zero, an addition of the size, a select). -/
abbrev c1 : List (HloOp τ sig (Elt F)) :=
  [ nullary main_v0 (iotaInDim S8 32 0),
    unary main_v0 main_v1 (broadcastInDim S8x1x1 ![0] bcast_S8_S8x1x1_0 : (⟨S8, .i32⟩ : BufTy).Contents (Elt F) → (⟨S8x1x1, .i32⟩ : BufTy).Contents (Elt F)),
    nullary main_c (constantI S_ 32 0#32),
    unary main_c main_v2 (broadcastInDim S8x1x1 ![] bcast_S_S8x1x1 : (⟨S_, .i32⟩ : BufTy).Contents (Elt F) → (⟨S8x1x1, .i32⟩ : BufTy).Contents (Elt F)),
    binary main_v1 main_v2 main_v3 (cmpi .slt : (⟨S8x1x1, .i32⟩ : BufTy).Contents (Elt F) → (⟨S8x1x1, .i32⟩ : BufTy).Contents (Elt F) → (⟨S8x1x1, .i1⟩ : BufTy).Contents (Elt F)),
    nullary main_c_0 (constantI S_ 32 8#32),
    unary main_c_0 main_v4 (broadcastInDim S8x1x1 ![] bcast_S_S8x1x1 : (⟨S_, .i32⟩ : BufTy).Contents (Elt F) → (⟨S8x1x1, .i32⟩ : BufTy).Contents (Elt F)),
    binary main_v1 main_v4 main_v5 (addi : (⟨S8x1x1, .i32⟩ : BufTy).Contents (Elt F) → (⟨S8x1x1, .i32⟩ : BufTy).Contents (Elt F) → (⟨S8x1x1, .i32⟩ : BufTy).Contents (Elt F)),
    ternary main_v3 main_v5 main_v1 main_v6 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)) ]

/-- A buffer that stretch 1 does not write keeps its contents. -/
theorem c1_keep (V : Valuation τ sig (Elt F)) {r : Ref sig .tc}
    (hr : r ∉ [main_v0, main_v1, main_c, main_v2, main_v3, main_c_0, main_v4, main_v5, main_v6]) :
    after (c1 (F := F)) V (Proc.devRef .tc r) = V (Proc.devRef .tc r) :=
  after_of_writes_sub _ V (by
    simp only [List.Forall, nullary_writes, unary_writes, binary_writes, ternary_writes,
      Finset.singleton_subset_iff, List.mem_toFinset]
    repeat' apply And.intro
    all_goals exact List.mem_map_of_mem (by decide)) hr

/-- Stretch 1 reads no earlier buffer: it leaves the wrapped batch coordinate. -/
theorem c1_spec (V : Valuation τ sig (Elt F)) :
    after (c1 (F := F)) V (Proc.devRef .tc main_v6) = val_main_v6 (F := F) := by
  after_results
  rfl

/-- Stretch 2: the gathered row index, wrapped into range, and both coordinates spread to the index array's shape. -/
abbrev c2 : List (HloOp τ sig (Elt F)) :=
  [ nullary main_c_1 (constantI S_ 32 0#32),
    unary main_c_1 main_v7 (broadcastInDim S8x1024x100 ![] bcast_S_S8x1024x100 : (⟨S_, .i32⟩ : BufTy).Contents (Elt F) → (⟨S8x1024x100, .i32⟩ : BufTy).Contents (Elt F)),
    binary main_arg3 main_v7 main_v8 (cmpi .slt : (⟨S8x1024x100, .i32⟩ : BufTy).Contents (Elt F) → (⟨S8x1024x100, .i32⟩ : BufTy).Contents (Elt F) → (⟨S8x1024x100, .i1⟩ : BufTy).Contents (Elt F)),
    nullary main_c_2 (constantI S_ 32 1024#32),
    unary main_c_2 main_v9 (broadcastInDim S8x1024x100 ![] bcast_S_S8x1024x100 : (⟨S_, .i32⟩ : BufTy).Contents (Elt F) → (⟨S8x1024x100, .i32⟩ : BufTy).Contents (Elt F)),
    binary main_arg3 main_v9 main_v10 (addi : (⟨S8x1024x100, .i32⟩ : BufTy).Contents (Elt F) → (⟨S8x1024x100, .i32⟩ : BufTy).Contents (Elt F) → (⟨S8x1024x100, .i32⟩ : BufTy).Contents (Elt F)),
    ternary main_v8 main_v10 main_arg3 main_v11 (select : (⟨S8x1024x100, .i1⟩ : BufTy).Contents (Elt F) → (⟨S8x1024x100, .i32⟩ : BufTy).Contents (Elt F) → (⟨S8x1024x100, .i32⟩ : BufTy).Contents (Elt F) → (⟨S8x1024x100, .i32⟩ : BufTy).Contents (Elt F)),
    unary main_v6 main_v12 (broadcastInDim S8x1024x100 ![0, 1, 2] bcast_S8x1x1_S8x1024x100_0_1_2 : (⟨S8x1x1, .i32⟩ : BufTy).Contents (Elt F) → (⟨S8x1024x100, .i32⟩ : BufTy).Contents (Elt F)),
    unary main_v12 main_v13 (broadcastInDim S8x1024x100x1 ![0, 1, 2] bcast_S8x1024x100_S8x1024x100x1_0_1_2 : (⟨S8x1024x100, .i32⟩ : BufTy).Contents (Elt F) → (⟨S8x1024x100x1, .i32⟩ : BufTy).Contents (Elt F)),
    unary main_v11 main_v14 (broadcastInDim S8x1024x100x1 ![0, 1, 2] bcast_S8x1024x100_S8x1024x100x1_0_1_2 : (⟨S8x1024x100, .i32⟩ : BufTy).Contents (Elt F) → (⟨S8x1024x100x1, .i32⟩ : BufTy).Contents (Elt F)) ]

/-- A buffer that stretch 2 does not write keeps its contents. -/
theorem c2_keep (V : Valuation τ sig (Elt F)) {r : Ref sig .tc}
    (hr : r ∉ [main_c_1, main_v7, main_v8, main_c_2, main_v9, main_v10, main_v11, main_v12, main_v13, main_v14]) :
    after (c2 (F := F)) V (Proc.devRef .tc r) = V (Proc.devRef .tc r) :=
  after_of_writes_sub _ V (by
    simp only [List.Forall, nullary_writes, unary_writes, binary_writes, ternary_writes,
      Finset.singleton_subset_iff, List.mem_toFinset]
    repeat' apply And.intro
    all_goals exact List.mem_map_of_mem (by decide)) hr

/-- Stretch 2 reads the index array and the wrapped batch coordinate: it leaves the two coordinate planes. -/
theorem c2_spec (V : Valuation τ sig (Elt F)) (x3 : (⟨S8x1024x100, .i32⟩ : BufTy).Contents (Elt F))
    (h3 : V (Proc.devRef .tc main_arg3) = x3) (h6 : V (Proc.devRef .tc main_v6) = val_main_v6 (F := F)) :
    after (c2 (F := F)) V (Proc.devRef .tc main_v13) = val_main_v13 (F := F)
      ∧ after (c2 (F := F)) V (Proc.devRef .tc main_v14) = val_main_v14 (F := F) x3 := by
  refine ⟨?_, ?_⟩
  · after_results
    rw [h6]; rfl
  · after_results
    rw [h3]; rfl

/-- Stretch 3: the index pairs (the two planes joined on a last axis), the rows gathered at them, and the first array given a unit axis. -/
abbrev c3 : List (HloOp τ sig (Elt F)) :=
  [ binary main_v13 main_v14 main_v15 ((fun a b => concatenate S8x1024x100x2 3 [⟨S8x1024x100x1, a⟩, ⟨S8x1024x100x1, b⟩] concatenates_S8x1024x100x1_S8x1024x100x1_S8x1024x100x2_d3) : (⟨S8x1024x100x1, .i32⟩ : BufTy).Contents (Elt F) → (⟨S8x1024x100x1, .i32⟩ : BufTy).Contents (Elt F) → (⟨S8x1024x100x2, .i32⟩ : BufTy).Contents (Elt F)),
    binary main_arg0 main_v15 main_v16 ((fun x i => Host.gather gather_S8x1024x256_S8x1024x100x2_S8x1024x100x256_3_01_n_n_01_3_11256 x i) : (⟨S8x1024x256, .f32⟩ : BufTy).Contents (Elt F) → (⟨S8x1024x100x2, .i32⟩ : BufTy).Contents (Elt F) → (⟨S8x1024x100x256, .f32⟩ : BufTy).Contents (Elt F)),
    unary main_arg0 main_v17 (broadcastInDim S8x1024x1x256 ![0, 1, 3] bcast_S8x1024x256_S8x1024x1x256_0_1_3 : (⟨S8x1024x256, .f32⟩ : BufTy).Contents (Elt F) → (⟨S8x1024x1x256, .f32⟩ : BufTy).Contents (Elt F)) ]

/-- A buffer that stretch 3 does not write keeps its contents. -/
theorem c3_keep (V : Valuation τ sig (Elt F)) {r : Ref sig .tc} (hr : r ∉ [main_v15, main_v16, main_v17]) :
    after (c3 (F := F)) V (Proc.devRef .tc r) = V (Proc.devRef .tc r) :=
  after_of_writes_sub _ V (by
    simp only [List.Forall, unary_writes, binary_writes, Finset.singleton_subset_iff, List.mem_toFinset]
    repeat' apply And.intro
    all_goals exact List.mem_map_of_mem (by decide)) hr

/-- Stretch 3 reads the first array and the two coordinate planes: it leaves the gathered rows and the first array with its unit axis. -/
theorem c3_spec (V : Valuation τ sig (Elt F)) (x0 : (⟨S8x1024x256, .f32⟩ : BufTy).Contents (Elt F))
    (x3 : (⟨S8x1024x100, .i32⟩ : BufTy).Contents (Elt F))
    (h0 : V (Proc.devRef .tc main_arg0) = x0) (h13 : V (Proc.devRef .tc main_v13) = val_main_v13 (F := F))
    (h14 : V (Proc.devRef .tc main_v14) = val_main_v14 (F := F) x3) :
    after (c3 (F := F)) V (Proc.devRef .tc main_v16) = val_main_v16 (F := F) x0 x3
      ∧ after (c3 (F := F)) V (Proc.devRef .tc main_v17) = val_main_v17 (F := F) x0 := by
  refine ⟨?_, ?_⟩
  · after_results
    rw [h0, h13, h14]; rfl
  · after_results
    rw [h0]; rfl

/-- Stretch 4: the candidate rows (the own row joined before the gathered ones), the second array with its unit axis,
    the inner products of the second array's rows with the candidates, and the norm of each row of the second array. -/
abbrev c4 : List (HloOp τ sig (Elt F)) :=
  [ binary main_v17 main_v16 main_v18 ((fun a b => concatenate S8x1024x101x256 2 [⟨S8x1024x1x256, a⟩, ⟨S8x1024x100x256, b⟩] concatenates_S8x1024x1x256_S8x1024x100x256_S8x1024x101x256_d2) : (⟨S8x1024x1x256, .f32⟩ : BufTy).Contents (Elt F) → (⟨S8x1024x100x256, .f32⟩ : BufTy).Contents (Elt F) → (⟨S8x1024x101x256, .f32⟩ : BufTy).Contents (Elt F)),
    unary main_arg1 main_v19 (broadcastInDim S8x1024x1x256 ![0, 1, 3] bcast_S8x1024x256_S8x1024x1x256_0_1_3 : (⟨S8x1024x256, .f32⟩ : BufTy).Contents (Elt F) → (⟨S8x1024x1x256, .f32⟩ : BufTy).Contents (Elt F)),
    unary main_v19 main_v20 (broadcastInDim S8x1024x101x256 ![0, 1, 2, 3] bcast_S8x1024x1x256_S8x1024x101x256_0_1_2_3 : (⟨S8x1024x1x256, .f32⟩ : BufTy).Contents (Elt F) → (⟨S8x1024x101x256, .f32⟩ : BufTy).Contents (Elt F)),
    binary main_v20 main_v18 main_v21 (mulf : (⟨S8x1024x101x256, .f32⟩ : BufTy).Contents (Elt F) → (⟨S8x1024x101x256, .f32⟩ : BufTy).Contents (Elt F) → (⟨S8x1024x101x256, .f32⟩ : BufTy).Contents (Elt F)),
    nullary main_cst (constant S_ .f32 0x00000000#32),
    binary main_v21 main_cst main_v22 ((fun x v => Host.reduceAdd x v reducesTo_S8x1024x101x256_S8x1024x101_d3 h_S_) : (⟨S8x1024x101x256, .f32⟩ : BufTy).Contents (Elt F) → (⟨S_, .f32⟩ : BufTy).Contents (Elt F) → (⟨S8x1024x101, .f32⟩ : BufTy).Contents (Elt F)),
    binary main_v19 main_v19 main_v23 (mulf : (⟨S8x1024x1x256, .f32⟩ : BufTy).Contents (Elt F) → (⟨S8x1024x1x256, .f32⟩ : BufTy).Contents (Elt F) → (⟨S8x1024x1x256, .f32⟩ : BufTy).Contents (Elt F)),
    nullary main_cst_3 (constant S_ .f32 0x00000000#32),
    binary main_v23 main_cst_3 main_v24 ((fun x v => Host.reduceAdd x v reducesTo_S8x1024x1x256_S8x1024x1_d3 h_S_) : (⟨S8x1024x1x256, .f32⟩ : BufTy).Contents (Elt F) → (⟨S_, .f32⟩ : BufTy).Contents (Elt F) → (⟨S8x1024x1, .f32⟩ : BufTy).Contents (Elt F)),
    unary main_v24 main_v25 (Host.sqrt : (⟨S8x1024x1, .f32⟩ : BufTy).Contents (Elt F) → (⟨S8x1024x1, .f32⟩ : BufTy).Contents (Elt F)) ]

/-- A buffer that stretch 4 does not write keeps its contents. -/
theorem c4_keep (V : Valuation τ sig (Elt F)) {r : Ref sig .tc}
    (hr : r ∉ [main_v18, main_v19, main_v20, main_v21, main_cst, main_v22, main_v23, main_cst_3, main_v24, main_v25]) :
    after (c4 (F := F)) V (Proc.devRef .tc r) = V (Proc.devRef .tc r) :=
  after_of_writes_sub _ V (by
    simp only [List.Forall, nullary_writes, unary_writes, binary_writes, Finset.singleton_subset_iff, List.mem_toFinset]
    repeat' apply And.intro
    all_goals exact List.mem_map_of_mem (by decide)) hr

/-- Stretch 4 reads the second array, the gathered rows and the first array with its unit axis: it leaves the
    candidate rows, the inner products and the second array's row norms. -/
theorem c4_spec (V : Valuation τ sig (Elt F)) (x0 x1 : (⟨S8x1024x256, .f32⟩ : BufTy).Contents (Elt F))
    (x3 : (⟨S8x1024x100, .i32⟩ : BufTy).Contents (Elt F))
    (h1 : V (Proc.devRef .tc main_arg1) = x1) (h16 : V (Proc.devRef .tc main_v16) = val_main_v16 (F := F) x0 x3)
    (h17 : V (Proc.devRef .tc main_v17) = val_main_v17 (F := F) x0) :
    after (c4 (F := F)) V (Proc.devRef .tc main_v18) = val_main_v18 (F := F) x0 x3
      ∧ after (c4 (F := F)) V (Proc.devRef .tc main_v22) = val_main_v22 (F := F) x0 x1 x3
      ∧ after (c4 (F := F)) V (Proc.devRef .tc main_v25) = val_main_v25 (F := F) x1 := by
  refine ⟨?_, ?_, ?_⟩
  · after_results
    rw [h17, h16]; rfl
  · after_results
    rw [h1, h17, h16]; rfl
  · after_results
    rw [h1]; rfl

/-- Stretch 5: the candidates' norms, the product of the norms floored by a small constant, and the cosine (the inner
    product over that floor). -/
abbrev c5 : List (HloOp τ sig (Elt F)) :=
  [ binary main_v18 main_v18 main_v26 (mulf : (⟨S8x1024x101x256, .f32⟩ : BufTy).Contents (Elt F) → (⟨S8x1024x101x256, .f32⟩ : BufTy).Contents (Elt F) → (⟨S8x1024x101x256, .f32⟩ : BufTy).Contents (Elt F)),
    nullary main_cst_4 (constant S_ .f32 0x00000000#32),
    binary main_v26 main_cst_4 main_v27 ((fun x v => Host.reduceAdd x v reducesTo_S8x1024x101x256_S8x1024x101_d3 h_S_) : (⟨S8x1024x101x256, .f32⟩ : BufTy).Contents (Elt F) → (⟨S_, .f32⟩ : BufTy).Contents (Elt F) → (⟨S8x1024x101, .f32⟩ : BufTy).Contents (Elt F)),
    unary main_v27 main_v28 (Host.sqrt : (⟨S8x1024x101, .f32⟩ : BufTy).Contents (Elt F) → (⟨S8x1024x101, .f32⟩ : BufTy).Contents (Elt F)),
    unary main_v25 main_v29 (broadcastInDim S8x1024x101 ![0, 1, 2] bcast_S8x1024x1_S8x1024x101_0_1_2 : (⟨S8x1024x1, .f32⟩ : BufTy).Contents (Elt F) → (⟨S8x1024x101, .f32⟩ : BufTy).Contents (Elt F)),
    binary main_v29 main_v28 main_v30 (mulf : (⟨S8x1024x101, .f32⟩ : BufTy).Contents (Elt F) → (⟨S8x1024x101, .f32⟩ : BufTy).Contents (Elt F) → (⟨S8x1024x101, .f32⟩ : BufTy).Contents (Elt F)),
    nullary main_cst_5 (constant S_ .f32 0x322BCC77#32),
    unary main_cst_5 main_v31 (broadcastInDim S8x1024x101 ![] bcast_S_S8x1024x101 : (⟨S_, .f32⟩ : BufTy).Contents (Elt F) → (⟨S8x1024x101, .f32⟩ : BufTy).Contents (Elt F)),
    binary main_v30 main_v31 main_v32 (maximumf : (⟨S8x1024x101, .f32⟩ : BufTy).Contents (Elt F) → (⟨S8x1024x101, .f32⟩ : BufTy).Contents (Elt F) → (⟨S8x1024x101, .f32⟩ : BufTy).Contents (Elt F)),
    binary main_v22 main_v32 main_v33 (Host.divf : (⟨S8x1024x101, .f32⟩ : BufTy).Contents (Elt F) → (⟨S8x1024x101, .f32⟩ : BufTy).Contents (Elt F) → (⟨S8x1024x101, .f32⟩ : BufTy).Contents (Elt F)) ]

/-- A buffer that stretch 5 does not write keeps its contents. -/
theorem c5_keep (V : Valuation τ sig (Elt F)) {r : Ref sig .tc}
    (hr : r ∉ [main_v26, main_cst_4, main_v27, main_v28, main_v29, main_v30, main_cst_5, main_v31, main_v32, main_v33]) :
    after (c5 (F := F)) V (Proc.devRef .tc r) = V (Proc.devRef .tc r) :=
  after_of_writes_sub _ V (by
    simp only [List.Forall, nullary_writes, unary_writes, binary_writes, Finset.singleton_subset_iff, List.mem_toFinset]
    repeat' apply And.intro
    all_goals exact List.mem_map_of_mem (by decide)) hr

/-- Stretch 5 reads the candidate rows, the inner products and the row norms: it leaves the cosines. -/
theorem c5_spec (V : Valuation τ sig (Elt F)) (x0 x1 : (⟨S8x1024x256, .f32⟩ : BufTy).Contents (Elt F))
    (x3 : (⟨S8x1024x100, .i32⟩ : BufTy).Contents (Elt F))
    (h18 : V (Proc.devRef .tc main_v18) = val_main_v18 (F := F) x0 x3)
    (h22 : V (Proc.devRef .tc main_v22) = val_main_v22 (F := F) x0 x1 x3)
    (h25 : V (Proc.devRef .tc main_v25) = val_main_v25 (F := F) x1) :
    after (c5 (F := F)) V (Proc.devRef .tc main_v33) = val_main_v33 (F := F) x0 x1 x3 := by
  after_results
  rw [h22, h25, h18]; rfl

/-- Stretch 6: the mask of gathered indices that name the own row, and a plane of false for the own row's place. -/
abbrev c6 : List (HloOp τ sig (Elt F)) :=
  [ nullary main_v34 (iotaInDim S1024 32 0),
    unary main_v34 main_v35 (broadcastInDim S1x1024x1 ![1] bcast_S1024_S1x1024x1_1 : (⟨S1024, .i32⟩ : BufTy).Contents (Elt F) → (⟨S1x1024x1, .i32⟩ : BufTy).Contents (Elt F)),
    unary main_v35 main_v36 (broadcastInDim S8x1024x100 ![0, 1, 2] bcast_S1x1024x1_S8x1024x100_0_1_2 : (⟨S1x1024x1, .i32⟩ : BufTy).Contents (Elt F) → (⟨S8x1024x100, .i32⟩ : BufTy).Contents (Elt F)),
    binary main_arg3 main_v36 main_v37 (cmpi .eq : (⟨S8x1024x100, .i32⟩ : BufTy).Contents (Elt F) → (⟨S8x1024x100, .i32⟩ : BufTy).Contents (Elt F) → (⟨S8x1024x100, .i1⟩ : BufTy).Contents (Elt F)),
    nullary main_c_6 (constantI S_ 1 0#1),
    unary main_c_6 main_v38 (broadcastInDim S8x1024x1 ![] bcast_S_S8x1024x1 : (⟨S_, .i1⟩ : BufTy).Contents (Elt F) → (⟨S8x1024x1, .i1⟩ : BufTy).Contents (Elt F)) ]

/-- A buffer that stretch 6 does not write keeps its contents. -/
theorem c6_keep (V : Valuation τ sig (Elt F)) {r : Ref sig .tc}
    (hr : r ∉ [main_v34, main_v35, main_v36, main_v37, main_c_6, main_v38]) :
    after (c6 (F := F)) V (Proc.devRef .tc r) = V (Proc.devRef .tc r) :=
  after_of_writes_sub _ V (by
    simp only [List.Forall, nullary_writes, unary_writes, binary_writes, Finset.singleton_subset_iff, List.mem_toFinset]
    repeat' apply And.intro
    all_goals exact List.mem_map_of_mem (by decide)) hr

/-- Stretch 6 reads the index array: it leaves the own-row mask and the plane of false. -/
theorem c6_spec (V : Valuation τ sig (Elt F)) (x3 : (⟨S8x1024x100, .i32⟩ : BufTy).Contents (Elt F))
    (h3 : V (Proc.devRef .tc main_arg3) = x3) :
    after (c6 (F := F)) V (Proc.devRef .tc main_v37) = val_main_v37 (F := F) x3
      ∧ after (c6 (F := F)) V (Proc.devRef .tc main_v38) = val_main_v38 (F := F) := by
  refine ⟨?_, ?_⟩
  · after_results
    rw [h3]; rfl
  · after_results
    rfl

/-- Stretch 7: the full mask (false joined before the own-row mask), the masked cosines (minus infinity where the mask
    holds: the first outlined select), and their quotient by the temperature. -/
abbrev c7 : List (HloOp τ sig (Elt F)) :=
  [ binary main_v38 main_v37 main_v39 ((fun a b => concatenate S8x1024x101 2 [⟨S8x1024x1, a⟩, ⟨S8x1024x100, b⟩] concatenates_S8x1024x1_S8x1024x100_S8x1024x101_d2) : (⟨S8x1024x1, .i1⟩ : BufTy).Contents (Elt F) → (⟨S8x1024x100, .i1⟩ : BufTy).Contents (Elt F) → (⟨S8x1024x101, .i1⟩ : BufTy).Contents (Elt F)),
    nullary main_cst_7 (constant S_ .f32 0xFF800000#32),
    TRef.unary (TRef.of (T := ⟨S_, .f32⟩) main_cst_7) (TRef.of (T := ⟨S_, .f32⟩) main_call0_v0) id,
    TRef.unary (TRef.of (T := ⟨S_, .f32⟩) main_call0_v0) (TRef.of (T := ⟨S8x1024x101, .f32⟩) main_call0_v1) (broadcastInDim S8x1024x101 ![] bcast_S_S8x1024x101),
    TRef.ternary (TRef.of (T := ⟨S8x1024x101, .i1⟩) main_v39) (TRef.of (T := ⟨S8x1024x101, .f32⟩) main_call0_v1) (TRef.of (T := ⟨S8x1024x101, .f32⟩) main_v33) (TRef.of (T := ⟨S8x1024x101, .f32⟩) main_v40) select,
    nullary main_cst_8 (constant S_ .f32 0x3DCCCCCD#32),
    unary main_cst_8 main_v41 (broadcastInDim S8x1024x101 ![] bcast_S_S8x1024x101 : (⟨S_, .f32⟩ : BufTy).Contents (Elt F) → (⟨S8x1024x101, .f32⟩ : BufTy).Contents (Elt F)),
    binary main_v40 main_v41 main_v42 (Host.divf : (⟨S8x1024x101, .f32⟩ : BufTy).Contents (Elt F) → (⟨S8x1024x101, .f32⟩ : BufTy).Contents (Elt F) → (⟨S8x1024x101, .f32⟩ : BufTy).Contents (Elt F)) ]

/-- A buffer that stretch 7 does not write keeps its contents. -/
theorem c7_keep (V : Valuation τ sig (Elt F)) {r : Ref sig .tc}
    (hr : r ∉ [main_v39, main_cst_7, main_call0_v0, main_call0_v1, main_v40, main_cst_8, main_v41, main_v42]) :
    after (c7 (F := F)) V (Proc.devRef .tc r) = V (Proc.devRef .tc r) :=
  after_of_writes_sub _ V (by
    simp only [List.Forall, nullary_writes, unary_writes, binary_writes, ternary_writes, Finset.singleton_subset_iff,
      List.mem_toFinset]
    repeat' apply And.intro
    all_goals exact List.mem_map_of_mem (by decide)) hr

/-- Stretch 7 reads the own-row mask, the plane of false and the cosines: it leaves the scaled, masked cosines. -/
theorem c7_spec (V : Valuation τ sig (Elt F)) (x0 x1 : (⟨S8x1024x256, .f32⟩ : BufTy).Contents (Elt F))
    (x3 : (⟨S8x1024x100, .i32⟩ : BufTy).Contents (Elt F))
    (h37 : V (Proc.devRef .tc main_v37) = val_main_v37 (F := F) x3)
    (h38 : V (Proc.devRef .tc main_v38) = val_main_v38 (F := F))
    (h33 : V (Proc.devRef .tc main_v33) = val_main_v33 (F := F) x0 x1 x3) :
    after (c7 (F := F)) V (Proc.devRef .tc main_v42) = val_main_v42 (F := F) x0 x1 x3 := by
  after_results
  rw [h38, h37, h33]; rfl

end Cert.ReferenceIdeal.Fold

end
-- ==== Proof.RefFoldB.lean ====
/-
  The reference program's operation list, second half: stretches 8 to 14 (operations 57 to 125). For each stretch: the
  list of its operations; that a buffer it does not write keeps its contents; and what it leaves in the buffers that
  later operations read, as the NAMED staged values, given that the buffers it reads hold theirs. Each fact is about ANY
  contents the stretch starts from, so no fact ever holds the composed term of the operations before it.
-/
import proofs.«416889_j3770981286079_1_alg».proof.Proof.RefRun
import proofs.«416889_j3770981286079_1_alg».proof.Proof.RefRead
import Idealize.ShloMosaic.Lib.StableHlo.Run

noncomputable section

namespace Cert.ReferenceIdeal.Fold

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## Stretches 8 to 14 of the operation list (operations 57 to 125), each with what it leaves -/

/-- Stretch 8: the outlined log-softmax's first half: the row maximum (floored at minus infinity), spread back, and the
    scaled cosines less that maximum. -/
abbrev c8 : List (HloOp τ sig (Elt F)) :=
  [ TRef.nullary (TRef.of (T := ⟨S_, .f32⟩) main_call1_cst) (constant S_ .f32 0xFF800000#32),
    TRef.binary (TRef.of (T := ⟨S8x1024x101, .f32⟩) main_v42) (TRef.of (T := ⟨S_, .f32⟩) main_call1_cst) (TRef.of (T := ⟨S8x1024, .f32⟩) main_call1_v0) (fun x v => Host.reduce FloatOps.maximumf x v reducesTo_S8x1024x101_S8x1024_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S8x1024, .f32⟩) main_call1_v1) (broadcastInDim S8x1024 ![] bcast_S_S8x1024),
    TRef.binary (TRef.of (T := ⟨S8x1024, .f32⟩) main_call1_v1) (TRef.of (T := ⟨S8x1024, .f32⟩) main_call1_v0) (TRef.of (T := ⟨S8x1024, .f32⟩) main_call1_v2) maximumf,
    TRef.unary (TRef.of (T := ⟨S8x1024, .f32⟩) main_call1_v2) (TRef.of (T := ⟨S8x1024x1, .f32⟩) main_call1_v3) (broadcastInDim S8x1024x1 ![0, 1] bcast_S8x1024_S8x1024x1_0_1),
    TRef.unary (TRef.of (T := ⟨S8x1024x1, .f32⟩) main_call1_v3) (TRef.of (T := ⟨S8x1024x101, .f32⟩) main_call1_v4) (broadcastInDim S8x1024x101 ![0, 1, 2] bcast_S8x1024x1_S8x1024x101_0_1_2),
    TRef.binary (TRef.of (T := ⟨S8x1024x101, .f32⟩) main_v42) (TRef.of (T := ⟨S8x1024x101, .f32⟩) main_call1_v4) (TRef.of (T := ⟨S8x1024x101, .f32⟩) main_call1_v5) subf ]

/-- Stretch 8 with each operation spelt at its buffers' own types: the typed references' transports are the identity
    at these literal references, and they are removed here, operation by operation, while every operand is still a
    variable. -/
abbrev c8p : List (HloOp τ sig (Elt F)) :=
  [ nullary main_call1_cst (constant S_ .f32 0xFF800000#32),
    binary main_v42 main_call1_cst main_call1_v0 ((fun x v => Host.reduce FloatOps.maximumf x v reducesTo_S8x1024x101_S8x1024_d2 h_S_) : (⟨S8x1024x101, .f32⟩ : BufTy).Contents (Elt F) → (⟨S_, .f32⟩ : BufTy).Contents (Elt F) → (⟨S8x1024, .f32⟩ : BufTy).Contents (Elt F)),
    nullary main_call1_cst_0 (constant S_ .f32 0xFF800000#32),
    unary main_call1_cst_0 main_call1_v1 (broadcastInDim S8x1024 ![] bcast_S_S8x1024 : (⟨S_, .f32⟩ : BufTy).Contents (Elt F) → (⟨S8x1024, .f32⟩ : BufTy).Contents (Elt F)),
    binary main_call1_v1 main_call1_v0 main_call1_v2 (maximumf : (⟨S8x1024, .f32⟩ : BufTy).Contents (Elt F) → (⟨S8x1024, .f32⟩ : BufTy).Contents (Elt F) → (⟨S8x1024, .f32⟩ : BufTy).Contents (Elt F)),
    unary main_call1_v2 main_call1_v3 (broadcastInDim S8x1024x1 ![0, 1] bcast_S8x1024_S8x1024x1_0_1 : (⟨S8x1024, .f32⟩ : BufTy).Contents (Elt F) → (⟨S8x1024x1, .f32⟩ : BufTy).Contents (Elt F)),
    unary main_call1_v3 main_call1_v4 (broadcastInDim S8x1024x101 ![0, 1, 2] bcast_S8x1024x1_S8x1024x101_0_1_2 : (⟨S8x1024x1, .f32⟩ : BufTy).Contents (Elt F) → (⟨S8x1024x101, .f32⟩ : BufTy).Contents (Elt F)),
    binary main_v42 main_call1_v4 main_call1_v5 (subf : (⟨S8x1024x101, .f32⟩ : BufTy).Contents (Elt F) → (⟨S8x1024x101, .f32⟩ : BufTy).Contents (Elt F) → (⟨S8x1024x101, .f32⟩ : BufTy).Contents (Elt F)) ]

attribute [local irreducible] Host.reduce in
/-- The two spellings of stretch 8 are one list (the maximum over an axis kept folded: the comparison never looks inside it). -/
theorem c8_eq : c8 (F := F) = c8p := rfl

/-- A buffer that stretch 8 does not write keeps its contents. -/
theorem c8_keep (V : Valuation τ sig (Elt F)) {r : Ref sig .tc}
    (hr : r ∉ [main_call1_cst, main_call1_v0, main_call1_cst_0, main_call1_v1, main_call1_v2, main_call1_v3, main_call1_v4,
      main_call1_v5]) :
    after (c8 (F := F)) V (Proc.devRef .tc r) = V (Proc.devRef .tc r) :=
  after_of_writes_sub _ V (by
    simp only [List.Forall, nullary_writes, unary_writes, binary_writes, Finset.singleton_subset_iff, List.mem_toFinset]
    repeat' apply And.intro
    all_goals exact List.mem_map_of_mem (by decide)) hr

attribute [local irreducible] Host.reduce in
/-- Stretch 8 reads the scaled cosines: it leaves them shifted by their row maximum. -/
theorem c8_spec (V : Valuation τ sig (Elt F)) (x0 x1 : (⟨S8x1024x256, .f32⟩ : BufTy).Contents (Elt F))
    (x3 : (⟨S8x1024x100, .i32⟩ : BufTy).Contents (Elt F))
    (h42 : V (Proc.devRef .tc main_v42) = val_main_v42 (F := F) x0 x1 x3) :
    after (c8 (F := F)) V (Proc.devRef .tc main_call1_v5) = val_main_call1_v5 (F := F) x0 x1 x3 := by
  rw [c8_eq]
  after_results
  rw [h42]; rfl

/-- Stretch 9: the log-softmax's second half (exponentials, their row sums, the logarithm, the difference), then the
    own row's entry sliced out and its unit axis dropped. -/
abbrev c9 : List (HloOp τ sig (Elt F)) :=
  [ TRef.unary (TRef.of (T := ⟨S8x1024x101, .f32⟩) main_call1_v5) (TRef.of (T := ⟨S8x1024x101, .f32⟩) main_call1_v6) Host.exp,
    TRef.nullary (TRef.of (T := ⟨S_, .f32⟩) main_call1_cst_1) (constant S_ .f32 0x00000000#32),
    TRef.binary (TRef.of (T := ⟨S8x1024x101, .f32⟩) main_call1_v6) (TRef.of (T := ⟨S_, .f32⟩) main_call1_cst_1) (TRef.of (T := ⟨S8x1024, .f32⟩) main_call1_v7) (fun x v => Host.reduceAdd x v reducesTo_S8x1024x101_S8x1024_d2 h_S_),
    TRef.unary (TRef.of (T := ⟨S8x1024, .f32⟩) main_call1_v7) (TRef.of (T := ⟨S8x1024x1, .f32⟩) main_call1_v8) (broadcastInDim S8x1024x1 ![0, 1] bcast_S8x1024_S8x1024x1_0_1),
    TRef.unary (TRef.of (T := ⟨S8x1024x1, .f32⟩) main_call1_v8) (TRef.of (T := ⟨S8x1024x1, .f32⟩) main_call1_v9) Host.log,
    TRef.unary (TRef.of (T := ⟨S8x1024x1, .f32⟩) main_call1_v9) (TRef.of (T := ⟨S8x1024x101, .f32⟩) main_call1_v10) (broadcastInDim S8x1024x101 ![0, 1, 2] bcast_S8x1024x1_S8x1024x101_0_1_2),
    TRef.binary (TRef.of (T := ⟨S8x1024x101, .f32⟩) main_call1_v5) (TRef.of (T := ⟨S8x1024x101, .f32⟩) main_call1_v10) (TRef.of (T := ⟨S8x1024x101, .f32⟩) main_v43) subf,
    unary main_v43 main_v44 ((extractStridedSlice S8x1024x1 ![0, 0, 0] · slices_S8x1024x101_S8x1024x1_0_0_0) : (⟨S8x1024x101, .f32⟩ : BufTy).Contents (Elt F) → (⟨S8x1024x1, .f32⟩ : BufTy).Contents (Elt F)),
    reshape main_v44 main_v45 rfl shapeCasts_S8x1024x1_S8x1024 ]

/-- A buffer that stretch 9 does not write keeps its contents. -/
theorem c9_keep (V : Valuation τ sig (Elt F)) {r : Ref sig .tc}
    (hr : r ∉ [main_call1_v6, main_call1_cst_1, main_call1_v7, main_call1_v8, main_call1_v9, main_call1_v10, main_v43,
      main_v44, main_v45]) :
    after (c9 (F := F)) V (Proc.devRef .tc r) = V (Proc.devRef .tc r) :=
  after_of_writes_sub _ V (by
    simp only [List.Forall, nullary_writes, unary_writes, binary_writes, reshape_writes, Finset.singleton_subset_iff,
      List.mem_toFinset]
    repeat' apply And.intro
    all_goals exact List.mem_map_of_mem (by decide)) hr

/-- Stretch 9 reads the shifted cosines: it leaves the own row's log-probability, one per row. -/
theorem c9_spec (V : Valuation τ sig (Elt F)) (x0 x1 : (⟨S8x1024x256, .f32⟩ : BufTy).Contents (Elt F))
    (x3 : (⟨S8x1024x100, .i32⟩ : BufTy).Contents (Elt F))
    (h5 : V (Proc.devRef .tc main_call1_v5) = val_main_call1_v5 (F := F) x0 x1 x3) :
    after (c9 (F := F)) V (Proc.devRef .tc main_v45) = val_main_v45 (F := F) x0 x1 x3 := by
  after_results
  rw [h5]; rfl

/-- Stretch 10: the log-probabilities kept where the row mask holds and zero elsewhere (the second outlined select),
    summed over all rows and negated. -/
abbrev c10 : List (HloOp τ sig (Elt F)) :=
  [ nullary main_cst_9 (constant S_ .f32 0x00000000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S8x1024, .f32⟩) main_call2_v1) (broadcastInDim S8x1024 ![] bcast_S_S8x1024),
    TRef.ternary (TRef.of (T := ⟨S8x1024, .i1⟩) main_arg4) (TRef.of (T := ⟨S8x1024, .f32⟩) main_v45) (TRef.of (T := ⟨S8x1024, .f32⟩) main_call2_v1) (TRef.of (T := ⟨S8x1024, .f32⟩) main_v46) select,
    nullary main_cst_10 (constant S_ .f32 0x00000000#32),
    binary main_v46 main_cst_10 main_v47 ((fun x v => Host.reduceAdd x v reducesTo_S8x1024_S_d0_1 h_S_) : (⟨S8x1024, .f32⟩ : BufTy).Contents (Elt F) → (⟨S_, .f32⟩ : BufTy).Contents (Elt F) → (⟨S_, .f32⟩ : BufTy).Contents (Elt F)),
    unary main_v47 main_v48 (Host.negf : (⟨S_, .f32⟩ : BufTy).Contents (Elt F) → (⟨S_, .f32⟩ : BufTy).Contents (Elt F)) ]

/-- A buffer that stretch 10 does not write keeps its contents. -/
theorem c10_keep (V : Valuation τ sig (Elt F)) {r : Ref sig .tc}
    (hr : r ∉ [main_cst_9, main_call2_v0, main_call2_v1, main_v46, main_cst_10, main_v47, main_v48]) :
    after (c10 (F := F)) V (Proc.devRef .tc r) = V (Proc.devRef .tc r) :=
  after_of_writes_sub _ V (by
    simp only [List.Forall, nullary_writes, unary_writes, binary_writes, ternary_writes, Finset.singleton_subset_iff,
      List.mem_toFinset]
    repeat' apply And.intro
    all_goals exact List.mem_map_of_mem (by decide)) hr

/-- Stretch 10 reads the row mask and the log-probabilities: it leaves the first term of the result. -/
theorem c10_spec (V : Valuation τ sig (Elt F)) (x0 x1 : (⟨S8x1024x256, .f32⟩ : BufTy).Contents (Elt F))
    (x3 : (⟨S8x1024x100, .i32⟩ : BufTy).Contents (Elt F)) (x4 : (⟨S8x1024, .i1⟩ : BufTy).Contents (Elt F))
    (h4 : V (Proc.devRef .tc main_arg4) = x4)
    (h45 : V (Proc.devRef .tc main_v45) = val_main_v45 (F := F) x0 x1 x3) :
    after (c10 (F := F)) V (Proc.devRef .tc main_v48) = val_main_v48 (F := F) x0 x1 x3 x4 := by
  after_results
  rw [h4, h45]; rfl

/-- Stretch 11: the third array less its row maximum (floored at minus infinity), exponentiated. -/
abbrev c11 : List (HloOp τ sig (Elt F)) :=
  [ nullary main_cst_11 (constant S_ .f32 0xFF800000#32),
    binary main_arg2 main_cst_11 main_v49 ((fun x v => Host.reduce FloatOps.maximumf x v reducesTo_S8x1024x2x320_S8x1024x2_d3 h_S_) : (⟨S8x1024x2x320, .f32⟩ : BufTy).Contents (Elt F) → (⟨S_, .f32⟩ : BufTy).Contents (Elt F) → (⟨S8x1024x2, .f32⟩ : BufTy).Contents (Elt F)),
    nullary main_cst_12 (constant S_ .f32 0xFF800000#32),
    unary main_cst_12 main_v50 (broadcastInDim S8x1024x2 ![] bcast_S_S8x1024x2 : (⟨S_, .f32⟩ : BufTy).Contents (Elt F) → (⟨S8x1024x2, .f32⟩ : BufTy).Contents (Elt F)),
    binary main_v50 main_v49 main_v51 (maximumf : (⟨S8x1024x2, .f32⟩ : BufTy).Contents (Elt F) → (⟨S8x1024x2, .f32⟩ : BufTy).Contents (Elt F) → (⟨S8x1024x2, .f32⟩ : BufTy).Contents (Elt F)),
    unary main_v51 main_v52 (broadcastInDim S8x1024x2x1 ![0, 1, 2] bcast_S8x1024x2_S8x1024x2x1_0_1_2 : (⟨S8x1024x2, .f32⟩ : BufTy).Contents (Elt F) → (⟨S8x1024x2x1, .f32⟩ : BufTy).Contents (Elt F)),
    unary main_v52 main_v53 (broadcastInDim S8x1024x2x320 ![0, 1, 2, 3] bcast_S8x1024x2x1_S8x1024x2x320_0_1_2_3 : (⟨S8x1024x2x1, .f32⟩ : BufTy).Contents (Elt F) → (⟨S8x1024x2x320, .f32⟩ : BufTy).Contents (Elt F)),
    binary main_arg2 main_v53 main_v54 (subf : (⟨S8x1024x2x320, .f32⟩ : BufTy).Contents (Elt F) → (⟨S8x1024x2x320, .f32⟩ : BufTy).Contents (Elt F) → (⟨S8x1024x2x320, .f32⟩ : BufTy).Contents (Elt F)),
    unary main_v54 main_v55 (Host.exp : (⟨S8x1024x2x320, .f32⟩ : BufTy).Contents (Elt F) → (⟨S8x1024x2x320, .f32⟩ : BufTy).Contents (Elt F)) ]

/-- A buffer that stretch 11 does not write keeps its contents. -/
theorem c11_keep (V : Valuation τ sig (Elt F)) {r : Ref sig .tc}
    (hr : r ∉ [main_cst_11, main_v49, main_cst_12, main_v50, main_v51, main_v52, main_v53, main_v54, main_v55]) :
    after (c11 (F := F)) V (Proc.devRef .tc r) = V (Proc.devRef .tc r) :=
  after_of_writes_sub _ V (by
    simp only [List.Forall, nullary_writes, unary_writes, binary_writes, Finset.singleton_subset_iff, List.mem_toFinset]
    repeat' apply And.intro
    all_goals exact List.mem_map_of_mem (by decide)) hr

/-- Stretch 11 reads the third array: it leaves its shifted exponentials. -/
theorem c11_spec (V : Valuation τ sig (Elt F)) (x2 : (⟨S8x1024x2x320, .f32⟩ : BufTy).Contents (Elt F))
    (h2 : V (Proc.devRef .tc main_arg2) = x2) :
    after (c11 (F := F)) V (Proc.devRef .tc main_v55) = val_main_v55 (F := F) x2 := by
  after_results
  rw [h2]; rfl

/-- Stretch 12: the softmax of the third array's rows (the exponentials over their row sums), its two leading axes
    merged, summed over the merged axis and divided by the count: the mean assignment. -/
abbrev c12 : List (HloOp τ sig (Elt F)) :=
  [ nullary main_cst_13 (constant S_ .f32 0x00000000#32),
    binary main_v55 main_cst_13 main_v56 ((fun x v => Host.reduceAdd x v reducesTo_S8x1024x2x320_S8x1024x2_d3 h_S_) : (⟨S8x1024x2x320, .f32⟩ : BufTy).Contents (Elt F) → (⟨S_, .f32⟩ : BufTy).Contents (Elt F) → (⟨S8x1024x2, .f32⟩ : BufTy).Contents (Elt F)),
    unary main_v56 main_v57 (broadcastInDim S8x1024x2x1 ![0, 1, 2] bcast_S8x1024x2_S8x1024x2x1_0_1_2 : (⟨S8x1024x2, .f32⟩ : BufTy).Contents (Elt F) → (⟨S8x1024x2x1, .f32⟩ : BufTy).Contents (Elt F)),
    unary main_v57 main_v58 (broadcastInDim S8x1024x2x320 ![0, 1, 2, 3] bcast_S8x1024x2x1_S8x1024x2x320_0_1_2_3 : (⟨S8x1024x2x1, .f32⟩ : BufTy).Contents (Elt F) → (⟨S8x1024x2x320, .f32⟩ : BufTy).Contents (Elt F)),
    binary main_v55 main_v58 main_v59 (Host.divf : (⟨S8x1024x2x320, .f32⟩ : BufTy).Contents (Elt F) → (⟨S8x1024x2x320, .f32⟩ : BufTy).Contents (Elt F) → (⟨S8x1024x2x320, .f32⟩ : BufTy).Contents (Elt F)),
    reshape main_v59 main_v60 rfl shapeCasts_S8x1024x2x320_S8192x2x320,
    nullary main_cst_14 (constant S_ .f32 0x00000000#32),
    binary main_v60 main_cst_14 main_v61 ((fun x v => Host.reduceAdd x v reducesTo_S8192x2x320_S2x320_d0 h_S_) : (⟨S8192x2x320, .f32⟩ : BufTy).Contents (Elt F) → (⟨S_, .f32⟩ : BufTy).Contents (Elt F) → (⟨S2x320, .f32⟩ : BufTy).Contents (Elt F)),
    nullary main_cst_15 (constant S_ .f32 0x46000000#32),
    unary main_cst_15 main_v62 (broadcastInDim S2x320 ![] bcast_S_S2x320 : (⟨S_, .f32⟩ : BufTy).Contents (Elt F) → (⟨S2x320, .f32⟩ : BufTy).Contents (Elt F)),
    binary main_v61 main_v62 main_v63 (Host.divf : (⟨S2x320, .f32⟩ : BufTy).Contents (Elt F) → (⟨S2x320, .f32⟩ : BufTy).Contents (Elt F) → (⟨S2x320, .f32⟩ : BufTy).Contents (Elt F)) ]

/-- A buffer that stretch 12 does not write keeps its contents. -/
theorem c12_keep (V : Valuation τ sig (Elt F)) {r : Ref sig .tc}
    (hr : r ∉ [main_cst_13, main_v56, main_v57, main_v58, main_v59, main_v60, main_cst_14, main_v61, main_cst_15, main_v62,
      main_v63]) :
    after (c12 (F := F)) V (Proc.devRef .tc r) = V (Proc.devRef .tc r) :=
  after_of_writes_sub _ V (by
    simp only [List.Forall, nullary_writes, unary_writes, binary_writes, reshape_writes, Finset.singleton_subset_iff,
      List.mem_toFinset]
    repeat' apply And.intro
    all_goals exact List.mem_map_of_mem (by decide)) hr

/-- Stretch 12 reads the shifted exponentials: it leaves the mean assignment. -/
theorem c12_spec (V : Valuation τ sig (Elt F)) (x2 : (⟨S8x1024x2x320, .f32⟩ : BufTy).Contents (Elt F))
    (h55 : V (Proc.devRef .tc main_v55) = val_main_v55 (F := F) x2) :
    after (c12 (F := F)) V (Proc.devRef .tc main_v63) = val_main_v63 (F := F) x2 := by
  after_results
  rw [h55]; rfl

/-- Stretch 13: the entropy of each row of the mean assignment, its exponential (the perplexity), the count less it, and
    the sum over the two rows. -/
abbrev c13 : List (HloOp τ sig (Elt F)) :=
  [ nullary main_cst_16 (constant S_ .f32 0x33D6BF95#32),
    unary main_cst_16 main_v64 (broadcastInDim S2x320 ![] bcast_S_S2x320 : (⟨S_, .f32⟩ : BufTy).Contents (Elt F) → (⟨S2x320, .f32⟩ : BufTy).Contents (Elt F)),
    binary main_v63 main_v64 main_v65 (addf : (⟨S2x320, .f32⟩ : BufTy).Contents (Elt F) → (⟨S2x320, .f32⟩ : BufTy).Contents (Elt F) → (⟨S2x320, .f32⟩ : BufTy).Contents (Elt F)),
    unary main_v65 main_v66 (Host.log : (⟨S2x320, .f32⟩ : BufTy).Contents (Elt F) → (⟨S2x320, .f32⟩ : BufTy).Contents (Elt F)),
    binary main_v63 main_v66 main_v67 (mulf : (⟨S2x320, .f32⟩ : BufTy).Contents (Elt F) → (⟨S2x320, .f32⟩ : BufTy).Contents (Elt F) → (⟨S2x320, .f32⟩ : BufTy).Contents (Elt F)),
    nullary main_cst_17 (constant S_ .f32 0x00000000#32),
    binary main_v67 main_cst_17 main_v68 ((fun x v => Host.reduceAdd x v reducesTo_S2x320_S2_d1 h_S_) : (⟨S2x320, .f32⟩ : BufTy).Contents (Elt F) → (⟨S_, .f32⟩ : BufTy).Contents (Elt F) → (⟨S2, .f32⟩ : BufTy).Contents (Elt F)),
    unary main_v68 main_v69 (Host.negf : (⟨S2, .f32⟩ : BufTy).Contents (Elt F) → (⟨S2, .f32⟩ : BufTy).Contents (Elt F)),
    unary main_v69 main_v70 (Host.exp : (⟨S2, .f32⟩ : BufTy).Contents (Elt F) → (⟨S2, .f32⟩ : BufTy).Contents (Elt F)),
    nullary main_cst_18 (constant S_ .f32 0x43A00000#32),
    unary main_cst_18 main_v71 (broadcastInDim S2 ![] bcast_S_S2 : (⟨S_, .f32⟩ : BufTy).Contents (Elt F) → (⟨S2, .f32⟩ : BufTy).Contents (Elt F)),
    binary main_v71 main_v70 main_v72 (subf : (⟨S2, .f32⟩ : BufTy).Contents (Elt F) → (⟨S2, .f32⟩ : BufTy).Contents (Elt F) → (⟨S2, .f32⟩ : BufTy).Contents (Elt F)),
    nullary main_cst_19 (constant S_ .f32 0x00000000#32),
    binary main_v72 main_cst_19 main_v73 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)) ]

/-- A buffer that stretch 13 does not write keeps its contents. -/
theorem c13_keep (V : Valuation τ sig (Elt F)) {r : Ref sig .tc}
    (hr : r ∉ [main_cst_16, main_v64, main_v65, main_v66, main_v67, main_cst_17, main_v68, main_v69, main_v70, main_cst_18,
      main_v71, main_v72, main_cst_19, main_v73]) :
    after (c13 (F := F)) V (Proc.devRef .tc r) = V (Proc.devRef .tc r) :=
  after_of_writes_sub _ V (by
    simp only [List.Forall, nullary_writes, unary_writes, binary_writes, Finset.singleton_subset_iff, List.mem_toFinset]
    repeat' apply And.intro
    all_goals exact List.mem_map_of_mem (by decide)) hr

/-- Stretch 13 reads the mean assignment: it leaves the summed perplexity deficit. -/
theorem c13_spec (V : Valuation τ sig (Elt F)) (x2 : (⟨S8x1024x2x320, .f32⟩ : BufTy).Contents (Elt F))
    (h63 : V (Proc.devRef .tc main_v63) = val_main_v63 (F := F) x2) :
    after (c13 (F := F)) V (Proc.devRef .tc main_v73) = val_main_v73 (F := F) x2 := by
  after_results
  rw [h63]; rfl

/-- Stretch 14: the mean square of the first array, and the weighted sum of the three terms. -/
abbrev c14 : List (HloOp τ sig (Elt F)) :=
  [ binary main_arg0 main_arg0 main_v74 (mulf : (⟨S8x1024x256, .f32⟩ : BufTy).Contents (Elt F) → (⟨S8x1024x256, .f32⟩ : BufTy).Contents (Elt F) → (⟨S8x1024x256, .f32⟩ : BufTy).Contents (Elt F)),
    nullary main_cst_20 (constant S_ .f32 0x00000000#32),
    binary main_v74 main_cst_20 main_v75 ((fun x v => Host.reduceAdd x v reducesTo_S8x1024x256_S_d0_1_2 h_S_) : (⟨S8x1024x256, .f32⟩ : BufTy).Contents (Elt F) → (⟨S_, .f32⟩ : BufTy).Contents (Elt F) → (⟨S_, .f32⟩ : BufTy).Contents (Elt F)),
    nullary main_cst_21 (constant S_ .f32 0x4A000000#32),
    binary main_v75 main_cst_21 main_v76 (Host.divf : (⟨S_, .f32⟩ : BufTy).Contents (Elt F) → (⟨S_, .f32⟩ : BufTy).Contents (Elt F) → (⟨S_, .f32⟩ : BufTy).Contents (Elt F)),
    nullary main_cst_22 (constant S_ .f32 0x3DCCCCCD#32),
    binary main_cst_22 main_v73 main_v77 (mulf : (⟨S_, .f32⟩ : BufTy).Contents (Elt F) → (⟨S_, .f32⟩ : BufTy).Contents (Elt F) → (⟨S_, .f32⟩ : BufTy).Contents (Elt F)),
    binary main_v48 main_v77 main_v78 (addf : (⟨S_, .f32⟩ : BufTy).Contents (Elt F) → (⟨S_, .f32⟩ : BufTy).Contents (Elt F) → (⟨S_, .f32⟩ : BufTy).Contents (Elt F)),
    nullary main_cst_23 (constant S_ .f32 0x41200000#32),
    binary main_cst_23 main_v76 main_v79 (mulf : (⟨S_, .f32⟩ : BufTy).Contents (Elt F) → (⟨S_, .f32⟩ : BufTy).Contents (Elt F) → (⟨S_, .f32⟩ : BufTy).Contents (Elt F)),
    binary main_v78 main_v79 main_v80 (addf : (⟨S_, .f32⟩ : BufTy).Contents (Elt F) → (⟨S_, .f32⟩ : BufTy).Contents (Elt F) → (⟨S_, .f32⟩ : BufTy).Contents (Elt F)) ]

/-- Stretch 14 reads the first array, the first term and the perplexity deficit: it leaves the result. -/
theorem c14_spec (V : Valuation τ sig (Elt F)) (x0 x1 : (⟨S8x1024x256, .f32⟩ : BufTy).Contents (Elt F))
    (x2 : (⟨S8x1024x2x320, .f32⟩ : BufTy).Contents (Elt F)) (x3 : (⟨S8x1024x100, .i32⟩ : BufTy).Contents (Elt F))
    (x4 : (⟨S8x1024, .i1⟩ : BufTy).Contents (Elt F))
    (h0 : V (Proc.devRef .tc main_arg0) = x0)
    (h48 : V (Proc.devRef .tc main_v48) = val_main_v48 (F := F) x0 x1 x3 x4)
    (h73 : V (Proc.devRef .tc main_v73) = val_main_v73 (F := F) x2) :
    after (c14 (F := F)) V (Proc.devRef .tc main_v80) = val_main_v80 (F := F) x0 x1 x2 x3 x4 := by
  after_results
  rw [h48, h73, h0]; rfl

end Cert.ReferenceIdeal.Fold

end
-- ==== Proof.RefFold.lean ====
/-
  The reference program's run, read: the contents its 125 host operations leave in the result buffer, folded from the
  launch memory, is the last of the staged values — each operation's result as a function of the argument arrays —
  at the launch memory's arguments.  Proved a stretch of operations at a time: after a stretch, every buffer it wrote
  holds its stage, NAMED, so that the next stretch reads short terms and the composed term of all operations is
  never built.  The fourteen stretches, each with what it leaves, are the modules RefFoldA (1 to 7) and RefFoldB (8 to 14);
  here the argument arrays are carried through them and the stretches are joined.
-/
import proofs.«416889_j3770981286079_1_alg».proof.Proof.RefRun
import proofs.«416889_j3770981286079_1_alg».proof.Proof.RefRead
import Idealize.ShloMosaic.Lib.StableHlo.Run
import proofs.«416889_j3770981286079_1_alg».proof.Proof.RefFoldA
import proofs.«416889_j3770981286079_1_alg».proof.Proof.RefFoldB

noncomputable section

namespace Cert.ReferenceIdeal.Fold

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## The argument arrays through the stretches, and the stretches joined -/

/-- The five argument arrays' buffers hold `x0 … x4`. -/
def ArgsAt (V : Valuation τ sig (Elt F)) (x0 x1 : (⟨S8x1024x256, .f32⟩ : BufTy).Contents (Elt F))
    (x2 : (⟨S8x1024x2x320, .f32⟩ : BufTy).Contents (Elt F)) (x3 : (⟨S8x1024x100, .i32⟩ : BufTy).Contents (Elt F))
    (x4 : (⟨S8x1024, .i1⟩ : BufTy).Contents (Elt F)) : Prop :=
  V (Proc.devRef .tc main_arg0) = x0 ∧ V (Proc.devRef .tc main_arg1) = x1 ∧ V (Proc.devRef .tc main_arg2) = x2
    ∧ V (Proc.devRef .tc main_arg3) = x3 ∧ V (Proc.devRef .tc main_arg4) = x4

/-- A stretch that writes none of the argument arrays (they are not in the list `W` of what it writes) leaves them
    as they were. -/
theorem ArgsAt.after {l : List (HloOp τ sig (Elt F))} {W : List (Ref sig .tc)}
    (hk : ∀ (V : Valuation τ sig (Elt F)) {r : Ref sig .tc}, r ∉ W → after l V (Proc.devRef .tc r) = V (Proc.devRef .tc r))
    (hW : main_arg0 ∉ W ∧ main_arg1 ∉ W ∧ main_arg2 ∉ W ∧ main_arg3 ∉ W ∧ main_arg4 ∉ W)
    {V : Valuation τ sig (Elt F)} {x0 x1 : (⟨S8x1024x256, .f32⟩ : BufTy).Contents (Elt F)}
    {x2 : (⟨S8x1024x2x320, .f32⟩ : BufTy).Contents (Elt F)} {x3 : (⟨S8x1024x100, .i32⟩ : BufTy).Contents (Elt F)}
    {x4 : (⟨S8x1024, .i1⟩ : BufTy).Contents (Elt F)} (h : ArgsAt V x0 x1 x2 x3 x4) :
    ArgsAt (StableHlo.after l V) x0 x1 x2 x3 x4 :=
  ⟨(hk V hW.1).trans h.1, (hk V hW.2.1).trans h.2.1, (hk V hW.2.2.1).trans h.2.2.1, (hk V hW.2.2.2.1).trans h.2.2.2.1,
    (hk V hW.2.2.2.2).trans h.2.2.2.2⟩

/-- The operation list is the fourteen stretches, in order. -/
theorem ops_split : ops (F := F)
    = c1 ++ (c2 ++ (c3 ++ (c4 ++ (c5 ++ (c6 ++ (c7 ++ (c8 ++ (c9 ++ (c10 ++ (c11 ++ (c12 ++ (c13 ++ c14)))))))))))) := rfl

/-- THE FOLD AT THE RESULT BUFFER IS THE LAST STAGE. -/
theorem fold_result (m : (ℓ : Loc nD τ sig) → Buf (Elt F) ℓ) (c : Dev nD) :
    after (ops (F := F)) (launchContents m c) (Proc.devRef .tc main_v80)
      = val_main_v80 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  -- at launch the argument buffers hold the launch memory
  have A0 : ArgsAt (launchContents m c) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := ⟨rfl, rfl, rfl, rfl, rfl⟩
  -- the fold over the list is the stretches' folds, one inside the next
  rw [ops_split]
  simp only [StableHlo.after_append]
  generalize launchContents m c = V0 at A0 ⊢
  -- stretch 1: the wrapped batch coordinate
  have A1 := ArgsAt.after c1_keep (by decide) A0
  have e6 := c1_spec V0
  generalize StableHlo.after c1 V0 = V1 at A1 e6 ⊢
  -- stretch 2: the two coordinate planes
  have A2 := ArgsAt.after c2_keep (by decide) A1
  obtain ⟨e13, e14⟩ := c2_spec V1 _ A1.2.2.2.1 e6
  generalize StableHlo.after c2 V1 = V2 at A2 e13 e14 ⊢
  -- stretch 3: the gathered rows, the first array with its unit axis
  have A3 := ArgsAt.after c3_keep (by decide) A2
  obtain ⟨e16, e17⟩ := c3_spec V2 _ _ A2.1 e13 e14
  generalize StableHlo.after c3 V2 = V3 at A3 e16 e17 ⊢
  -- stretch 4: the candidate rows, the inner products, the row norms
  have A4 := ArgsAt.after c4_keep (by decide) A3
  obtain ⟨e18, e22, e25⟩ := c4_spec V3 _ _ _ A3.2.1 e16 e17
  generalize StableHlo.after c4 V3 = V4 at A4 e18 e22 e25 ⊢
  -- stretch 5: the cosines
  have A5 := ArgsAt.after c5_keep (by decide) A4
  have e33 := c5_spec V4 _ _ _ e18 e22 e25
  generalize StableHlo.after c5 V4 = V5 at A5 e33 ⊢
  -- stretch 6: the own-row mask and the plane of false; the cosines are not written
  have A6 := ArgsAt.after c6_keep (by decide) A5
  obtain ⟨e37, e38⟩ := c6_spec V5 _ A5.2.2.2.1
  have e33a := (c6_keep V5 (r := main_v33) (by decide)).trans e33
  generalize StableHlo.after c6 V5 = V6 at A6 e37 e38 e33a ⊢
  -- stretch 7: the scaled, masked cosines
  have A7 := ArgsAt.after c7_keep (by decide) A6
  have e42 := c7_spec V6 _ _ _ e37 e38 e33a
  generalize StableHlo.after c7 V6 = V7 at A7 e42 ⊢
  -- stretch 8: shifted by the row maximum
  have A8 := ArgsAt.after c8_keep (by decide) A7
  have e5 := c8_spec V7 _ _ _ e42
  generalize StableHlo.after c8 V7 = V8 at A8 e5 ⊢
  -- stretch 9: the own row's log-probability
  have A9 := ArgsAt.after c9_keep (by decide) A8
  have e45 := c9_spec V8 _ _ _ e5
  generalize StableHlo.after c9 V8 = V9 at A9 e45 ⊢
  -- stretch 10: the first term
  have A10 := ArgsAt.after c10_keep (by decide) A9
  have e48 := c10_spec V9 _ _ _ _ A9.2.2.2.2 e45
  generalize StableHlo.after c10 V9 = V10 at A10 e48 ⊢
  -- stretch 11: the third array's shifted exponentials; the first term is not written, here or in the next two
  have A11 := ArgsAt.after c11_keep (by decide) A10
  have e55 := c11_spec V10 _ A10.2.2.1
  have e48a := (c11_keep V10 (r := main_v48) (by decide)).trans e48
  generalize StableHlo.after c11 V10 = V11 at A11 e55 e48a ⊢
  -- stretch 12: the mean assignment
  have A12 := ArgsAt.after c12_keep (by decide) A11
  have e63 := c12_spec V11 _ e55
  have e48b := (c12_keep V11 (r := main_v48) (by decide)).trans e48a
  generalize StableHlo.after c12 V11 = V12 at A12 e63 e48b ⊢
  -- stretch 13: the perplexity deficit
  have A13 := ArgsAt.after c13_keep (by decide) A12
  have e73 := c13_spec V12 _ e63
  have e48c := (c13_keep V12 (r := main_v48) (by decide)).trans e48b
  generalize StableHlo.after c13 V12 = V13 at A13 e73 e48c ⊢
  -- stretch 14: the result
  exact c14_spec V13 _ _ _ _ _ A13.1 e48c e73

end Cert.ReferenceIdeal.Fold

end
-- ==== Proof.RefValueCAux.lean ====
/-
  The reference's contrastive term, read: the parts below the logits.  Index words in range (a word below 2³¹ is not
  negative and reads signed as its value); the start-index pairs the gather is handed (the batch number, then the
  negative's index, each through "add the extent if negative", which does nothing here); the gather read at an index
  (the operand at the two clamped start words and the offset coordinate); the targets (the position's own quantized
  row joined in front of the gathered rows) and the struck-out column (false joined in front of "the index is the
  position's own number"), each read on either side of the joint; and the cosine of the context row against target
  row j: the dot product over the product of the two norms floored at the small constant.
-/
import proofs.«416889_j3770981286079_1_alg».proof.Proof.RefRead
import proofs.«416889_j3770981286079_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

/-! ## Index words in range -/

/-- A word below 2³¹ is not negative: the signed comparison with zero is the bit 0. -/
theorem c_not_neg (w : BitVec 32) (h : w.toNat < 2 ^ 31) : IntOp.cmpi .slt w 0#32 = 0#1 := by
  apply eq_zero_of_ne_one
  intro hc
  have h2 := (StableHlo.Predicate.slt_iff_toNat (a := w) (b := 0#32) h (by decide)).mp hc
  simp at h2

/-- The normalisation "add the extent if negative" leaves a non-negative word alone. -/
theorem c_norm (w e : BitVec 32) (h : w.toNat < 2 ^ 31) :
    Scalar.select (IntOp.cmpi .slt w 0#32) (IntOp.addi w e) w = w := by
  rw [c_not_neg w h, select_zero]

/-- Read signed, a word below 2³¹ is its value. -/
theorem c_toInt_toNat (w : BitVec 32) (h : w.toNat < 2 ^ 31) : w.toInt.toNat = w.toNat := by
  rw [StableHlo.Predicate.toInt_eq_toNat_of_lt h]; rfl

/-- The word of a batch number reads back as the number. -/
theorem c_ofNat_toNat (n : Nat) (h : n < 2 ^ 31) : (BitVec.ofNat 32 n).toNat = n := by
  rw [BitVec.toNat_ofNat]; exact Nat.mod_eq_of_lt (by omega)

/-! ## The start indices: the batch number, then the negative's index -/

theorem c_v15_zero (x3 : IVec S8x1024x100 32) (b : Fin 8) (t : Fin 1024) (k : Fin 100) :
    val_main_v15 (F := Ideal) x3 (ix4 b t k (0 : Fin 2)) = BitVec.ofNat 32 b.val := by
  unfold val_main_v15
  refine (concatenate_pair_apply_left _ _ _ concatenates_S8x1024x100x1_S8x1024x100x1_S8x1024x100x2_d3
    (ix4 b t k (0 : Fin 2)) rfl (ix4 b t k (0 : Fin 1))
    (fun a => by match a with | ⟨0, _⟩ => rfl | ⟨1, _⟩ => rfl | ⟨2, _⟩ => rfl | ⟨3, _⟩ => rfl)).trans ?_
  rw [val_main_v13_apply, val_main_v12_apply, val_main_v6_apply, val_main_v3_apply, val_main_v5_apply,
    val_main_v1_apply, val_main_v2_apply, val_main_v0_apply, val_main_c_apply]
  exact c_norm _ _ (by rw [c_ofNat_toNat _ (by have := b.isLt; show b.val < 2 ^ 31; omega)]; have := b.isLt; show b.val < 2 ^ 31; omega)

theorem c_v15_one (x3 : IVec S8x1024x100 32) (hidx : ∀ i, (x3 i).toNat < 1024) (b : Fin 8) (t : Fin 1024) (k : Fin 100) :
    val_main_v15 (F := Ideal) x3 (ix4 b t k (1 : Fin 2)) = x3 (ix3 b t k) := by
  unfold val_main_v15
  refine (concatenate_pair_apply_right _ _ _ concatenates_S8x1024x100x1_S8x1024x100x1_S8x1024x100x2_d3
    (ix4 b t k (1 : Fin 2)) rfl rfl (ix4 b t k (0 : Fin 1))
    (fun a ha => by match a with | ⟨0, _⟩ => rfl | ⟨1, _⟩ => rfl | ⟨2, _⟩ => rfl | ⟨3, _⟩ => exact absurd rfl ha) rfl).trans ?_
  rw [val_main_v14_apply, val_main_v11_apply, val_main_v8_apply, val_main_v10_apply, val_main_v7_apply, val_main_c_1_apply]
  have e : idx_main_v14 (ix4 b t k (0 : Fin 1)) = ix3 b t k :=
    funext fun a => Fin.ext (by match a with | ⟨0, _⟩ => rfl | ⟨1, _⟩ => rfl | ⟨2, _⟩ => rfl)
  rw [e]
  exact c_norm _ _ (by have := hidx (ix3 b t k); omega)

/-! ## The gather, read at an index

Operand [8, 1024, 256], start indices [8, 1024, 100, 2] with the index vector on the last axis, result
[8, 1024, 100, 256]: the first two operand axes are collapsed and start-indexed, the third is the one offset axis.
Result element (b, t, k, d) is the operand at (start word 0 clamped into 0 … 7, start word 1 clamped into 0 … 1023, d). -/

theorem c_gather_ax0 (idx : IVec S8x1024x100x2 32) (b : Fin 8) (t : Fin 1024) (k : Fin 100) (d : Fin 256) :
    gather_S8x1024x256_S8x1024x100x2_S8x1024x100x256_3_01_n_n_01_3_11256.start (ix4 b t k d) idx (0 : Fin 3) + gather_S8x1024x256_S8x1024x100x2_S8x1024x100x256_3_01_n_n_01_3_11256.batchCoord (ix4 b t k d) (0 : Fin 3)
        + gather_S8x1024x256_S8x1024x100x2_S8x1024x100x256_3_01_n_n_01_3_11256.offCoord (ix4 b t k d) (0 : Fin 3)
      = min (idx (ix4 b t k (0 : Fin 2))).toInt.toNat 7 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 3) ∈ gather_S8x1024x256_S8x1024x100x2_S8x1024x100x256_3_01_n_n_01_3_11256.startIndexMap from by decide)]
  have hsi : gather_S8x1024x256_S8x1024x100x2_S8x1024x100x256_3_01_n_n_01_3_11256.siIdx (ix4 b t k d) ⟨List.idxOf (0 : Fin 3) gather_S8x1024x256_S8x1024x100x2_S8x1024x100x256_3_01_n_n_01_3_11256.startIndexMap,
      List.idxOf_lt_length_iff.2 (by decide)⟩ = ix4 b t k (0 : Fin 2) := by
    funext c; refine Fin.ext ?_
    match c with
    | ⟨0, _⟩ => rfl
    | ⟨1, _⟩ => rfl
    | ⟨2, _⟩ => rfl
    | ⟨3, _⟩ => rfl
  rw [hsi]
  rfl

theorem c_gather_ax1 (idx : IVec S8x1024x100x2 32) (b : Fin 8) (t : Fin 1024) (k : Fin 100) (d : Fin 256) :
    gather_S8x1024x256_S8x1024x100x2_S8x1024x100x256_3_01_n_n_01_3_11256.start (ix4 b t k d) idx (1 : Fin 3) + gather_S8x1024x256_S8x1024x100x2_S8x1024x100x256_3_01_n_n_01_3_11256.batchCoord (ix4 b t k d) (1 : Fin 3)
        + gather_S8x1024x256_S8x1024x100x2_S8x1024x100x256_3_01_n_n_01_3_11256.offCoord (ix4 b t k d) (1 : Fin 3)
      = min (idx (ix4 b t k (1 : Fin 2))).toInt.toNat 1023 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 3) ∈ gather_S8x1024x256_S8x1024x100x2_S8x1024x100x256_3_01_n_n_01_3_11256.startIndexMap from by decide)]
  have hsi : gather_S8x1024x256_S8x1024x100x2_S8x1024x100x256_3_01_n_n_01_3_11256.siIdx (ix4 b t k d) ⟨List.idxOf (1 : Fin 3) gather_S8x1024x256_S8x1024x100x2_S8x1024x100x256_3_01_n_n_01_3_11256.startIndexMap,
      List.idxOf_lt_length_iff.2 (by decide)⟩ = ix4 b t k (1 : Fin 2) := by
    funext c; refine Fin.ext ?_
    match c with
    | ⟨0, _⟩ => rfl
    | ⟨1, _⟩ => rfl
    | ⟨2, _⟩ => rfl
    | ⟨3, _⟩ => rfl
  rw [hsi]
  rfl

theorem c_gather_ax2 (idx : IVec S8x1024x100x2 32) (b : Fin 8) (t : Fin 1024) (k : Fin 100) (d : Fin 256) :
    gather_S8x1024x256_S8x1024x100x2_S8x1024x100x256_3_01_n_n_01_3_11256.start (ix4 b t k d) idx (2 : Fin 3) + gather_S8x1024x256_S8x1024x100x2_S8x1024x100x256_3_01_n_n_01_3_11256.batchCoord (ix4 b t k d) (2 : Fin 3)
        + gather_S8x1024x256_S8x1024x100x2_S8x1024x100x256_3_01_n_n_01_3_11256.offCoord (ix4 b t k d) (2 : Fin 3)
      = d.val := by
  rw [GatherDims.batchCoord_eq_zero _ _ _ List.not_mem_nil]
  unfold GatherDims.start
  rw [dif_neg (show ¬ (2 : Fin 3) ∈ gather_S8x1024x256_S8x1024x100x2_S8x1024x100x256_3_01_n_n_01_3_11256.startIndexMap from by decide)]
  unfold GatherDims.offCoord
  rw [dif_pos (show (2 : Fin 3) ∈ gather_S8x1024x256_S8x1024x100x2_S8x1024x100x256_3_01_n_n_01_3_11256.sKept from by decide)]
  show 0 + 0 + _ = _
  rw [Nat.zero_add]
  rfl

theorem c_gather_read (x0 : FVec Ideal S8x1024x256 .f32) (idx : IVec S8x1024x100x2 32)
    (b : Fin 8) (t : Fin 1024) (k : Fin 100) (d : Fin 256) :
    Host.gather gather_S8x1024x256_S8x1024x100x2_S8x1024x100x256_3_01_n_n_01_3_11256 x0 idx (ix4 b t k d)
      = x0 (ix3 (⟨min (idx (ix4 b t k (0 : Fin 2))).toInt.toNat 7, by omega⟩ : Fin 8)
          (⟨min (idx (ix4 b t k (1 : Fin 2))).toInt.toNat 1023, by omega⟩ : Fin 1024) d) := by
  unfold Host.gather
  refine congrArg x0 (funext fun a => Fin.ext ?_)
  match a with
  | ⟨0, _⟩ => exact c_gather_ax0 idx b t k d
  | ⟨1, _⟩ => exact c_gather_ax1 idx b t k d
  | ⟨2, _⟩ => exact c_gather_ax2 idx b t k d

/-- With every index word in range, negative `k` of position (b, t) is the quantized row the word names. -/
theorem c_v16 (x0 : FVec Ideal S8x1024x256 .f32) (x3 : IVec S8x1024x100 32) (hidx : ∀ i, (x3 i).toNat < 1024)
    (b : Fin 8) (t : Fin 1024) (k : Fin 100) (d : Fin 256) :
    val_main_v16 (F := Ideal) x0 x3 (ix4 b t k d) = x0 (ix3 b (tix (x3 (ix3 b t k))) d) := by
  unfold val_main_v16
  rw [c_gather_read]
  refine congrArg x0 (funext fun a => Fin.ext ?_)
  match a with
  | ⟨0, _⟩ =>
    show min (val_main_v15 (F := Ideal) x3 (ix4 b t k (0 : Fin 2))).toInt.toNat 7 = b.val
    have hb := b.isLt
    rw [c_v15_zero, c_toInt_toNat _ (by rw [c_ofNat_toNat _ (by omega)]; omega), c_ofNat_toNat _ (by omega)]
    omega
  | ⟨1, _⟩ =>
    show min (val_main_v15 (F := Ideal) x3 (ix4 b t k (1 : Fin 2))).toInt.toNat 1023 = min (x3 (ix3 b t k)).toNat 1023
    have hw := hidx (ix3 b t k)
    rw [c_v15_one x3 hidx, c_toInt_toNat _ (by omega)]
  | ⟨2, _⟩ => rfl

/-! ## The targets: the position's own quantized row first, then the gathered rows -/

theorem c_v18_zero (x0 : FVec Ideal S8x1024x256 .f32) (x3 : IVec S8x1024x100 32) (b : Fin 8) (t : Fin 1024) (d : Fin 256) :
    val_main_v18 (F := Ideal) x0 x3 (ix4 b t (0 : Fin 101) d) = x0 (ix3 b t d) := by
  unfold val_main_v18
  refine (concatenate_pair_apply_left _ _ _ concatenates_S8x1024x1x256_S8x1024x100x256_S8x1024x101x256_d2
    (ix4 b t (0 : Fin 101) d) rfl (ix4 b t (0 : Fin 1) d) (fun a => by match a with | ⟨0, _⟩ => rfl | ⟨1, _⟩ => rfl | ⟨2, _⟩ => rfl | ⟨3, _⟩ => rfl)).trans ?_
  rw [val_main_v17_apply]
  exact congrArg x0 (funext fun a => Fin.ext (by match a with | ⟨0, _⟩ => rfl | ⟨1, _⟩ => rfl | ⟨2, _⟩ => rfl))

theorem c_v18_succ (x0 : FVec Ideal S8x1024x256 .f32) (x3 : IVec S8x1024x100 32) (b : Fin 8) (t : Fin 1024) (k : Fin 100)
    (d : Fin 256) :
    val_main_v18 (F := Ideal) x0 x3 (ix4 b t k.succ d) = val_main_v16 (F := Ideal) x0 x3 (ix4 b t k d) := by
  unfold val_main_v18
  exact concatenate_pair_apply_right _ _ _ concatenates_S8x1024x1x256_S8x1024x100x256_S8x1024x101x256_d2
    (ix4 b t k.succ d) rfl rfl (ix4 b t k d)
    (fun a ha => by match a with | ⟨0, _⟩ => rfl | ⟨1, _⟩ => rfl | ⟨2, _⟩ => exact absurd rfl ha | ⟨3, _⟩ => rfl) rfl

/-! ## The struck-out column: false at the positive, "the index is the position's own number" at a negative -/

theorem c_v39_zero (x3 : IVec S8x1024x100 32) (b : Fin 8) (t : Fin 1024) :
    val_main_v39 (F := Ideal) x3 (ix3 b t (0 : Fin 101)) = 0#1 := by
  unfold val_main_v39
  refine (concatenate_pair_apply_left _ _ _ concatenates_S8x1024x1_S8x1024x100_S8x1024x101_d2
    (ix3 b t (0 : Fin 101)) rfl (ix3 b t (0 : Fin 1)) (fun a => by match a with | ⟨0, _⟩ => rfl | ⟨1, _⟩ => rfl | ⟨2, _⟩ => rfl)).trans ?_
  rw [val_main_v38_apply, val_main_c_6_apply]

theorem c_v39_succ (x3 : IVec S8x1024x100 32) (b : Fin 8) (t : Fin 1024) (k : Fin 100) :
    val_main_v39 (F := Ideal) x3 (ix3 b t k.succ) = IntOp.cmpi .eq (x3 (ix3 b t k)) (BitVec.ofNat 32 t.val) := by
  unfold val_main_v39
  refine (concatenate_pair_apply_right _ _ _ concatenates_S8x1024x1_S8x1024x100_S8x1024x101_d2
    (ix3 b t k.succ) rfl rfl (ix3 b t k)
    (fun a ha => by match a with | ⟨0, _⟩ => rfl | ⟨1, _⟩ => rfl | ⟨2, _⟩ => exact absurd rfl ha) rfl).trans ?_
  rw [val_main_v37_apply, val_main_v36_apply, val_main_v35_apply, val_main_v34_apply]

/-! ## The cosine of the context row against target row j -/

theorem c_v20 (x1 : FVec Ideal S8x1024x256 .f32) (b : Fin 8) (t : Fin 1024) (j : Fin 101) (d : Fin 256) :
    val_main_v20 (F := Ideal) x1 (ix4 b t j d) = x1 (ix3 b t d) := by
  rw [val_main_v20_apply, val_main_v19_apply]
  exact congrArg x1 (funext fun a => Fin.ext (by match a with | ⟨0, _⟩ => rfl | ⟨1, _⟩ => rfl | ⟨2, _⟩ => rfl))

theorem c_v22 (x0 x1 : FVec Ideal S8x1024x256 .f32) (x3 : IVec S8x1024x100 32) (b : Fin 8) (t : Fin 1024) (j : Fin 101) :
    val_main_v22 (F := Ideal) x0 x1 x3 (ix3 b t j)
      = ∑ d : Fin 256, x1 (ix3 b t d) * val_main_v18 (F := Ideal) x0 x3 (ix4 b t j d) := by
  rw [val_main_v22_apply, val_main_cst_apply, Ideal.ofBits_def, Ideal.ofBits_zero_f32, zero_add]
  refine Finset.sum_congr rfl fun d _ => ?_
  have e : idx_main_v22 (ix3 b t j) d = ix4 b t j d := funext fun a => Fin.ext (by match a with | ⟨0, _⟩ => rfl | ⟨1, _⟩ => rfl | ⟨2, _⟩ => rfl | ⟨3, _⟩ => rfl)
  rw [e, val_main_v21_apply, c_v20, Ideal.mulf_def]

theorem c_v29 (x1 : FVec Ideal S8x1024x256 .f32) (b : Fin 8) (t : Fin 1024) (j : Fin 101) :
    val_main_v29 (F := Ideal) x1 (ix3 b t j) = Ideal.sqrt (∑ d : Fin 256, x1 (ix3 b t d) * x1 (ix3 b t d)) := by
  rw [val_main_v29_apply, val_main_v25_apply, val_main_v24_apply, val_main_cst_3_apply, Ideal.ofBits_def,
    Ideal.ofBits_zero_f32, zero_add, Ideal.hostUnary_sqrt_def]
  refine congrArg Ideal.sqrt (Finset.sum_congr rfl fun d _ => ?_)
  rw [val_main_v23_apply, val_main_v19_apply, Ideal.mulf_def]
  have e : idx_main_v19 (idx_main_v24 (idx_main_v29 (ix3 b t j)) d) = ix3 b t d := funext fun a => Fin.ext (by match a with | ⟨0, _⟩ => rfl | ⟨1, _⟩ => rfl | ⟨2, _⟩ => rfl)
  exact congrArg₂ (· * ·) (congrArg x1 e) (congrArg x1 e)

theorem c_v28 (x0 : FVec Ideal S8x1024x256 .f32) (x3 : IVec S8x1024x100 32) (b : Fin 8) (t : Fin 1024) (j : Fin 101) :
    val_main_v28 (F := Ideal) x0 x3 (ix3 b t j)
      = Ideal.sqrt (∑ d : Fin 256, val_main_v18 (F := Ideal) x0 x3 (ix4 b t j d) * val_main_v18 (F := Ideal) x0 x3 (ix4 b t j d)) := by
  rw [val_main_v28_apply, val_main_v27_apply, val_main_cst_4_apply, Ideal.ofBits_def, Ideal.ofBits_zero_f32, zero_add,
    Ideal.hostUnary_sqrt_def]
  refine congrArg Ideal.sqrt (Finset.sum_congr rfl fun d _ => ?_)
  have e : idx_main_v27 (ix3 b t j) d = ix4 b t j d := funext fun a => Fin.ext (by match a with | ⟨0, _⟩ => rfl | ⟨1, _⟩ => rfl | ⟨2, _⟩ => rfl | ⟨3, _⟩ => rfl)
  rw [e, val_main_v26_apply, Ideal.mulf_def]

theorem c_v33 (x0 x1 : FVec Ideal S8x1024x256 .f32) (x3 : IVec S8x1024x100 32) (b : Fin 8) (t : Fin 1024) (j : Fin 101) :
    val_main_v33 (F := Ideal) x0 x1 x3 (ix3 b t j)
      = cosv (row x1 b t) (fun d => val_main_v18 (F := Ideal) x0 x3 (ix4 b t j d)) := by
  rw [val_main_v33_apply, val_main_v32_apply, val_main_v30_apply, val_main_v31_apply, val_main_cst_5_apply, c_v22, c_v29,
    c_v28, Ideal.hostDivf_def, Ideal.maximumf_def, Ideal.mulf_def, Ideal.ofBits_def]
  rfl

/-- At the positive: the cosine with the position's own quantized row. -/
theorem c_cos_pos (x0 x1 : FVec Ideal S8x1024x256 .f32) (x3 : IVec S8x1024x100 32) (b : Fin 8) (t : Fin 1024) :
    val_main_v33 (F := Ideal) x0 x1 x3 (ix3 b t (0 : Fin 101)) = poscos x1 x0 b t := by
  rw [c_v33]
  exact congrArg (cosv (row x1 b t)) (funext fun d => c_v18_zero x0 x3 b t d)

/-- At negative k: the cosine with the quantized row its index names. -/
theorem c_cos_neg (x0 x1 : FVec Ideal S8x1024x256 .f32) (x3 : IVec S8x1024x100 32) (hidx : ∀ i, (x3 i).toNat < 1024)
    (b : Fin 8) (t : Fin 1024) (k : Fin 100) :
    val_main_v33 (F := Ideal) x0 x1 x3 (ix3 b t k.succ) = negcos x1 x0 x3 b t k := by
  rw [c_v33]
  exact congrArg (cosv (row x1 b t)) (funext fun d => (c_v18_succ x0 x3 b t k d).trans (c_v16 x0 x3 hidx b t k d))

end Cert.ReferenceIdeal.RefValue

end
-- ==== Proof.RefValueC.lean ====
/-
  The reference's contrastive term, read.  The staged value before the final combination — minus the sum over all
  positions of the masked log-softmax at the positive — is the spec's reference form: per position the 101 logits are
  the positive's cosine first (the quantized row of the position itself, joined in front of the gathered rows), then
  the 100 negatives' cosines, each against the quantized row its index names (the gather clamps the index into
  0 … 1023, and a negative index first has 1024 added; with every index in range neither does anything), a negative
  whose index is the position's own number replaced by minus infinity; all over the temperature.
-/
import proofs.«416889_j3770981286079_1_alg».proof.Proof.RefRead
import proofs.«416889_j3770981286079_1_alg».proof.Proof.Spec
import proofs.«416889_j3770981286079_1_alg».proof.Proof.RefValueCAux
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

/-! ## The 101 logits of a position -/

theorem c_v40_zero (x0 x1 : FVec Ideal S8x1024x256 .f32) (x3 : IVec S8x1024x100 32) (b : Fin 8) (t : Fin 1024) :
    val_main_v40 (F := Ideal) x0 x1 x3 (ix3 b t (0 : Fin 101)) = poscos x1 x0 b t := by
  rw [val_main_v40_apply, c_v39_zero, select_zero, c_cos_pos]

theorem c_v40_succ (x0 x1 : FVec Ideal S8x1024x256 .f32) (x3 : IVec S8x1024x100 32) (hidx : ∀ i, (x3 i).toNat < 1024)
    (b : Fin 8) (t : Fin 1024) (k : Fin 100) :
    val_main_v40 (F := Ideal) x0 x1 x3 (ix3 b t k.succ) = if hit x3 b t k then ninf else negcos x1 x0 x3 b t k := by
  rw [val_main_v40_apply, c_v39_succ, val_main_call0_v1_apply, val_main_call0_v0_apply, val_main_cst_7_apply,
    Ideal.ofBits_def, c_cos_neg x0 x1 x3 hidx]
  unfold hit ninf
  by_cases h : x3 (ix3 b t k) = BitVec.ofNat 32 t.val
  · rw [StableHlo.Predicate.cmpi_eq_iff.mpr h, select_one, if_pos (beq_iff_eq.mpr h)]
  · have hc : IntOp.cmpi .eq (x3 (ix3 b t k)) (BitVec.ofNat 32 t.val) = 0#1 :=
      eq_zero_of_ne_one (fun hc => h (StableHlo.Predicate.cmpi_eq_iff.mp hc))
    rw [hc, select_zero, if_neg (fun hh => h (beq_iff_eq.mp hh))]

/-- The logits row of position (b, t) is the spec's: the positive first, then the negatives, struck ones at minus
    infinity, all over the temperature. -/
theorem c_v42 (x0 x1 : FVec Ideal S8x1024x256 .f32) (x3 : IVec S8x1024x100 32) (hidx : ∀ i, (x3 i).toNat < 1024)
    (b : Fin 8) (t : Fin 1024) :
    (fun j : Fin 101 => val_main_v42 (F := Ideal) x0 x1 x3 (ix3 b t j))
      = logitsR (poscos x1 x0 b t) (negcos x1 x0 x3 b t) (hit x3 b t) := by
  funext j
  rw [val_main_v42_apply, val_main_v41_apply, val_main_cst_8_apply, Ideal.hostDivf_def, Ideal.ofBits_def]
  unfold logitsR tenth
  refine Fin.cases ?_ (fun k => ?_) j
  · rw [c_v40_zero, Fin.cons_zero]
  · rw [c_v40_succ x0 x1 x3 hidx, Fin.cons_succ]

/-! ## The log-softmax at the positive -/

/-- The row maximum as the program folds it: from minus infinity over the 101, and once more against minus infinity. -/
theorem c_call1_v2 (x0 x1 : FVec Ideal S8x1024x256 .f32) (x3 : IVec S8x1024x100 32) (b : Fin 8) (t : Fin 1024) :
    val_main_call1_v2 (F := Ideal) x0 x1 x3 (ix2 b t)
      = rowmax (fun j : Fin 101 => val_main_v42 (F := Ideal) x0 x1 x3 (ix3 b t j)) := by
  rw [val_main_call1_v2_apply, val_main_call1_v1_apply, val_main_call1_cst_0_apply, Ideal.maximumf_def, Ideal.ofBits_def]
  unfold rowmax ninf
  refine congrArg (max (Ideal.ofBits .f32 0xFF800000#32)) ?_
  unfold val_main_call1_v0
  have h : S8x1024x101.Reduces [2] S8x1024 := by decide
  rw [Host.reduce_eq_fold_single FloatOps.maximumf _ _ reducesTo_S8x1024x101_S8x1024_d2 h h_S_]
  have hf : ((val_main_v42 (F := Ideal) x0 x1 x3) ∘ h.lift (ix2 b t))
      = fun k : Fin 101 => val_main_v42 (F := Ideal) x0 x1 x3 (ix3 b t k) :=
    funext fun k => congrArg (val_main_v42 (F := Ideal) x0 x1 x3) (funext fun a => Fin.ext (by match a with | ⟨0, _⟩ => rfl | ⟨1, _⟩ => rfl | ⟨2, _⟩ => rfl))
  exact congrArg (fun f => Finset.fold max (Ideal.ofBits .f32 0xFF800000#32) f (Finset.univ : Finset (Fin 101))) hf

theorem c_call1_v5 (x0 x1 : FVec Ideal S8x1024x256 .f32) (x3 : IVec S8x1024x100 32) (b : Fin 8) (t : Fin 1024) (j : Fin 101) :
    val_main_call1_v5 (F := Ideal) x0 x1 x3 (ix3 b t j)
      = val_main_v42 (F := Ideal) x0 x1 x3 (ix3 b t j)
        - rowmax (fun j : Fin 101 => val_main_v42 (F := Ideal) x0 x1 x3 (ix3 b t j)) := by
  rw [val_main_call1_v5_apply, val_main_call1_v4_apply, val_main_call1_v3_apply, Ideal.subf_def]
  have e : idx_main_call1_v3 (idx_main_call1_v4 (ix3 b t j)) = ix2 b t := funext fun a => Fin.ext (by match a with | ⟨0, _⟩ => rfl | ⟨1, _⟩ => rfl)
  rw [e, c_call1_v2]

theorem c_call1_v10 (x0 x1 : FVec Ideal S8x1024x256 .f32) (x3 : IVec S8x1024x100 32) (b : Fin 8) (t : Fin 1024) (j : Fin 101) :
    val_main_call1_v10 (F := Ideal) x0 x1 x3 (ix3 b t j)
      = Ideal.log (∑ k : Fin 101, Ideal.exp (val_main_v42 (F := Ideal) x0 x1 x3 (ix3 b t k)
          - rowmax (fun j : Fin 101 => val_main_v42 (F := Ideal) x0 x1 x3 (ix3 b t j)))) := by
  rw [val_main_call1_v10_apply, val_main_call1_v9_apply, val_main_call1_v8_apply, val_main_call1_v7_apply,
    val_main_call1_cst_1_apply, Ideal.ofBits_def, Ideal.ofBits_zero_f32, zero_add, Ideal.hostUnary_log_def]
  refine congrArg Ideal.log (Finset.sum_congr rfl fun k _ => ?_)
  have e : idx_main_call1_v7 (idx_main_call1_v8 (idx_main_call1_v10 (ix3 b t j))) k = ix3 b t k :=
    funext fun a => Fin.ext (by match a with | ⟨0, _⟩ => rfl | ⟨1, _⟩ => rfl | ⟨2, _⟩ => rfl)
  rw [e, val_main_call1_v6_apply, Ideal.hostUnary_exp_def, c_call1_v5]

theorem c_v43 (x0 x1 : FVec Ideal S8x1024x256 .f32) (x3 : IVec S8x1024x100 32) (b : Fin 8) (t : Fin 1024) :
    val_main_v43 (F := Ideal) x0 x1 x3 (ix3 b t (0 : Fin 101))
      = lpR (fun j : Fin 101 => val_main_v42 (F := Ideal) x0 x1 x3 (ix3 b t j)) := by
  rw [val_main_v43_apply, Ideal.subf_def, c_call1_v5, c_call1_v10]
  rfl

theorem c_v45 (x0 x1 : FVec Ideal S8x1024x256 .f32) (x3 : IVec S8x1024x100 32) (hidx : ∀ i, (x3 i).toNat < 1024)
    (b : Fin 8) (t : Fin 1024) :
    val_main_v45 (F := Ideal) x0 x1 x3 (ix2 b t)
      = lpR (logitsR (poscos x1 x0 b t) (negcos x1 x0 x3 b t) (hit x3 b t)) := by
  rw [val_main_v45_apply, val_main_v44_apply]
  have hb := b.isLt
  have ht := t.isLt
  have e : idx_main_v44 (idx_main_v45 (ix2 b t)) = ix3 b t (0 : Fin 101) := funext fun a => Fin.ext (by
    match a with
    | ⟨0, _⟩ => show (b.val * 1024 + t.val) / 1024 = b.val; omega
    | ⟨1, _⟩ => show (b.val * 1024 + t.val) / 1 % 1024 = t.val; omega
    | ⟨2, _⟩ => rfl)
  rw [e, c_v43, c_v42 x0 x1 x3 hidx]

/-- THE CONTRASTIVE STAGE (the negated masked sum) is the spec's reference form, indices in range. -/
theorem contrastive_value (x0 x1 : FVec Ideal S8x1024x256 .f32) (x3 : IVec S8x1024x100 32) (x4 : IVec S8x1024 1)
    (hidx : ∀ i, (x3 i).toNat < 1024) (i : S_.Idx) :
    val_main_v48 (F := Ideal) x0 x1 x3 x4 i = lcR x1 x0 x3 x4 := by
  rw [val_main_v48_apply, val_main_v47_apply, val_main_cst_10_apply, Ideal.hostNegf_def, Ideal.negf_def, Ideal.ofBits_def,
    Ideal.ofBits_zero_f32, zero_add, sum_idx2]
  unfold lcR
  refine congrArg Neg.neg (Finset.sum_congr rfl fun b _ => Finset.sum_congr rfl fun t _ => ?_)
  rw [val_main_v46_apply, val_main_call2_v1_apply, val_main_call2_v0_apply, val_main_cst_9_apply, Ideal.ofBits_def,
    Ideal.ofBits_zero_f32, c_v45 x0 x1 x3 hidx]
  rfl

end Cert.ReferenceIdeal.RefValue

end
-- ==== Proof.RefValueD.lean ====
/-
  The reference's other two terms and the final combination, read.  The summed softmax over the 8192 flattened
  positions and the sum of all squares of the quantized array are the spec's reference forms, and the last stretch of
  operations applied to them and to the contrastive stage is the common last formula.
-/
import proofs.«416889_j3770981286079_1_alg».proof.Proof.RefRead
import proofs.«416889_j3770981286079_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

/-! ## The row maximum -/

private theorem d_red : S8x1024x2x320.Reduces [3] S8x1024x2 := by decide

/-- The reduced index `(b, t, g)` with coordinate `k` put back on the last axis is `(b, t, g, k)`. -/
private theorem d_lift (b : Fin 8) (t : Fin 1024) (g : Fin 2) (k : Fin (S8x1024x2x320.size 3)) :
    d_red.lift (ix3 b t g) k = ix4 b t g (⟨k.val, k.isLt⟩ : Fin 320) := by
  funext c; apply Fin.ext
  match c with | ⟨0, _⟩ => rfl | ⟨1, _⟩ => rfl | ⟨2, _⟩ => rfl | ⟨3, _⟩ => rfl

/-- The maximum-reduce of the logits over their last axis, from minus infinity, is the fold of `max` over the row. -/
theorem d_v49 (x2 : FVec Ideal S8x1024x2x320 .f32) (b : Fin 8) (t : Fin 1024) (g : Fin 2) :
    val_main_v49 (F := Ideal) x2 (ix3 b t g)
      = (Finset.univ : Finset (Fin 320)).fold max ninf (fun v' => x2 (ix4 b t g v')) := by
  unfold val_main_v49
  rw [Host.reduce_eq_fold_single FloatOps.maximumf x2 _ _ d_red h_S_]
  have hf : (x2 ∘ d_red.lift (ix3 b t g)) = fun v' : Fin 320 => x2 (ix4 b t g v') :=
    funext fun k => congrArg x2 (d_lift b t g k)
  rw [hf]
  rfl

/-- Maxed once more against minus infinity it is the spec's row maximum. -/
theorem d_v51 (x2 : FVec Ideal S8x1024x2x320 .f32) (b : Fin 8) (t : Fin 1024) (g : Fin 2) :
    val_main_v51 (F := Ideal) x2 (ix3 b t g) = rowmax (fun v' => x2 (ix4 b t g v')) := by
  rw [val_main_v51_apply, val_main_v50_apply, val_main_cst_12_apply, d_v49]
  rfl

/-! ## The softmax -/

private theorem d_idx53 (b : Fin 8) (t : Fin 1024) (g : Fin 2) (v : Fin 320) :
    idx_main_v52 (idx_main_v53 (ix4 b t g v)) = ix3 b t g :=
  funext fun a => Fin.ext (by match a with | ⟨0, _⟩ => rfl | ⟨1, _⟩ => rfl | ⟨2, _⟩ => rfl)

private theorem d_idx58 (b : Fin 8) (t : Fin 1024) (g : Fin 2) (v : Fin 320) :
    idx_main_v57 (idx_main_v58 (ix4 b t g v)) = ix3 b t g :=
  funext fun a => Fin.ext (by match a with | ⟨0, _⟩ => rfl | ⟨1, _⟩ => rfl | ⟨2, _⟩ => rfl)

private theorem d_idx56 (b : Fin 8) (t : Fin 1024) (g : Fin 2) (k : Fin 320) :
    idx_main_v56 (ix3 b t g) k = ix4 b t g k :=
  funext fun a => Fin.ext (by match a with | ⟨0, _⟩ => rfl | ⟨1, _⟩ => rfl | ⟨2, _⟩ => rfl | ⟨3, _⟩ => rfl)

/-- The shifted exponential at `(b, t, g, v)`. -/
theorem d_v55 (x2 : FVec Ideal S8x1024x2x320 .f32) (b : Fin 8) (t : Fin 1024) (g : Fin 2) (v : Fin 320) :
    val_main_v55 (F := Ideal) x2 (ix4 b t g v)
      = Ideal.exp (x2 (ix4 b t g v) - rowmax (fun v' => x2 (ix4 b t g v'))) := by
  rw [val_main_v55_apply, val_main_v54_apply, val_main_v53_apply, val_main_v52_apply, d_idx53, d_v51]
  rfl

/-- The row's sum of shifted exponentials. -/
theorem d_v56 (x2 : FVec Ideal S8x1024x2x320 .f32) (b : Fin 8) (t : Fin 1024) (g : Fin 2) :
    val_main_v56 (F := Ideal) x2 (ix3 b t g)
      = ∑ v' : Fin 320, Ideal.exp (x2 (ix4 b t g v') - rowmax (fun v'' => x2 (ix4 b t g v''))) := by
  rw [val_main_v56_apply, val_main_cst_13_apply, Ideal.ofBits_def, Ideal.ofBits_zero_f32, zero_add]
  refine Finset.sum_congr rfl fun k _ => ?_
  rw [d_idx56, d_v55]

/-- The softmax stage at `(b, t, g, v)` is the spec's softmax of the row `(b, t, g)`, at `v`. -/
theorem d_v59 (x2 : FVec Ideal S8x1024x2x320 .f32) (b : Fin 8) (t : Fin 1024) (g : Fin 2) (v : Fin 320) :
    val_main_v59 (F := Ideal) x2 (ix4 b t g v) = smx (fun v' => x2 (ix4 b t g v')) v := by
  rw [val_main_v59_apply, val_main_v58_apply, val_main_v57_apply, d_idx58, d_v55, d_v56]
  rfl

/-! ## The summed softmax over the flattened positions -/

/-- Position `n` of the flattened array is `(n / 1024, n % 1024)` of the four-axis one: the reshape's row-major
    arithmetic at `(n, g, v)`. -/
private theorem d_idx60 (n : Fin 8192) (g : Fin 2) (v : Fin 320) :
    idx_main_v60 (idx_main_v61 (ix2 g v) n)
      = ix4 (⟨n.val / 1024, by omega⟩ : Fin 8) (⟨n.val % 1024, by omega⟩ : Fin 1024) g v :=
  funext fun a => Fin.ext (by
    have hn := n.isLt; have hg := g.isLt; have hv := v.isLt
    match a with
    | ⟨0, _⟩ => show ((n.val * 2 + g.val) * 320 + v.val) / 655360 = n.val / 1024; omega
    | ⟨1, _⟩ => show ((n.val * 2 + g.val) * 320 + v.val) / 640 % 1024 = n.val % 1024; omega
    | ⟨2, _⟩ => show ((n.val * 2 + g.val) * 320 + v.val) / 320 % 2 = g.val; omega
    | ⟨3, _⟩ => show ((n.val * 2 + g.val) * 320 + v.val) % 320 = v.val; omega)

/-- The sum over the 8192 positions of the reshaped softmax is the spec's summed softmax. -/
theorem d_v61 (x2 : FVec Ideal S8x1024x2x320 .f32) (g : Fin 2) (v : Fin 320) :
    val_main_v61 (F := Ideal) x2 (ix2 g v) = psR x2 g v := by
  rw [val_main_v61_apply, val_main_cst_14_apply, Ideal.ofBits_def, Ideal.ofBits_zero_f32, zero_add]
  unfold psR
  refine Finset.sum_congr rfl fun n _ => ?_
  rw [val_main_v60_apply, d_idx60, d_v59]

/-! ## The sum of squares -/

/-- The sum of every square of the quantized array. -/
theorem d_v75 (x0 : FVec Ideal S8x1024x256 .f32) (i : S_.Idx) :
    val_main_v75 (F := Ideal) x0 i = l2R x0 := by
  rw [val_main_v75_apply, val_main_cst_20_apply, Ideal.ofBits_def, Ideal.ofBits_zero_f32, zero_add]
  rfl

/-! ## The entropy, the perplexity, and the weighted sum -/

private theorem d_idx68 (g : Fin 2) (k : Fin 320) : idx_main_v68 (ix1 g) k = ix2 g k :=
  funext fun a => Fin.ext (by match a with | ⟨0, _⟩ => rfl | ⟨1, _⟩ => rfl)

/-- The mean probability of entry `v` of group `g`. -/
theorem d_v63 (x2 : FVec Ideal S8x1024x2x320 .f32) (g : Fin 2) (v : Fin 320) :
    val_main_v63 (F := Ideal) x2 (ix2 g v) = Ideal.div (psR x2 g v) c8192 := by
  rw [val_main_v63_apply, val_main_v62_apply, val_main_cst_15_apply, d_v61]
  rfl

/-- Its entropy term. -/
theorem d_v67 (x2 : FVec Ideal S8x1024x2x320 .f32) (g : Fin 2) (v : Fin 320) :
    val_main_v67 (F := Ideal) x2 (ix2 g v)
      = Ideal.div (psR x2 g v) c8192 * Ideal.log (Ideal.div (psR x2 g v) c8192 + c1em7) := by
  rw [val_main_v67_apply, val_main_v66_apply, val_main_v65_apply, val_main_v64_apply, val_main_cst_16_apply, d_v63]
  rfl

/-- The group's sum of entropy terms. -/
theorem d_v68 (x2 : FVec Ideal S8x1024x2x320 .f32) (g : Fin 2) :
    val_main_v68 (F := Ideal) x2 (ix1 g)
      = ∑ v : Fin 320, Ideal.div (psR x2 g v) c8192 * Ideal.log (Ideal.div (psR x2 g v) c8192 + c1em7) := by
  rw [val_main_v68_apply, val_main_cst_17_apply, Ideal.ofBits_def, Ideal.ofBits_zero_f32, zero_add]
  refine Finset.sum_congr rfl fun k _ => ?_
  rw [d_idx68, d_v67]

/-- The group's 320 minus its perplexity. -/
theorem d_v72 (x2 : FVec Ideal S8x1024x2x320 .f32) (g : Fin 2) :
    val_main_v72 (F := Ideal) x2 (ix1 g)
      = c320 - Ideal.exp (-(∑ v : Fin 320,
          Ideal.div (psR x2 g v) c8192 * Ideal.log (Ideal.div (psR x2 g v) c8192 + c1em7))) := by
  rw [val_main_v72_apply, val_main_v71_apply, val_main_cst_18_apply, val_main_v70_apply, val_main_v69_apply, d_v68]
  rfl

/-- A one-axis index set of extent two is the two coordinates. -/
private def d_equiv1 : Fin 2 ≃ S2.Idx where
  toFun := ix1
  invFun := fun j => j 0
  left_inv := fun _ => rfl
  right_inv := fun j => (eq_ix1 j).symm

/-- The diversity term: the sum over the two groups. -/
theorem d_v73 (x2 : FVec Ideal S8x1024x2x320 .f32) (i : S_.Idx) :
    val_main_v73 (F := Ideal) x2 i
      = ∑ g : Fin 2, (c320 - Ideal.exp (-(∑ v : Fin 320,
          Ideal.div (psR x2 g v) c8192 * Ideal.log (Ideal.div (psR x2 g v) c8192 + c1em7)))) := by
  rw [val_main_v73_apply, val_main_cst_19_apply, Ideal.ofBits_def, Ideal.ofBits_zero_f32, zero_add]
  exact (Fintype.sum_equiv d_equiv1
    (fun g : Fin 2 => c320 - Ideal.exp (-(∑ v : Fin 320,
      Ideal.div (psR x2 g v) c8192 * Ideal.log (Ideal.div (psR x2 g v) c8192 + c1em7))))
    (fun j : S2.Idx => val_main_v72 (F := Ideal) x2 j) (fun g => (d_v72 x2 g).symm)).symm

/-- THE RESULT STAGE is the common last formula of the contrastive stage, the summed softmax and the sum of squares. -/
theorem result_value (x0 x1 : FVec Ideal S8x1024x256 .f32) (x2 : FVec Ideal S8x1024x2x320 .f32)
    (x3 : IVec S8x1024x100 32) (x4 : IVec S8x1024 1) (i : S_.Idx) :
    val_main_v80 (F := Ideal) x0 x1 x2 x3 x4 i
      = combine (val_main_v48 (F := Ideal) x0 x1 x3 x4 i) (psR x2) (l2R x0) := by
  rw [val_main_v80_apply, val_main_v78_apply, val_main_v79_apply, val_main_v77_apply, val_main_v76_apply,
    val_main_cst_22_apply, val_main_cst_23_apply, val_main_cst_21_apply, d_v73, d_v75]
  rfl

end Cert.ReferenceIdeal.RefValue

end
-- ==== Proof.PreFacts.lean ====
/-
  What the precondition says, decoded.  The printed predicate is the conjunction of three "every entry's absolute
  value is below plus infinity" tests (on the quantized, context and codebook arrays) and one "every negative index
  is at least 0 and below 1024" test, each an AND-reduction over a whole array.  If it evaluates to true, every
  entry of the first two arrays is a real number (an extended real whose absolute value is below plus infinity is
  neither infinity), and every index word, read as a natural number, is below 1024 (a word that is at least 0 and
  below 1024 as a signed integer has its sign bit clear).
-/
import proofs.«416889_j3770981286079_1_alg».proof.Pre_finite_inputs
import proofs.«416889_j3770981286079_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

/-- An extended real whose absolute value is below plus infinity is a real number: neither infinity qualifies. -/
private theorem real_of_abs_lt_top (x : EReal) (h : max x (-x) < ⊤) : ∃ r : ℝ, x = (r : EReal) := by
  induction x using EReal.rec with
  | bot => simp at h
  | top => simp at h
  | coe r => exact ⟨r, rfl⟩

/-- The 32-bit float word with every exponent bit set, sign and fraction clear, is plus infinity. -/
private theorem top_word : Ideal.ofBits .f32 0x7F800000#32 = (⊤ : EReal) := by simp [Ideal.ofBits, Ideal.ieee]

/-- One array's finiteness test, over any shape: if every entry's absolute value compares strictly below the
    broadcast plus infinity, every entry is a real number. -/
private theorem all_real {s : Shape} (a : FVec Ideal s .f32) (hb : S_.BroadcastsInDim s ![])
    (hall : ∀ i, cmpf .olt (Host.absf a) (broadcastInDim s ![] hb (constant (F := Ideal) S_ .f32 0x7F800000#32)) i = 1#1) :
    ∀ i, ∃ r : ℝ, a i = (r : EReal) := by
  intro i
  have hi := hall i
  simp only [cmpf, Host.absf, broadcastInDim, constant] at hi
  change Ideal.cmp .olt (max (a i) (-(a i))) (Ideal.ofBits .f32 0x7F800000#32) = 1#1 at hi
  rw [top_word] at hi
  simp only [Ideal.cmp, StableHlo.Predicate.ofBool_eq_one_iff, decide_eq_true_eq] at hi
  exact real_of_abs_lt_top _ hi

/-- A 32-bit word that is at least 0 and below 1024 as a signed integer has its sign bit clear, so its value as a
    natural number is below 1024. -/
private theorem word_lt (w : BitVec 32) (h0 : IntOp.cmpi .sge w 0#32 = 1#1) (h1 : IntOp.cmpi .slt w 1024#32 = 1#1) :
    w.toNat < 1024 := by
  simp only [IntOp.cmpi, StableHlo.Predicate.ofBool_eq_one_iff, BitVec.sle, BitVec.slt, decide_eq_true_eq] at h0 h1
  have e0 : (0#32 : BitVec 32).toInt = 0 := by decide
  have e1 : (1024#32 : BitVec 32).toInt = 1024 := by decide
  rw [e0] at h0
  rw [e1] at h1
  rw [BitVec.toInt_eq_toNat_cond] at h0 h1
  have := w.isLt
  split at h0 <;> omega

/-- THE PRECONDITION, DECODED: real features, indices below 1024. -/
theorem decode (a0 a1 : FVec Ideal S8x1024x256 .f32) (a2 : FVec Ideal S8x1024x2x320 .f32)
    (a3 : IVec S8x1024x100 32) (a4 : IVec S8x1024 1)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, (a3 i).toNat < 1024) := by
  -- the scalar result has one index
  haveI : Subsingleton S_.Idx := ⟨fun a b => funext fun d => d.elim0⟩
  -- the predicate at its one index: a four-fold conjunction of AND-reductions
  have h0 := congrFun h ValueIdx.ix0
  dsimp only [fn, fn_part1] at h0
  simp only [andi] at h0
  obtain ⟨h012, h3⟩ := IntOp.andi_eq_one.1 h0
  obtain ⟨h01, _⟩ := IntOp.andi_eq_one.1 h012
  obtain ⟨hA, hB⟩ := IntOp.andi_eq_one.1 h01
  -- an AND-reduction over all axes that is 1 had a 1 at every entry
  refine ⟨all_real a0 _ (Host.reduce_andi_all _ _ _ _ _ hA), all_real a1 _ (Host.reduce_andi_all _ _ _ _ _ hB), ?_⟩
  intro i
  have hi := Host.reduce_andi_all _ _ _ _ _ h3 i
  -- at entry i: (0 ≤ word) AND (word < 1024), the two bounds broadcast scalars
  simp only [andi, cmpi, broadcastInDim, constantI] at hi
  obtain ⟨hge, hlt⟩ := IntOp.andi_eq_one.1 hi
  exact word_lt _ hge hlt

end Cert.PreFacts

end
-- ==== Proof.MathLC.lean ====
/-
  The contrastive term: the kernel's arrangement and the reference's are one number when the inputs are real.

  Per position the kernel takes max(positive, max of negatives), adds the positive's shifted exponential to the
  negatives' sum and subtracts (max + log) from the positive's logit; the reference takes the log-softmax of the 101
  logits at the positive.  With a real positive logit the maximum is real, every shifted exponential is a real in
  [0, 1], the sum is a real ≥ the positive's own term > 0, and both forms equal
  (positive − max) − log(sum).  A struck negative is minus infinity on both sides and contributes exp(−∞) = 0.
  Then, every masked term being real, "zero minus the batch's sum, summed over batches" is minus the total sum.
-/
import proofs.«416889_j3770981286079_1_alg».proof.Proof.Spec

noncomputable section

open scoped BigOperators

namespace Cert.Spec

open Idealize.ShloMosaic Idealize.ShloMosaic.ValueIdx

/-! ### The three literals -/

/-- The word of minus infinity denotes ⊥. -/
private theorem ninf_eq : ninf = ⊥ := by
  simp [ninf, Ideal.ofBits, Ideal.ieee]

/-- The floor on the norms' product is a positive real. -/
private theorem eps_pos : ∃ e : ℝ, 0 < e ∧ eps = (e : EReal) := by
  refine ⟨11258999 * (2 ^ 50)⁻¹, by positivity, ?_⟩
  simp [eps, Ideal.ofBits, Ideal.ieee]

/-- The temperature is a positive real. -/
private theorem tenth_pos : ∃ e : ℝ, 0 < e ∧ tenth = (e : EReal) := by
  refine ⟨13421773 * (2 ^ 27)⁻¹, by positivity, ?_⟩
  simp [tenth, Ideal.ofBits, Ideal.ieee]

/-! ### Sums of reals are reals -/

/-- The coercion commutes with finite sums. -/
private theorem coe_sum' {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The dot product of two real rows. -/
private theorem rowdot_coe (u v : Fin 256 → ℝ) :
    rowdot (fun d => (u d : EReal)) (fun d => (v d : EReal)) = ((∑ d, u d * v d : ℝ) : EReal) := by
  unfold rowdot
  rw [← coe_sum']
  exact Finset.sum_congr rfl (fun d _ => (EReal.coe_mul _ _).symm)

/-- The cosine of two real rows is real. -/
theorem cosv_coe (u v : Fin 256 → ℝ) :
    ∃ r : ℝ, cosv (fun d => (u d : EReal)) (fun d => (v d : EReal)) = (r : EReal) := by
  obtain ⟨e, he, hee⟩ := eps_pos
  have huu : (0 : ℝ) ≤ ∑ d, u d * u d := Finset.sum_nonneg (fun d _ => mul_self_nonneg _)
  have hvv : (0 : ℝ) ≤ ∑ d, v d * v d := Finset.sum_nonneg (fun d _ => mul_self_nonneg _)
  set a : ℝ := Real.sqrt (∑ d, u d * u d)
  set b : ℝ := Real.sqrt (∑ d, v d * v d)
  have hden : max (Ideal.sqrt (rowdot (fun d => (u d : EReal)) (fun d => (u d : EReal)))
        * Ideal.sqrt (rowdot (fun d => (v d : EReal)) (fun d => (v d : EReal)))) eps
      = ((max (a * b) e : ℝ) : EReal) := by
    rw [rowdot_coe, rowdot_coe, Ideal.sqrt_coe, Ideal.sqrt_coe, if_neg (not_lt.mpr huu), if_neg (not_lt.mpr hvv),
      hee, ← EReal.coe_mul]
    exact (EReal.coe_strictMono.monotone.map_max).symm
  have hpos : (0 : ℝ) < max (a * b) e := lt_max_of_lt_right he
  refine ⟨(∑ d, u d * v d) * (1 / max (a * b) e), ?_⟩
  unfold cosv
  rw [hden, Ideal.div_coe hpos.ne', rowdot_coe, ← EReal.coe_mul]

/-! ### One position -/

/-- The maximum of a real and finitely many values below ⊤ is real. -/
private theorem max_real (P : ℝ) (nl : Fin 100 → EReal) (hnl : ∀ k, nl k ≠ ⊤) :
    ∃ mr : ℝ, max (P : EReal) (Finset.univ.sup nl) = (mr : EReal) := by
  have h1 : max (P : EReal) (Finset.univ.sup nl) ≠ ⊤ := by
    have : max (P : EReal) (Finset.univ.sup nl) < ⊤ := by
      rw [max_lt_iff]
      refine ⟨EReal.coe_lt_top P, ?_⟩
      rw [Finset.sup_lt_iff bot_lt_top]
      intro k _
      exact lt_top_iff_ne_top.mpr (hnl k)
    exact this.ne
  have h2 : max (P : EReal) (Finset.univ.sup nl) ≠ ⊥ := by
    have : (⊥ : EReal) < max (P : EReal) (Finset.univ.sup nl) := lt_max_of_lt_left (EReal.bot_lt_coe P)
    exact this.ne'
  exact ⟨_, (EReal.coe_toReal h1 h2).symm⟩

/-- A value below ⊤, shifted by a real and exponentiated, is a nonnegative real (zero at ⊥). -/
private theorem exp_shift_real (z : EReal) (hz : z ≠ ⊤) (mr : ℝ) :
    ∃ e : ℝ, 0 ≤ e ∧ Ideal.exp (z - (mr : EReal)) = (e : EReal) := by
  induction z using EReal.rec with
  | bot => exact ⟨0, le_rfl, by rw [EReal.bot_sub, Ideal.exp_bot, EReal.coe_zero]⟩
  | coe r => exact ⟨Real.exp (r - mr), (Real.exp_pos _).le, by rw [← EReal.coe_sub, Ideal.exp_coe]⟩
  | top => exact absurd rfl hz

/-- Both arrangements over a real positive logit `P`, negatives' logits below ⊤ and their joint maximum `m`:
    the same real, (P − m) − log S with S = exp(P − m) + ∑ exp(nₖ − m) > 0. -/
private theorem lp_real (P : ℝ) (nl : Fin 100 → EReal) (hnl : ∀ k, nl k ≠ ⊤) (m : EReal)
    (hm : m = max (P : EReal) (Finset.univ.sup nl)) :
    ∃ r : ℝ,
      (P : EReal) - (m + Ideal.log (Ideal.exp ((P : EReal) - m) + ∑ k, Ideal.exp (nl k - m))) = (r : EReal) ∧
      ((P : EReal) - m) - Ideal.log (Ideal.exp ((P : EReal) - m) + ∑ k, Ideal.exp (nl k - m)) = (r : EReal) := by
  obtain ⟨mr, hmr⟩ := max_real P nl hnl
  rw [hmr] at hm
  subst hm
  choose E hE0 hE using fun k => exp_shift_real (nl k) (hnl k) mr
  have hsum : ∑ k, Ideal.exp (nl k - (mr : EReal)) = ((∑ k, E k : ℝ) : EReal) := by
    rw [← coe_sum']
    exact Finset.sum_congr rfl (fun k _ => hE k)
  have hS : 0 < Real.exp (P - mr) + ∑ k, E k :=
    add_pos_of_pos_of_nonneg (Real.exp_pos _) (Finset.sum_nonneg (fun k _ => hE0 k))
  have hpm : (P : EReal) - (mr : EReal) = ((P - mr : ℝ) : EReal) := (EReal.coe_sub P mr).symm
  have hT : Ideal.exp ((P : EReal) - (mr : EReal)) + ∑ k, Ideal.exp (nl k - (mr : EReal))
      = ((Real.exp (P - mr) + ∑ k, E k : ℝ) : EReal) := by
    rw [hpm, Ideal.exp_coe, hsum, ← EReal.coe_add]
  have hlog : Ideal.log ((Real.exp (P - mr) + ∑ k, E k : ℝ) : EReal)
      = ((Real.log (Real.exp (P - mr) + ∑ k, E k) : ℝ) : EReal) := by
    rw [Ideal.log_coe, if_neg (not_le.mpr hS)]
  refine ⟨(P - mr) - Real.log (Real.exp (P - mr) + ∑ k, E k), ?_, ?_⟩
  · rw [hT, hlog, ← EReal.coe_add, ← EReal.coe_sub]
    congr 1
    ring
  · rw [hT, hlog, hpm, ← EReal.coe_sub]

/-- The maximum of a row of 101 values given as head and tail: the head against the tail's supremum. -/
private theorem rowmax_cons (a : EReal) (f : Fin 100 → EReal) :
    rowmax (Fin.cons a f : Fin 101 → EReal) = max a (Finset.univ.sup f) := by
  unfold rowmax
  rw [ninf_eq]
  show max ⊥ (Finset.univ.sup (Fin.cons a f : Fin 101 → EReal)) = _
  rw [max_eq_right bot_le]
  apply le_antisymm
  · apply Finset.sup_le
    intro j _
    refine Fin.cases ?_ (fun k => ?_) j
    · rw [Fin.cons_zero]; exact le_max_left _ _
    · rw [Fin.cons_succ]; exact le_max_of_le_right (Finset.le_sup (Finset.mem_univ k))
  · apply max_le
    · have := Finset.le_sup (f := (Fin.cons a f : Fin 101 → EReal)) (Finset.mem_univ (0 : Fin 101))
      rwa [Fin.cons_zero] at this
    · apply Finset.sup_le
      intro k _
      have := Finset.le_sup (f := (Fin.cons a f : Fin 101 → EReal)) (Finset.mem_univ k.succ)
      rwa [Fin.cons_succ] at this

/-- The reference's log-softmax at the head of a row given as head and tail. -/
private theorem lpR_cons (a : EReal) (f : Fin 100 → EReal) :
    lpR (Fin.cons a f : Fin 101 → EReal) =
      (a - max a (Finset.univ.sup f)) - Ideal.log (Ideal.exp (a - max a (Finset.univ.sup f))
        + ∑ k, Ideal.exp (f k - max a (Finset.univ.sup f))) := by
  unfold lpR
  rw [rowmax_cons, Fin.sum_univ_succ]
  simp only [Fin.cons_zero, Fin.cons_succ]

/-- Both forms of a position's log-probability, over real cosines, are one real. -/
private theorem lp_both (pc : ℝ) (nc : Fin 100 → ℝ) (h : Fin 100 → Bool) :
    ∃ r : ℝ, lpK (pc : EReal) (fun k => (nc k : EReal)) h = (r : EReal) ∧
      lpR (logitsR (pc : EReal) (fun k => (nc k : EReal)) h) = (r : EReal) := by
  obtain ⟨τ, hτ, hten⟩ := tenth_pos
  have hpl : Ideal.div (pc : EReal) tenth = ((pc * (1 / τ) : ℝ) : EReal) := by
    rw [hten, Ideal.div_coe hτ.ne', ← EReal.coe_mul]
  have hnl : ∀ k, Ideal.div (if h k then ⊥ else ((nc k : ℝ) : EReal)) tenth ≠ ⊤ := by
    intro k
    rw [hten, Ideal.div_coe hτ.ne']
    by_cases hk : h k = true
    · rw [if_pos hk, EReal.bot_mul_coe_of_pos (by positivity)]; exact bot_ne_top
    · rw [if_neg hk, ← EReal.coe_mul]; exact EReal.coe_ne_top _
  obtain ⟨r, hr1, hr2⟩ := lp_real (pc * (1 / τ))
    (fun k => Ideal.div (if h k then ⊥ else ((nc k : ℝ) : EReal)) tenth) hnl _ rfl
  refine ⟨r, ?_, ?_⟩
  · rw [← hr1, ← hpl]
    simp only [lpK, ninf_eq]
    rfl
  · rw [← hr2, ← hpl]
    unfold logitsR
    rw [lpR_cons, ninf_eq]

/-- With real cosines the kernel's form and the reference's are equal … -/
theorem lpK_eq_lpR (pc : ℝ) (nc : Fin 100 → ℝ) (h : Fin 100 → Bool) :
    lpK (pc : EReal) (fun k => (nc k : EReal)) h = lpR (logitsR (pc : EReal) (fun k => (nc k : EReal)) h) := by
  obtain ⟨r, h1, h2⟩ := lp_both pc nc h
  rw [h1, h2]

/-- … and real. -/
theorem lpK_coe (pc : ℝ) (nc : Fin 100 → ℝ) (h : Fin 100 → Bool) :
    ∃ r : ℝ, lpK (pc : EReal) (fun k => (nc k : EReal)) h = (r : EReal) := by
  obtain ⟨r, h1, _⟩ := lp_both pc nc h
  exact ⟨r, h1⟩

/-! ### All positions -/

/-- THE CONTRASTIVE TERMS AGREE when the context and quantized arrays hold reals. -/
theorem lcK_eq_lcR (x q : (⟨3, ![8, 1024, 256]⟩ : Shape).Idx → EReal)
    (idx : (⟨3, ![8, 1024, 100]⟩ : Shape).Idx → BitVec 32) (mk : (⟨2, ![8, 1024]⟩ : Shape).Idx → BitVec 1)
    (hx : ∀ i, ∃ r : ℝ, x i = (r : EReal)) (hq : ∀ i, ∃ r : ℝ, q i = (r : EReal)) :
    lcK x q idx mk = lcR x q idx mk := by
  choose xr hxr using hx
  choose qr hqr using hq
  -- every cosine is real
  have hpos : ∀ b t, ∃ r : ℝ, poscos x q b t = (r : EReal) := by
    intro b t
    unfold poscos row
    simp only [hxr, hqr]
    exact cosv_coe _ _
  have hneg : ∀ b t k, ∃ r : ℝ, negcos x q idx b t k = (r : EReal) := by
    intro b t k
    unfold negcos row
    simp only [hxr, hqr]
    exact cosv_coe _ _
  choose pcr hpcr using hpos
  choose ncr hncr using hneg
  -- every masked term is one real on both sides
  have hterm : ∀ b t, ∃ a : ℝ,
      (if mk (ix2 b t) = 1#1 then lpK (poscos x q b t) (negcos x q idx b t) (hit idx b t) else 0) = (a : EReal) ∧
      (if mk (ix2 b t) = 1#1 then lpR (logitsR (poscos x q b t) (negcos x q idx b t) (hit idx b t)) else 0)
        = (a : EReal) := by
    intro b t
    have hn : negcos x q idx b t = fun k => ((ncr b t k : ℝ) : EReal) := funext (hncr b t)
    rw [hpcr b t, hn]
    by_cases hm : mk (ix2 b t) = 1#1
    · obtain ⟨r, h1, h2⟩ := lp_both (pcr b t) (ncr b t) (hit idx b t)
      exact ⟨r, by rw [if_pos hm, h1], by rw [if_pos hm, h2]⟩
    · exact ⟨0, by rw [if_neg hm, EReal.coe_zero], by rw [if_neg hm, EReal.coe_zero]⟩
  choose A hA1 hA2 using hterm
  -- zero minus a batch's real sum is its negative; the sum of negatives is the negative of the sum
  have hK : ∀ b : Fin 8, (0 : EReal) - ∑ t : Fin 1024,
      (if mk (ix2 b t) = 1#1 then lpK (poscos x q b t) (negcos x q idx b t) (hit idx b t) else 0)
        = ((-(∑ t, A b t) : ℝ) : EReal) := by
    intro b
    rw [Finset.sum_congr rfl (fun t _ => hA1 b t), coe_sum', zero_sub, ← EReal.coe_neg]
  have hR : ∀ b : Fin 8, ∑ t : Fin 1024,
      (if mk (ix2 b t) = 1#1 then lpR (logitsR (poscos x q b t) (negcos x q idx b t) (hit idx b t)) else 0)
        = ((∑ t, A b t : ℝ) : EReal) := by
    intro b
    rw [Finset.sum_congr rfl (fun t _ => hA2 b t), coe_sum']
  unfold lcK lcR
  rw [Finset.sum_congr rfl (fun b _ => hK b), Finset.sum_congr rfl (fun b _ => hR b), coe_sum', coe_sum',
    ← EReal.coe_neg, Finset.sum_neg_distrib]

end Cert.Spec

end
-- ==== Proof.lean ====
/-
  The certificate of the contrastive-loss kernel against its reference, over the extended reals.

  The loss is the common last formula of three numbers: the masked contrastive term (minus the sum, over masked
  positions, of the log-probability that a softmax over the positive's cosine and 100 negatives' cosines, over a
  temperature, gives the positive; a negative that is the positive itself struck out), the softmax of the codebook
  logits summed over all 8192 positions, and the sum of squares of the quantized features.

  The kernel computes them in two calls per batch with a scalar gather between them; its result is read off its run
  through the calls and the host operations around them.  The reference gathers whole rows, joins the positive in
  front, and takes a log-softmax over 101 logits; its result is read off its run one operation at a time.  Under the
  precondition — real features, every negative index in 0 … 1023 — the two gathers name the same rows, the kernel's
  "maximum, then positive's term plus negatives' sum" and the reference's log-softmax are one real number per position,
  and the sums differ only in how they are grouped.  The finite stand-in the kernel uses for the struck-out logit is
  named minus infinity by the certificate's table: the one rewrite of the idealization.
-/
import proofs.«416889_j3770981286079_1_alg».proof.Defs
import proofs.«416889_j3770981286079_1_alg».proof.Proof.Gen.Kernel
import proofs.«416889_j3770981286079_1_alg».proof.Proof.Gen.Kernel.Frame
import proofs.«416889_j3770981286079_1_alg».proof.Proof.Gen.KernelIdeal
import proofs.«416889_j3770981286079_1_alg».proof.Proof.Gen.KernelIdeal.Frame
import proofs.«416889_j3770981286079_1_alg».proof.Proof.Gen.ReferenceIdeal
import proofs.«416889_j3770981286079_1_alg».proof.Proof.Gen.Pre_finite_inputs
import proofs.«416889_j3770981286079_1_alg».proof.Proof.KRun
import proofs.«416889_j3770981286079_1_alg».proof.Proof.KValue
import proofs.«416889_j3770981286079_1_alg».proof.Proof.RefRun
import proofs.«416889_j3770981286079_1_alg».proof.Proof.RefFold
import proofs.«416889_j3770981286079_1_alg».proof.Proof.RefValueC
import proofs.«416889_j3770981286079_1_alg».proof.Proof.RefValueD
import proofs.«416889_j3770981286079_1_alg».proof.Proof.PreFacts
import proofs.«416889_j3770981286079_1_alg».proof.Proof.MathLC
import proofs.«416889_j3770981286079_1_alg».proof.Proof.MathSums
import Idealize.ShloMosaic.Adequacy
import Idealize.ShloMosaic.Init

set_option maxRecDepth 16384

noncomputable section

namespace Cert.Proof

open Idealize.ShloMosaic Idealize.SL.Sem Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the ideal pass: the finite stand-in of the mask fill is named minus infinity by the table. -/
theorem preserves : Cert.preserves_Kernel_KernelIdeal :=
  IdealRules.named_const.statement Cert.KernelIdeal.κ "neg_big" .f32 0xFF333332#32 ⊥ rfl

theorem algebraic : Cert.algebraic_KernelIdeal_ReferenceIdeal := by
  intro m ρ m' ρ' hpre hagree
  have hdec := fun c => Cert.PreFacts.decode _ _ _ _ _ (hpre c)
  refine ⟨fun c => fun _ => combine
      (lcK (m ((c.tc : Thread _ _).loc Cert.KernelIdeal.main_arg1)) (m ((c.tc : Thread _ _).loc Cert.KernelIdeal.main_arg0))
        (m ((c.tc : Thread _ _).loc Cert.KernelIdeal.main_arg3)) (m ((c.tc : Thread _ _).loc Cert.KernelIdeal.main_arg4)))
      (psK (m ((c.tc : Thread _ _).loc Cert.KernelIdeal.main_arg2)))
      (l2K (m ((c.tc : Thread _ _).loc Cert.KernelIdeal.main_arg0))), ?_, ?_⟩
  · exact (θ_run Cert.KernelIdeal.defs _ _).mono
      (fun r h c => ⟨(h c).1.trans (Cert.KernelIdeal.Value.kernel_value m ρ c (hdec c).2.2), (h c).2⟩)
      (Cert.KernelIdeal.RunV.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4⟩ := hagree c
    obtain ⟨hq, hx, hidx⟩ := hdec c
    rw [Cert.ReferenceIdeal.Fold.fold_result, e0, e1, e2, e3, e4]
    funext i
    rw [Cert.ReferenceIdeal.RefValue.result_value, Cert.ReferenceIdeal.RefValue.contrastive_value _ _ _ _ hidx i,
      ← lcK_eq_lcR _ _ _ _ hx hq, ← psK_eq_psR, ← l2K_eq_l2R]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
